-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x640000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S64 : Shape := ⟨1, ![64]⟩
abbrev S1x64 : Shape := ⟨2, ![1, 64]⟩
abbrev S100000x1 : Shape := ⟨2, ![100000, 1]⟩
abbrev S100000x64 : Shape := ⟨2, ![100000, 64]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S20x64x128 : Shape := ⟨3, ![20, 64, 128]⟩
abbrev S5000x128 : Shape := ⟨2, ![5000, 128]⟩
abbrev S5000x64 : Shape := ⟨2, ![5000, 64]⟩
abbrev S1x64x128 : Shape := ⟨3, ![1, 64, 128]⟩
abbrev S64x128 : Shape := ⟨2, ![64, 128]⟩
abbrev S64x384 : Shape := ⟨2, ![64, 384]⟩

abbrev nBuf : Space → Nat
  | .hbm => 84
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S64, .i32⟩
  | .hbm, ⟨16, _⟩ => ⟨S1x64, .i32⟩
  | .hbm, ⟨17, _⟩ => ⟨S100000x1, .i32⟩
  | .hbm, ⟨18, _⟩ => ⟨S100000x64, .i32⟩
  | .hbm, ⟨19, _⟩ => ⟨S100000x64, .i32⟩
  | .hbm, ⟨20, _⟩ => ⟨S100000x64, .i1⟩
  | .hbm, ⟨21, _⟩ => ⟨S100000x64, .bf16⟩
  | .hbm, ⟨22, _⟩ => ⟨S128x128, .bf16⟩
  | .hbm, ⟨23, _⟩ => ⟨S128x128, .bf16⟩
  | .hbm, ⟨24, _⟩ => ⟨S128x128, .bf16⟩
  | .hbm, ⟨25, _⟩ => ⟨S128x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S100000x128, .f32⟩
  | .hbm, ⟨37, _⟩ => ⟨S640000x1, .i32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S100000x128, .f32⟩
  | .hbm, ⟨42, _⟩ => ⟨S20x64x128, .f32⟩
  | .hbm, ⟨43, _⟩ => ⟨S_, .f32⟩
  | .hbm, ⟨44, _⟩ => ⟨S64x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S100000x128, .f32⟩
  | .hbm, ⟨56, _⟩ => ⟨S640000x1, .i32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S20x64x128, .f32⟩
  | .hbm, ⟨62, _⟩ => ⟨S_, .f32⟩
  | .hbm, ⟨63, _⟩ => ⟨S64x128, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x128, .f32⟩
  | .hbm, ⟨73, _⟩ => ⟨S_, .f32⟩
  | .hbm, ⟨74, _⟩ => ⟨S100000x128, .f32⟩
  | .hbm, ⟨75, _⟩ => ⟨S640000x1, .i32⟩
  | .hbm, ⟨76, _⟩ => ⟨S100000x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S20x64x128, .f32⟩
  | .hbm, ⟨81, _⟩ => ⟨S_, .f32⟩
  | .hbm, ⟨82, _⟩ => ⟨S64x128, .f32⟩
  | .hbm, ⟨83, _⟩ => ⟨S64x384, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x64, .bf16⟩
  | .local _ .vmem, ⟨5, _⟩ => ⟨S5000x64, .bf16⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x64x128, .f32⟩
  | .local _ .vmem, ⟨13, _⟩ => ⟨S1x64x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x64, .bf16⟩
  | .local _ .vmem, ⟨19, _⟩ => ⟨S5000x64, .bf16⟩
  | .local _ .vmem, ⟨20, _⟩ => ⟨S128x128, .bf16⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x64x128, .f32⟩
  | .local _ .vmem, ⟨27, _⟩ => ⟨S1x64x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x64, .bf16⟩
  | .local _ .vmem, ⟨33, _⟩ => ⟨S5000x64, .bf16⟩
  | .local _ .vmem, ⟨34, _⟩ => ⟨S128x128, .bf16⟩
  | .local _ .vmem, ⟨35, _⟩ => ⟨S1x128, .f32⟩
  | .local _ .vmem, ⟨36, _⟩ => ⟨S128x128, .bf16⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x64x128, .f32⟩
  | .local _ .vmem, ⟨41, _⟩ => ⟨S1x64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_cst_1 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_cst_5 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55_0 : Ref sig .tc := ⟨.hbm, 79, rfl⟩
abbrev main_v55_1 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x64x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S64_S1x64_1 : S64.BroadcastsInDim S1x64 (![1] : Fin 1 → Fin S1x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S1x64x128 : S64x128.ShapeCasts S1x64x128
  inb_S1x64x128_S1x64x128_0_0_0 : ∀ a, (![0, 0, 0] : Fin 3 → Nat) a + S1x64x128.size a ≤ S1x64x128.size a
  h_S1x64x128 : 0 < S1x64x128.numel
  reducesTo_S20x64x128_S64x128_d0 : S20x64x128.ReducesTo [0] S64x128
  h_S_ : 0 < S_.numel
  concatenates_S64x128_S64x128_S64x128_S64x384_d1 : Shape.Concatenates [S64x128, S64x128, S64x128] S64x384 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x128.size a ≤ S20x64x128.size a
  hwx0_8 : ∀ i : grid0.Coords, EltTy.bits .f32 = 32 ∨ (Rect.block (s := S20x64x128) S1x64x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x64x128.size a ≤ S20x64x128.size a
  hwx1_8 : ∀ i : grid1.Coords, EltTy.bits .f32 = 32 ∨ (Rect.block (s := S20x64x128) S1x64x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x64x128.size a ≤ S20x64x128.size a
  hwx2_8 : ∀ i : grid2.Coords, EltTy.bits .f32 = 32 ∨ (Rect.block (s := S20x64x128) S1x64x128.size (cc2_transform_8 i) (hinb2_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S1x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v41_1) S1x64x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v55_1) S1x64x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S64x128 : Shape := ⟨2, ![64, 128]⟩
abbrev S100000x1 : Shape := ⟨2, ![100000, 1]⟩
abbrev S64x384 : Shape := ⟨2, ![64, 384]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S100000x128, .f32⟩
  | .hbm, ⟨54, _⟩ => ⟨S640000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S64x128, .f32⟩
  | .hbm, ⟨101, _⟩ => ⟨S100000x1, .i32⟩
  | .hbm, ⟨102, _⟩ => ⟨S64x128, .f32⟩
  | .hbm, ⟨103, _⟩ => ⟨S_, .f32⟩
  | .hbm, ⟨104, _⟩ => ⟨S64x128, .f32⟩
  | .hbm, ⟨105, _⟩ => ⟨S100000x1, .i32⟩
  | .hbm, ⟨106, _⟩ => ⟨S64x128, .f32⟩
  | .hbm, ⟨107, _⟩ => ⟨S_, .f32⟩
  | .hbm, ⟨108, _⟩ => ⟨S64x128, .f32⟩
  | .hbm, ⟨109, _⟩ => ⟨S100000x1, .i32⟩
  | .hbm, ⟨110, _⟩ => ⟨S64x128, .f32⟩
  | .hbm, ⟨111, _⟩ => ⟨S64x384, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_cst : Ref sig .tc := ⟨.hbm, 61, rfl⟩
abbrev main_call2_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call3_cst : Ref sig .tc := ⟨.hbm, 68, rfl⟩
abbrev main_call3_v0 : Ref sig .tc := ⟨.hbm, 69, rfl⟩
abbrev main_v45 : Ref sig .tc := ⟨.hbm, 70, rfl⟩
abbrev main_c_4 : Ref sig .tc := ⟨.hbm, 71, rfl⟩
abbrev main_v46 : Ref sig .tc := ⟨.hbm, 72, rfl⟩
abbrev main_v47 : Ref sig .tc := ⟨.hbm, 73, rfl⟩
abbrev main_c_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call4_cst : Ref sig .tc := ⟨.hbm, 89, rfl⟩
abbrev main_call4_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call5_cst : Ref sig .tc := ⟨.hbm, 96, rfl⟩
abbrev main_call5_v0 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_8 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  concatenates_S64x128_S64x128_S64x128_S64x384_d1 : Shape.Concatenates [S64x128, S64x128, S64x128] S64x384 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.KRegion0.lean ====
/-
  Region 0 of the program (the first fused MLP-and-pool call), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.Kernel.Launch
import proofs.«426858_j7756710937226_3_alg».proof.Proof.Gen.Kernel.Skeleton
import proofs.«426858_j7756710937226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, whether the point fetched it or not (the four
    parameter windows are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S5000x128 := Rect.unit (s := S5000x128) ![0, 0] S5000x128.size inb_S5000x128_S5000x128_0_0
abbrev rP0 : Rect S1x64x128 := Rect.unit (s := S1x64x128) ![0, 0, 0] S1x64x128.size inb_S1x64x128_S1x64x128_0_0_0
abbrev rM0 : Rect S5000x64 := Rect.unit (s := S5000x64) ![0, 0] S5000x64.size inb_S5000x64_S5000x64_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The activation block the body stores: the two-layer perceptron of node block plus aggregate block. -/
def out0_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA0, k0_pay1 (View.ld x0 rA0) (View.ld x1 rA0) (View.ld x3 rW0) (View.ld x4 rB0) (View.ld x5 rW0) (View.ld x6 rB0)⟩]

/-- The partial pool the body stores: membership block transposed times the activation block. -/
def out0_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP0, k0_pay2 (View.ld x0 rA0) (View.ld x1 rA0) (View.ld x3 rW0) (View.ld x4 rB0) (View.ld x5 rW0) (View.ld x6 rB0) (View.ld x2 rM0)⟩]

/-- The single store of each output is the whole block, so it covers the block. -/
theorem cover0_7 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y
theorem cover0_8 (p0 : Vec F S1x64x128 .f32) (y : S1x64x128.Idx) :
    ∃ pc ∈ ([⟨rP0, p0⟩] : List (View.Piece (Elt F) S1x64x128 .f32)), y ∈ pc.1.set :=
  View.cover_of_tiled [⟨rP0, p0⟩] S1x64x128.size (by rfl) y

set_option maxHeartbeats 4000000 in
/-- The body on whole staging buffers, the inputs at known contents and the outputs at anything, runs to its end leaving
    the inputs as they were and the outputs at `out0_7` and `out0_8` of the inputs. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x3 x4 x5 x6) ∗ owns (c : Thread nD τ) arg9 fullShare (out0_8 x0 x1 x2 x3 x4 x5 x6)) -∗ K ⟨⟩))
      ⊢ wp frame (wpE (defs₀ (F := F)) Variants.none c none) E (cc0__mlp_pool_kernel i arg1 harg1 arg2 harg2 arg3 harg3 arg4 harg4 arg5 harg5 arg6 harg6 arg7 harg7 arg8 harg8 arg9 harg9) K := by
  simp only [cc0__mlp_pool_kernel_eq_skeleton]; unfold cc0__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- Region 0's proof data on core `c`: the arrays as the region finds them; after the body at point `t` each input's
    buffer still holds its block, the activation window's buffer the perceptron of the blocks and the pool window's
    buffer the partial pool of the blocks; the invariant is the scoped rest with the generator register, untouched;
    nothing is owed and every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, what the core owes, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the kernel's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program (fused MLP-and-pool call number 2), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.Kernel.Launch
import proofs.«426858_j7756710937226_3_alg».proof.Proof.Gen.Kernel.Skeleton
import proofs.«426858_j7756710937226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, whether the point fetched it or not (the four
    parameter windows are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rP1 : Rect S1x64x128 := Rect.unit (s := S1x64x128) ![0, 0, 0] S1x64x128.size inb_S1x64x128_S1x64x128_0_0_0
abbrev rM1 : Rect S5000x64 := Rect.unit (s := S5000x64) ![0, 0] S5000x64.size inb_S5000x64_S5000x64_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The activation block the body stores: the two-layer perceptron of node block plus aggregate block. -/
def out1_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA1, k1_pay1 (View.ld x0 rA1) (View.ld x1 rA1) (View.ld x3 rW1) (View.ld x4 rB1) (View.ld x5 rW1) (View.ld x6 rB1)⟩]

/-- The partial pool the body stores: membership block transposed times the activation block. -/
def out1_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP1, k1_pay2 (View.ld x0 rA1) (View.ld x1 rA1) (View.ld x3 rW1) (View.ld x4 rB1) (View.ld x5 rW1) (View.ld x6 rB1) (View.ld x2 rM1)⟩]

/-- The single store of each output is the whole block, so it covers the block. -/
theorem cover1_7 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y
theorem cover1_8 (p0 : Vec F S1x64x128 .f32) (y : S1x64x128.Idx) :
    ∃ pc ∈ ([⟨rP1, p0⟩] : List (View.Piece (Elt F) S1x64x128 .f32)), y ∈ pc.1.set :=
  View.cover_of_tiled [⟨rP1, p0⟩] S1x64x128.size (by rfl) y

set_option maxHeartbeats 4000000 in
/-- The body on whole staging buffers, the inputs at known contents and the outputs at anything, runs to its end leaving
    the inputs as they were and the outputs at `out1_7` and `out1_8` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x3 x4 x5 x6) ∗ owns (c : Thread nD τ) arg9 fullShare (out1_8 x0 x1 x2 x3 x4 x5 x6)) -∗ K ⟨⟩))
      ⊢ wp frame (wpE (defs₀ (F := F)) Variants.none c none) E (cc1__mlp_pool_kernel i arg1 harg1 arg2 harg2 arg3 harg3 arg4 harg4 arg5 harg5 arg6 harg6 arg7 harg7 arg8 harg8 arg9 harg9) K := by
  simp only [cc1__mlp_pool_kernel_eq_skeleton]; unfold cc1__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- Region 1's proof data on core `c`: the arrays as the region finds them; after the body at point `t` each input's
    buffer still holds its block, the activation window's buffer the perceptron of the blocks and the pool window's
    buffer the partial pool of the blocks; the invariant is the scoped rest with the generator register, untouched;
    nothing is owed and every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the kernel's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  Region 2 of the program (fused MLP-and-pool call number 3), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.Kernel.Launch
import proofs.«426858_j7756710937226_3_alg».proof.Proof.Gen.Kernel.Skeleton
import proofs.«426858_j7756710937226_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, whether the point fetched it or not (the four
    parameter windows are fetched once: their block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev rA2 : Rect S5000x128 := Rect.unit (s := S5000x128) ![0, 0] S5000x128.size inb_S5000x128_S5000x128_0_0
abbrev rP2 : Rect S1x64x128 := Rect.unit (s := S1x64x128) ![0, 0, 0] S1x64x128.size inb_S1x64x128_S1x64x128_0_0_0
abbrev rM2 : Rect S5000x64 := Rect.unit (s := S5000x64) ![0, 0] S5000x64.size inb_S5000x64_S5000x64_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The activation block the body stores: the two-layer perceptron of node block plus aggregate block. -/
def out2_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA2, k2_pay1 (View.ld x0 rA2) (View.ld x1 rA2) (View.ld x3 rW2) (View.ld x4 rB2) (View.ld x5 rW2) (View.ld x6 rB2)⟩]

/-- The partial pool the body stores: membership block transposed times the activation block. -/
def out2_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP2, k2_pay2 (View.ld x0 rA2) (View.ld x1 rA2) (View.ld x3 rW2) (View.ld x4 rB2) (View.ld x5 rW2) (View.ld x6 rB2) (View.ld x2 rM2)⟩]

/-- The single store of each output is the whole block, so it covers the block. -/
theorem cover2_7 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y
theorem cover2_8 (p0 : Vec F S1x64x128 .f32) (y : S1x64x128.Idx) :
    ∃ pc ∈ ([⟨rP2, p0⟩] : List (View.Piece (Elt F) S1x64x128 .f32)), y ∈ pc.1.set :=
  View.cover_of_tiled [⟨rP2, p0⟩] S1x64x128.size (by rfl) y

set_option maxHeartbeats 4000000 in
/-- The body on whole staging buffers, the inputs at known contents and the outputs at anything, runs to its end leaving
    the inputs as they were and the outputs at `out2_7` and `out2_8` of the inputs. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x3 x4 x5 x6) ∗ owns (c : Thread nD τ) arg9 fullShare (out2_8 x0 x1 x2 x3 x4 x5 x6)) -∗ K ⟨⟩))
      ⊢ wp frame (wpE (defs₀ (F := F)) Variants.none c none) E (cc2__mlp_pool_kernel i arg1 harg1 arg2 harg2 arg3 harg3 arg4 harg4 arg5 harg5 arg6 harg6 arg7 harg7 arg8 harg8 arg9 harg9) K := by
  simp only [cc2__mlp_pool_kernel_eq_skeleton]; unfold cc2__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The pipeline's proof data -/

/-- Region 2's proof data on core `c`: the arrays as the region finds them; after the body at point `t` each input's
    buffer still holds its block, the activation window's buffer the perceptron of the blocks and the pool window's
    buffer the partial pool of the blocks; the invariant is the scoped rest with the generator register, untouched;
    nothing is owed and every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the kernel's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFold.lean ====
/-
  The contents of the TensorCore's buffers at each boundary of the program, as a fold from the launch memory: a stretch
  of host operations applies its operations to what it finds; a kernel region leaves each of its arrays at what the
  write-backs of its grid points leave (the input arrays as found, the two output arrays block by block) and every
  other buffer as found.  Over it: the proof data of the three regions, each taken at the contents its region is entered
  with, and what rides beside the buffers through every segment (the generator register, nothing owed).  No host
  operation and no region writes an argument array, so the fold at an argument walks back to the launch memory.
-/
import proofs.«426858_j7756710937226_3_alg».proof.Proof.KRegion0
import proofs.«426858_j7756710937226_3_alg».proof.Proof.KRegion1
import proofs.«426858_j7756710937226_3_alg».proof.Proof.KRegion2
import proofs.«426858_j7756710937226_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev W0 (c : Dev nD) : Valuation τ sig (Elt F) := fun b => m (c, b)

/-- At region 0's entry: after the first host stretch. -/
abbrev Win0 (c : Dev nD) : Valuation τ sig (Elt F) := StableHlo.after hostOps0 (W0 m c)
/-- The same read at the TensorCore's references. -/
abbrev Rdin0 : (c : Dev nD) → (b : Ref sig .tc) → Buf (Elt F) ((c : Thread nD τ).loc b) := fun c b => Win0 m c b
/-- At region 0's exit: its arrays at what the pipeline leaves, every other buffer as entered. -/
def Wout0 (c : Dev nD) : Valuation τ sig (Elt F) :=
  Pipeline.withArrays spec0 c (Win0 m c) fun w => (dat0 (Rdin0 m) c).arrAt w cfg0.N
theorem Wout0_arr (c : Dev nD) (w : Fin cfg0.W) :
    Wout0 m c (Proc.devRef .tc (Pipeline.arrRef spec0 w)) = (dat0 (Rdin0 m) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) := by
  unfold Wout0; exact Pipeline.withArrays_of_ne spec0 c _ _ b hb
abbrev Rdout0 : (c : Dev nD) → (b : Ref sig .tc) → Buf (Elt F) ((c : Thread nD τ).loc b) := fun c b => Wout0 m c b
theorem hF0 (c : Dev nD) (w : Fin cfg0.W) : (dat0 (Rdin0 m) c).arrAt w cfg0.N = Rdout0 m c (Pipeline.arrRef spec0 w) :=
  (Wout0_arr m c w).symm
theorem hrest0 (c : Dev nD) : ∀ b, b ∉ Finset.univ.image (Pipeline.arrRef spec0) → Rdout0 m c b = Rdin0 m c b :=
  fun b hb => Wout0_of_ne m c b fun w e => hb (Finset.mem_image.mpr ⟨w, Finset.mem_univ _, e⟩)

/-- At region 1's entry: after the second host stretch. -/
abbrev Win1 (c : Dev nD) : Valuation τ sig (Elt F) := StableHlo.after hostOps1 (Wout0 m c)
abbrev Rdin1 : (c : Dev nD) → (b : Ref sig .tc) → Buf (Elt F) ((c : Thread nD τ).loc b) := fun c b => Win1 m c b
/-- At region 1's exit. -/
def Wout1 (c : Dev nD) : Valuation τ sig (Elt F) :=
  Pipeline.withArrays spec1 c (Win1 m c) fun w => (dat1 (Rdin1 m) c).arrAt w cfg1.N
theorem Wout1_arr (c : Dev nD) (w : Fin cfg1.W) :
    Wout1 m c (Proc.devRef .tc (Pipeline.arrRef spec1 w)) = (dat1 (Rdin1 m) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) := by
  unfold Wout1; exact Pipeline.withArrays_of_ne spec1 c _ _ b hb
abbrev Rdout1 : (c : Dev nD) → (b : Ref sig .tc) → Buf (Elt F) ((c : Thread nD τ).loc b) := fun c b => Wout1 m c b
theorem hF1 (c : Dev nD) (w : Fin cfg1.W) : (dat1 (Rdin1 m) c).arrAt w cfg1.N = Rdout1 m c (Pipeline.arrRef spec1 w) :=
  (Wout1_arr m c w).symm
theorem hrest1 (c : Dev nD) : ∀ b, b ∉ Finset.univ.image (Pipeline.arrRef spec1) → Rdout1 m c b = Rdin1 m c b :=
  fun b hb => Wout1_of_ne m c b fun w e => hb (Finset.mem_image.mpr ⟨w, Finset.mem_univ _, e⟩)

/-- At region 2's entry: after the third host stretch. -/
abbrev Win2 (c : Dev nD) : Valuation τ sig (Elt F) := StableHlo.after hostOps2 (Wout1 m c)
abbrev Rdin2 : (c : Dev nD) → (b : Ref sig .tc) → Buf (Elt F) ((c : Thread nD τ).loc b) := fun c b => Win2 m c b
/-- At region 2's exit. -/
def Wout2 (c : Dev nD) : Valuation τ sig (Elt F) :=
  Pipeline.withArrays spec2 c (Win2 m c) fun w => (dat2 (Rdin2 m) c).arrAt w cfg2.N
theorem Wout2_arr (c : Dev nD) (w : Fin cfg2.W) :
    Wout2 m c (Proc.devRef .tc (Pipeline.arrRef spec2 w)) = (dat2 (Rdin2 m) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) := by
  unfold Wout2; exact Pipeline.withArrays_of_ne spec2 c _ _ b hb
abbrev Rdout2 : (c : Dev nD) → (b : Ref sig .tc) → Buf (Elt F) ((c : Thread nD τ).loc b) := fun c b => Wout2 m c b
theorem hF2 (c : Dev nD) (w : Fin cfg2.W) : (dat2 (Rdin2 m) c).arrAt w cfg2.N = Rdout2 m c (Pipeline.arrRef spec2 w) :=
  (Wout2_arr m c w).symm
theorem hrest2 (c : Dev nD) : ∀ b, b ∉ Finset.univ.image (Pipeline.arrRef spec2) → Rdout2 m c b = Rdin2 m c b :=
  fun b hb => Wout2_of_ne m c b fun w e => hb (Finset.mem_image.mpr ⟨w, Finset.mem_univ _, e⟩)

/-- At the return: after the last host stretch. -/
abbrev W7 (c : Dev nD) : Valuation τ sig (Elt F) := StableHlo.after hostOps3 (Wout2 m c)

/-! ## A buffer nothing writes ends as launched -/

/-- A buffer that no host stretch writes and that is no array of any region holds its launch contents at the return. -/
theorem W7_of (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  calc W7 m c (Proc.devRef .tc r)
    _ = Wout2 m c (Proc.devRef .tc r) := StableHlo.after_of_writes_sub hostOps3 _ hostOps3_writes h3
    _ = Win2 m c (Proc.devRef .tc r) := Wout2_of_ne m c r a2
    _ = Wout1 m c (Proc.devRef .tc r) := StableHlo.after_of_writes_sub hostOps2 _ hostOps2_writes h2
    _ = Win1 m c (Proc.devRef .tc r) := Wout1_of_ne m c r a1
    _ = Wout0 m c (Proc.devRef .tc r) := StableHlo.after_of_writes_sub hostOps1 _ hostOps1_writes h1
    _ = Win0 m c (Proc.devRef .tc r) := Wout0_of_ne m c r a0
    _ = W0 m c (Proc.devRef .tc r) := StableHlo.after_of_writes_sub hostOps0 _ hostOps0_writes h0
    _ = m ((c : Thread nD τ).loc r) := rfl

/-- The node features are region 0's first input array: the region reads them through an input window and leaves them. -/
theorem W7_main_arg0 (c : Dev nD) : W7 m c (Proc.devRef .tc main_arg0) = m ((c : Thread nD τ).loc main_arg0) :=
  calc W7 m c (Proc.devRef .tc main_arg0)
    _ = Wout2 m c (Proc.devRef .tc main_arg0) := StableHlo.after_of_writes_sub hostOps3 _ hostOps3_writes (by decide)
    _ = Win2 m c (Proc.devRef .tc main_arg0) := Wout2_of_ne m c main_arg0 (by decide)
    _ = Wout1 m c (Proc.devRef .tc main_arg0) := StableHlo.after_of_writes_sub hostOps2 _ hostOps2_writes (by decide)
    _ = Win1 m c (Proc.devRef .tc main_arg0) := Wout1_of_ne m c main_arg0 (by decide)
    _ = Wout0 m c (Proc.devRef .tc main_arg0) := StableHlo.after_of_writes_sub hostOps1 _ hostOps1_writes (by decide)
    _ = Win0 m c (Proc.devRef .tc main_arg0) := (Wout0_arr m c 0).trans (((dat0 (Rdin0 m) c).arrAt_in 0 rfl _).trans (A_eq0 (Rdin0 m) c 0))
    _ = W0 m c (Proc.devRef .tc main_arg0) := StableHlo.after_of_writes_sub hostOps0 _ hostOps0_writes (by decide)
    _ = m ((c : Thread nD τ).loc main_arg0) := rfl

/-! ## The proof data family and the thread state -/

/-- The three regions' places in the program's list of pipelines. -/
abbrev pidx0 : Fin 3 := 0
abbrev pidx1 : Fin 3 := 1
abbrev pidx2 : Fin 3 := 2

/-- No region has a prefetched table. -/
abbrev tabs : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) tabs p) c
  | ⟨0, _⟩ => fun c => dat0 (Rdin0 m) c
  | ⟨1, _⟩ => fun c => dat1 (Rdin1 m) c
  | ⟨2, _⟩ => fun c => dat2 (Rdin2 m) c

abbrev noVar : Variants := Variants.none
/-- No core owes another anything: no level is assigned. -/
abbrev noL : GSem nD τ sig → Finset Unit := fun _ => ∅
abbrev noLv : GSem nD τ sig → Unit → ℕ := fun _ _ => 0

/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-- A host stretch as a segment: from the unscoped buffers at `W` to the same at the operations applied to `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the return's contents, the register at some state. -/
abbrev Tlast (c : Dev nD) : sProp 𝕄 := iprop(StableHlo.held (c : Thread nD τ) (Pipeline.ucRefs τ sig) (W7 m c) ∗ ∃ r, prngReg c r)

end Cert.Kernel.Hand

end
-- ==== Proof.KReg0.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg0 : Pipeline.RegionSeg (pcfgs (F := F)) tabs (pdats m) () defs₀ noVar noL noLv pidx0 where
  win := launch0.win.to₀
  block_pos := launch0.block_pos
  stage_whole := launch0.stage_whole
  K := PEmpty
  osem k := k.elim
  ho := Pipeline.OwnSemFacts.none _
  hbody c := (body_obligation0 (Rdin0 m) c).loose
  hwaits := Pipeline.hwaits_of_owed_zero _ _ _ _ noL noLv pidx0 fun _ _ => rfl
  pre c := iprop(StableHlo.held (c : Thread nD τ) (Pipeline.ucRefs τ sig) (Win0 m c) ∗ Rst c)
  post c := iprop(StableHlo.held (c : Thread nD τ) (Pipeline.ucRefs τ sig) (Wout0 m c) ∗ Rst c)
  X c := iprop(∃ r, prngReg c r)
  Y c := iprop(∃ r, prngReg c r)
  Z c := Pipeline.unscopedRest (Ix := Unit) (Name := ℕ) (U := UR sig nD τ) (Lvl := ℕ) spec0 c (Rdin0 m c)
  hentry c := by
    rw [Pipeline.ownSems0_none]
    have hsplit := Pipeline.arrays_of_unscopedBufs (p := pidx0) (pcfgs (F := F)) tabs (pdats m) launch0.win launch0.arr_whole c
      ((pdats m pidx0 c).share_full fun _ => rfl) (Rdin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pidx0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pidx0) (pcfgs (F := F)) tabs (Ix := Unit) (Name := ℕ) (U := UR sig nD τ) (Lvl := ℕ)
      launch0.win launch0.arr_whole c (pdats m) ((pdats m pidx0 c).share_full fun _ => rfl)
      (Rdin0 m c) (Rdout0 m c) ((pdats m pidx0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg1.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg1 : Pipeline.RegionSeg (pcfgs (F := F)) tabs (pdats m) () defs₀ noVar noL noLv pidx1 where
  win := launch1.win.to₀
  block_pos := launch1.block_pos
  stage_whole := launch1.stage_whole
  K := PEmpty
  osem k := k.elim
  ho := Pipeline.OwnSemFacts.none _
  hbody c := (body_obligation1 (Rdin1 m) c).loose
  hwaits := Pipeline.hwaits_of_owed_zero _ _ _ _ noL noLv pidx1 fun _ _ => rfl
  pre c := iprop(StableHlo.held (c : Thread nD τ) (Pipeline.ucRefs τ sig) (Win1 m c) ∗ Rst c)
  post c := iprop(StableHlo.held (c : Thread nD τ) (Pipeline.ucRefs τ sig) (Wout1 m c) ∗ Rst c)
  X c := iprop(∃ r, prngReg c r)
  Y c := iprop(∃ r, prngReg c r)
  Z c := Pipeline.unscopedRest (Ix := Unit) (Name := ℕ) (U := UR sig nD τ) (Lvl := ℕ) spec1 c (Rdin1 m c)
  hentry c := by
    rw [Pipeline.ownSems0_none]
    have hsplit := Pipeline.arrays_of_unscopedBufs (p := pidx1) (pcfgs (F := F)) tabs (pdats m) launch1.win launch1.arr_whole c
      ((pdats m pidx1 c).share_full fun _ => rfl) (Rdin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pidx1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pidx1) (pcfgs (F := F)) tabs (Ix := Unit) (Name := ℕ) (U := UR sig nD τ) (Lvl := ℕ)
      launch1.win launch1.arr_whole c (pdats m) ((pdats m pidx1 c).share_full fun _ => rfl)
      (Rdin1 m c) (Rdout1 m c) ((pdats m pidx1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.KFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg2 : Pipeline.RegionSeg (pcfgs (F := F)) tabs (pdats m) () defs₀ noVar noL noLv pidx2 where
  win := launch2.win.to₀
  block_pos := launch2.block_pos
  stage_whole := launch2.stage_whole
  K := PEmpty
  osem k := k.elim
  ho := Pipeline.OwnSemFacts.none _
  hbody c := (body_obligation2 (Rdin2 m) c).loose
  hwaits := Pipeline.hwaits_of_owed_zero _ _ _ _ noL noLv pidx2 fun _ _ => rfl
  pre c := iprop(StableHlo.held (c : Thread nD τ) (Pipeline.ucRefs τ sig) (Win2 m c) ∗ Rst c)
  post c := iprop(StableHlo.held (c : Thread nD τ) (Pipeline.ucRefs τ sig) (Wout2 m c) ∗ Rst c)
  X c := iprop(∃ r, prngReg c r)
  Y c := iprop(∃ r, prngReg c r)
  Z c := Pipeline.unscopedRest (Ix := Unit) (Name := ℕ) (U := UR sig nD τ) (Lvl := ℕ) spec2 c (Rdin2 m c)
  hentry c := by
    rw [Pipeline.ownSems0_none]
    have hsplit := Pipeline.arrays_of_unscopedBufs (p := pidx2) (pcfgs (F := F)) tabs (pdats m) launch2.win launch2.arr_whole c
      ((pdats m pidx2 c).share_full fun _ => rfl) (Rdin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pidx2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pidx2) (pcfgs (F := F)) tabs (Ix := Unit) (Name := ℕ) (U := UR sig nD τ) (Lvl := ℕ)
      launch2.win launch2.arr_whole c (pdats m) ((pdats m pidx2 c).share_full fun _ => rfl)
      (Rdin2 m c) (Rdout2 m c) ((pdats m pidx2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunAll.lean ====
/-
  The whole program as seven segments — host stretch, region, host stretch, region, host stretch, region, host stretch —
  and its run: from any memory with zero counters every weakly fair execution terminates, nothing faulting, and at the end
  every unscoped buffer of every core holds what the fold of the boundaries' contents gives at the return.  Read at the
  argument arrays this is the frame (each ends as launched); read at the result buffer it names the result.
-/
import proofs.«426858_j7756710937226_3_alg».proof.Proof.KReg0
import proofs.«426858_j7756710937226_3_alg».proof.Proof.KReg1
import proofs.«426858_j7756710937226_3_alg».proof.Proof.KReg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seven segments in order: a host segment per stretch from its boundary's contents, a region per call. -/
abbrev segsAll : List (Pipeline.Seg (pcfgs (F := F)) tabs (pdats m) () defs₀ noVar noL noLv) :=
  [ .host (hostSeg hostOps0 hostOps0_sub hostOps0_fresh (W0 m)),
    .region (reg0 m),
    .host (hostSeg hostOps1 hostOps1_sub hostOps1_fresh (Wout0 m)),
    .region (reg1 m),
    .host (hostSeg hostOps2 hostOps2_sub hostOps2_fresh (Wout1 m)),
    .region (reg2 m),
    .host (hostSeg hostOps3 hostOps3_sub hostOps3_fresh (Wout2 m)) ]

/-- The program is the run of its segments. -/
theorem main_run (c : Dev nD) : main (F := F) c = Pipeline.Seg.run (segsAll m) := (main_chain c).trans (by chain_rfl)

set_option backward.isDefEq.respectTransparency.types false in
/-- The run: every unscoped buffer ends at the return's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) tabs (pdats m) () cellOf_inj emb₁ defs₀ noVar noL noLv m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c)
            ∗ ((∃ r, prngReg c r) ∗ ∃ W, owes (c : Thread nD τ) (0 : CellTallies nD τ sig Unit) W))
          ⊢ iprop((StableHlo.held (c : Thread nD τ) (Pipeline.ucRefs τ sig) (W7 m c) ∗ ∃ r, prngReg c r)
            ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m c),
      (h c _ (mem_uc main_arg1 (by decide))).trans (W7_of m c main_arg1 (by decide) (by decide) (by decide) (by decide) (by decide) (by decide) (by decide)),
      (h c _ (mem_uc main_arg2 (by decide))).trans (W7_of m c main_arg2 (by decide) (by decide) (by decide) (by decide) (by decide) (by decide) (by decide)),
      (h c _ (mem_uc main_arg3 (by decide))).trans (W7_of m c main_arg3 (by decide) (by decide) (by decide) (by decide) (by decide) (by decide) (by decide)),
      (h c _ (mem_uc main_arg4 (by decide))).trans (W7_of m c main_arg4 (by decide) (by decide) (by decide) (by decide) (by decide) (by decide) (by decide)),
      (h c _ (mem_uc main_arg5 (by decide))).trans (W7_of m c main_arg5 (by decide) (by decide) (by decide) (by decide) (by decide) (by decide) (by decide)),
      (h c _ (mem_uc main_arg6 (by decide))).trans (W7_of m c main_arg6 (by decide) (by decide) (by decide) (by decide) (by decide) (by decide) (by decide)),
      (h c _ (mem_uc main_arg7 (by decide))).trans (W7_of m c main_arg7 (by decide) (by decide) (by decide) (by decide) (by decide) (by decide) (by decide)),
      (h c _ (mem_uc main_arg8 (by decide))).trans (W7_of m c main_arg8 (by decide) (by decide) (by decide) (by decide) (by decide) (by decide) (by decide)),
      (h c _ (mem_uc main_arg9 (by decide))).trans (W7_of m c main_arg9 (by decide) (by decide) (by decide) (by decide) (by decide) (by decide) (by decide)),
      (h c _ (mem_uc main_arg10 (by decide))).trans (W7_of m c main_arg10 (by decide) (by decide) (by decide) (by decide) (by decide) (by decide) (by decide))⟩) (run_all m ρ)

/-- The result: the result buffer ends at the return's contents there, and every argument array as launched. -/
theorem result_all : θ_run defs (onTc (τ := τ) (main (F := F))) ⟨m, fun _ => 0, ρ⟩ (fun r => ∀ c : Dev nD,
      r.2.mem ((c.tc : Thread nD τ).loc main_v57) = W7 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v57 (by decide)), (h c _ (mem_uc main_arg0 (by decide))).trans (W7_main_arg0 m c),
      (h c _ (mem_uc main_arg1 (by decide))).trans (W7_of m c main_arg1 (by decide) (by decide) (by decide) (by decide) (by decide) (by decide) (by decide)),
      (h c _ (mem_uc main_arg2 (by decide))).trans (W7_of m c main_arg2 (by decide) (by decide) (by decide) (by decide) (by decide) (by decide) (by decide)),
      (h c _ (mem_uc main_arg3 (by decide))).trans (W7_of m c main_arg3 (by decide) (by decide) (by decide) (by decide) (by decide) (by decide) (by decide)),
      (h c _ (mem_uc main_arg4 (by decide))).trans (W7_of m c main_arg4 (by decide) (by decide) (by decide) (by decide) (by decide) (by decide) (by decide)),
      (h c _ (mem_uc main_arg5 (by decide))).trans (W7_of m c main_arg5 (by decide) (by decide) (by decide) (by decide) (by decide) (by decide) (by decide)),
      (h c _ (mem_uc main_arg6 (by decide))).trans (W7_of m c main_arg6 (by decide) (by decide) (by decide) (by decide) (by decide) (by decide) (by decide)),
      (h c _ (mem_uc main_arg7 (by decide))).trans (W7_of m c main_arg7 (by decide) (by decide) (by decide) (by decide) (by decide) (by decide) (by decide)),
      (h c _ (mem_uc main_arg8 (by decide))).trans (W7_of m c main_arg8 (by decide) (by decide) (by decide) (by decide) (by decide) (by decide) (by decide)),
      (h c _ (mem_uc main_arg9 (by decide))).trans (W7_of m c main_arg9 (by decide) (by decide) (by decide) (by decide) (by decide) (by decide) (by decide)),
      (h c _ (mem_uc main_arg10 (by decide))).trans (W7_of m c main_arg10 (by decide) (by decide) (by decide) (by decide) (by decide) (by decide) (by decide))⟩) (run_all m ρ)

end Cert.Kernel.Hand

end
-- ==== Proof.Region0.lean ====
/-
  Region 0 of the program (the first fused MLP-and-pool call), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.KernelIdeal.Launch
import proofs.«426858_j7756710937226_3_alg».proof.Proof.Gen.KernelIdeal.Skeleton
import proofs.«426858_j7756710937226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, whether the point fetched it or not (the four
    parameter windows are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S5000x128 := Rect.unit (s := S5000x128) ![0, 0] S5000x128.size inb_S5000x128_S5000x128_0_0
abbrev rP0 : Rect S1x64x128 := Rect.unit (s := S1x64x128) ![0, 0, 0] S1x64x128.size inb_S1x64x128_S1x64x128_0_0_0
abbrev rM0 : Rect S5000x64 := Rect.unit (s := S5000x64) ![0, 0] S5000x64.size inb_S5000x64_S5000x64_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The activation block the body stores: the two-layer perceptron of node block plus aggregate block. -/
def out0_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA0, k0_pay1 (View.ld x0 rA0) (View.ld x1 rA0) (View.ld x3 rW0) (View.ld x4 rB0) (View.ld x5 rW0) (View.ld x6 rB0)⟩]

/-- The partial pool the body stores: membership block transposed times the activation block. -/
def out0_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP0, k0_pay2 (View.ld x0 rA0) (View.ld x1 rA0) (View.ld x3 rW0) (View.ld x4 rB0) (View.ld x5 rW0) (View.ld x6 rB0) (View.ld x2 rM0)⟩]

/-- The single store of each output is the whole block, so it covers the block. -/
theorem cover0_7 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y
theorem cover0_8 (p0 : Vec F S1x64x128 .f32) (y : S1x64x128.Idx) :
    ∃ pc ∈ ([⟨rP0, p0⟩] : List (View.Piece (Elt F) S1x64x128 .f32)), y ∈ pc.1.set :=
  View.cover_of_tiled [⟨rP0, p0⟩] S1x64x128.size (by rfl) y

set_option maxHeartbeats 4000000 in
/-- The body on whole staging buffers, the inputs at known contents and the outputs at anything, runs to its end leaving
    the inputs as they were and the outputs at `out0_7` and `out0_8` of the inputs. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x3 x4 x5 x6) ∗ owns (c : Thread nD τ) arg9 fullShare (out0_8 x0 x1 x2 x3 x4 x5 x6)) -∗ K ⟨⟩))
      ⊢ wp frame (wpE (defs₀ (F := F)) Variants.none c none) E (cc0__mlp_pool_kernel i arg1 harg1 arg2 harg2 arg3 harg3 arg4 harg4 arg5 harg5 arg6 harg6 arg7 harg7 arg8 harg8 arg9 harg9) K := by
  simp only [cc0__mlp_pool_kernel_eq_skeleton]; unfold cc0__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- Region 0's proof data on core `c`: the arrays as the region finds them; after the body at point `t` each input's
    buffer still holds its block, the activation window's buffer the perceptron of the blocks and the pool window's
    buffer the partial pool of the blocks; the invariant is the scoped rest with the generator register, untouched;
    nothing is owed and every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, what the core owes, and each window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the kernel's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Region 1 of the program (fused MLP-and-pool call number 2), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.KernelIdeal.Launch
import proofs.«426858_j7756710937226_3_alg».proof.Proof.Gen.KernelIdeal.Skeleton
import proofs.«426858_j7756710937226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, whether the point fetched it or not (the four
    parameter windows are fetched once: their block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rP1 : Rect S1x64x128 := Rect.unit (s := S1x64x128) ![0, 0, 0] S1x64x128.size inb_S1x64x128_S1x64x128_0_0_0
abbrev rM1 : Rect S5000x64 := Rect.unit (s := S5000x64) ![0, 0] S5000x64.size inb_S5000x64_S5000x64_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The activation block the body stores: the two-layer perceptron of node block plus aggregate block. -/
def out1_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA1, k1_pay1 (View.ld x0 rA1) (View.ld x1 rA1) (View.ld x3 rW1) (View.ld x4 rB1) (View.ld x5 rW1) (View.ld x6 rB1)⟩]

/-- The partial pool the body stores: membership block transposed times the activation block. -/
def out1_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP1, k1_pay2 (View.ld x0 rA1) (View.ld x1 rA1) (View.ld x3 rW1) (View.ld x4 rB1) (View.ld x5 rW1) (View.ld x6 rB1) (View.ld x2 rM1)⟩]

/-- The single store of each output is the whole block, so it covers the block. -/
theorem cover1_7 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y
theorem cover1_8 (p0 : Vec F S1x64x128 .f32) (y : S1x64x128.Idx) :
    ∃ pc ∈ ([⟨rP1, p0⟩] : List (View.Piece (Elt F) S1x64x128 .f32)), y ∈ pc.1.set :=
  View.cover_of_tiled [⟨rP1, p0⟩] S1x64x128.size (by rfl) y

set_option maxHeartbeats 4000000 in
/-- The body on whole staging buffers, the inputs at known contents and the outputs at anything, runs to its end leaving
    the inputs as they were and the outputs at `out1_7` and `out1_8` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x3 x4 x5 x6) ∗ owns (c : Thread nD τ) arg9 fullShare (out1_8 x0 x1 x2 x3 x4 x5 x6)) -∗ K ⟨⟩))
      ⊢ wp frame (wpE (defs₀ (F := F)) Variants.none c none) E (cc1__mlp_pool_kernel i arg1 harg1 arg2 harg2 arg3 harg3 arg4 harg4 arg5 harg5 arg6 harg6 arg7 harg7 arg8 harg8 arg9 harg9) K := by
  simp only [cc1__mlp_pool_kernel_eq_skeleton]; unfold cc1__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- Region 1's proof data on core `c`: the arrays as the region finds them; after the body at point `t` each input's
    buffer still holds its block, the activation window's buffer the perceptron of the blocks and the pool window's
    buffer the partial pool of the blocks; the invariant is the scoped rest with the generator register, untouched;
    nothing is owed and every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the kernel's run applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2.lean ====
/-
  Region 2 of the program (fused MLP-and-pool call number 3), at any float instance: what the kernel body leaves in its two
  output blocks as functions of its seven input blocks, the body's run on whole staging buffers, and the pipeline's
  proof data with its obligation at every grid point.  The body adds the node block to its aggregate block, applies two
  affine layers with a rectifier after each, stores the result block, and stores the product of the transposed
  membership block with that result as one partial pool.  All of this is stated at the contents `V` the buffers hold
  when the region is entered.
-/
import proofs.«426858_j7756710937226_3_alg».proof.Proof.Gen.KernelIdeal.Launch
import proofs.«426858_j7756710937226_3_alg».proof.Proof.Gen.KernelIdeal.Skeleton
import proofs.«426858_j7756710937226_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, whether the point fetched it or not (the four
    parameter windows are fetched once: their block index never moves). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev rA2 : Rect S5000x128 := Rect.unit (s := S5000x128) ![0, 0] S5000x128.size inb_S5000x128_S5000x128_0_0
abbrev rP2 : Rect S1x64x128 := Rect.unit (s := S1x64x128) ![0, 0, 0] S1x64x128.size inb_S1x64x128_S1x64x128_0_0_0
abbrev rM2 : Rect S5000x64 := Rect.unit (s := S5000x64) ![0, 0] S5000x64.size inb_S5000x64_S5000x64_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The activation block the body stores: the two-layer perceptron of node block plus aggregate block. -/
def out2_7 (x0 x1 : Vec F S5000x128 .f32) (x3 : Vec F S128x128 .bf16) (x4 : Vec F S1x128 .f32) (x5 : Vec F S128x128 .bf16) (x6 : Vec F S1x128 .f32) : Vec F S5000x128 .f32 :=
  View.canon [⟨rA2, k2_pay1 (View.ld x0 rA2) (View.ld x1 rA2) (View.ld x3 rW2) (View.ld x4 rB2) (View.ld x5 rW2) (View.ld x6 rB2)⟩]

/-- The partial pool the body stores: membership block transposed times the activation block. -/
def out2_8 (x0 x1 : Vec F S5000x128 .f32) (x2 : Vec F S5000x64 .bf16) (x3 : Vec F S128x128 .bf16) (x4 : Vec F S1x128 .f32) (x5 : Vec F S128x128 .bf16) (x6 : Vec F S1x128 .f32) : Vec F S1x64x128 .f32 :=
  View.canon [⟨rP2, k2_pay2 (View.ld x0 rA2) (View.ld x1 rA2) (View.ld x3 rW2) (View.ld x4 rB2) (View.ld x5 rW2) (View.ld x6 rB2) (View.ld x2 rM2)⟩]

/-- The single store of each output is the whole block, so it covers the block. -/
theorem cover2_7 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y
theorem cover2_8 (p0 : Vec F S1x64x128 .f32) (y : S1x64x128.Idx) :
    ∃ pc ∈ ([⟨rP2, p0⟩] : List (View.Piece (Elt F) S1x64x128 .f32)), y ∈ pc.1.set :=
  View.cover_of_tiled [⟨rP2, p0⟩] S1x64x128.size (by rfl) y

set_option maxHeartbeats 4000000 in
/-- The body on whole staging buffers, the inputs at known contents and the outputs at anything, runs to its end leaving
    the inputs as they were and the outputs at `out2_7` and `out2_8` of the inputs. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x64 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x64x128 .f32) (harg9 : arg9.IsWhole)
    (x0 : Vec F S5000x128 .f32) (x1 : Vec F S5000x128 .f32) (x2 : Vec F S5000x64 .bf16) (x3 : Vec F S128x128 .bf16) (x4 : Vec F S1x128 .f32) (x5 : Vec F S128x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x3 x4 x5 x6) ∗ owns (c : Thread nD τ) arg9 fullShare (out2_8 x0 x1 x2 x3 x4 x5 x6)) -∗ K ⟨⟩))
      ⊢ wp frame (wpE (defs₀ (F := F)) Variants.none c none) E (cc2__mlp_pool_kernel i arg1 harg1 arg2 harg2 arg3 harg3 arg4 harg4 arg5 harg5 arg6 harg6 arg7 harg7 arg8 harg8 arg9 harg9) K := by
  simp only [cc2__mlp_pool_kernel_eq_skeleton]; unfold cc2__mlp_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-! ## The pipeline's proof data -/

/-- Region 2's proof data on core `c`: the arrays as the region finds them; after the body at point `t` each input's
    buffer still holds its block, the activation window's buffer the perceptron of the blocks and the pool window's
    buffer the partial pool of the blocks; the invariant is the scoped rest with the generator register, untouched;
    nothing is owed and every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the kernel's run applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Fold.lean ====
/-
  The contents of the TensorCore's buffers at each boundary of the program, as a fold from the launch memory: a stretch
  of host operations applies its operations to what it finds; a kernel region leaves each of its arrays at what the
  write-backs of its grid points leave (the input arrays as found, the two output arrays block by block) and every
  other buffer as found.  Over it: the proof data of the three regions, each taken at the contents its region is entered
  with, and what rides beside the buffers through every segment (the generator register, nothing owed).  No host
  operation and no region writes an argument array, so the fold at an argument walks back to the launch memory.
-/
import proofs.«426858_j7756710937226_3_alg».proof.Proof.Region0
import proofs.«426858_j7756710937226_3_alg».proof.Proof.Region1
import proofs.«426858_j7756710937226_3_alg».proof.Proof.Region2
import proofs.«426858_j7756710937226_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev W0 (c : Dev nD) : Valuation τ sig (Elt F) := fun b => m (c, b)

/-- At region 0's entry: after the first host stretch. -/
abbrev Win0 (c : Dev nD) : Valuation τ sig (Elt F) := StableHlo.after hostOps0 (W0 m c)
/-- The same read at the TensorCore's references. -/
abbrev Rdin0 : (c : Dev nD) → (b : Ref sig .tc) → Buf (Elt F) ((c : Thread nD τ).loc b) := fun c b => Win0 m c b
/-- At region 0's exit: its arrays at what the pipeline leaves, every other buffer as entered. -/
def Wout0 (c : Dev nD) : Valuation τ sig (Elt F) :=
  Pipeline.withArrays spec0 c (Win0 m c) fun w => (dat0 (Rdin0 m) c).arrAt w cfg0.N
theorem Wout0_arr (c : Dev nD) (w : Fin cfg0.W) :
    Wout0 m c (Proc.devRef .tc (Pipeline.arrRef spec0 w)) = (dat0 (Rdin0 m) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) := by
  unfold Wout0; exact Pipeline.withArrays_of_ne spec0 c _ _ b hb
abbrev Rdout0 : (c : Dev nD) → (b : Ref sig .tc) → Buf (Elt F) ((c : Thread nD τ).loc b) := fun c b => Wout0 m c b
theorem hF0 (c : Dev nD) (w : Fin cfg0.W) : (dat0 (Rdin0 m) c).arrAt w cfg0.N = Rdout0 m c (Pipeline.arrRef spec0 w) :=
  (Wout0_arr m c w).symm
theorem hrest0 (c : Dev nD) : ∀ b, b ∉ Finset.univ.image (Pipeline.arrRef spec0) → Rdout0 m c b = Rdin0 m c b :=
  fun b hb => Wout0_of_ne m c b fun w e => hb (Finset.mem_image.mpr ⟨w, Finset.mem_univ _, e⟩)

/-- At region 1's entry: after the second host stretch. -/
abbrev Win1 (c : Dev nD) : Valuation τ sig (Elt F) := StableHlo.after hostOps1 (Wout0 m c)
abbrev Rdin1 : (c : Dev nD) → (b : Ref sig .tc) → Buf (Elt F) ((c : Thread nD τ).loc b) := fun c b => Win1 m c b
/-- At region 1's exit. -/
def Wout1 (c : Dev nD) : Valuation τ sig (Elt F) :=
  Pipeline.withArrays spec1 c (Win1 m c) fun w => (dat1 (Rdin1 m) c).arrAt w cfg1.N
theorem Wout1_arr (c : Dev nD) (w : Fin cfg1.W) :
    Wout1 m c (Proc.devRef .tc (Pipeline.arrRef spec1 w)) = (dat1 (Rdin1 m) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) := by
  unfold Wout1; exact Pipeline.withArrays_of_ne spec1 c _ _ b hb
abbrev Rdout1 : (c : Dev nD) → (b : Ref sig .tc) → Buf (Elt F) ((c : Thread nD τ).loc b) := fun c b => Wout1 m c b
theorem hF1 (c : Dev nD) (w : Fin cfg1.W) : (dat1 (Rdin1 m) c).arrAt w cfg1.N = Rdout1 m c (Pipeline.arrRef spec1 w) :=
  (Wout1_arr m c w).symm
theorem hrest1 (c : Dev nD) : ∀ b, b ∉ Finset.univ.image (Pipeline.arrRef spec1) → Rdout1 m c b = Rdin1 m c b :=
  fun b hb => Wout1_of_ne m c b fun w e => hb (Finset.mem_image.mpr ⟨w, Finset.mem_univ _, e⟩)

/-- At region 2's entry: after the third host stretch. -/
abbrev Win2 (c : Dev nD) : Valuation τ sig (Elt F) := StableHlo.after hostOps2 (Wout1 m c)
abbrev Rdin2 : (c : Dev nD) → (b : Ref sig .tc) → Buf (Elt F) ((c : Thread nD τ).loc b) := fun c b => Win2 m c b
/-- At region 2's exit. -/
def Wout2 (c : Dev nD) : Valuation τ sig (Elt F) :=
  Pipeline.withArrays spec2 c (Win2 m c) fun w => (dat2 (Rdin2 m) c).arrAt w cfg2.N
theorem Wout2_arr (c : Dev nD) (w : Fin cfg2.W) :
    Wout2 m c (Proc.devRef .tc (Pipeline.arrRef spec2 w)) = (dat2 (Rdin2 m) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) := by
  unfold Wout2; exact Pipeline.withArrays_of_ne spec2 c _ _ b hb
abbrev Rdout2 : (c : Dev nD) → (b : Ref sig .tc) → Buf (Elt F) ((c : Thread nD τ).loc b) := fun c b => Wout2 m c b
theorem hF2 (c : Dev nD) (w : Fin cfg2.W) : (dat2 (Rdin2 m) c).arrAt w cfg2.N = Rdout2 m c (Pipeline.arrRef spec2 w) :=
  (Wout2_arr m c w).symm
theorem hrest2 (c : Dev nD) : ∀ b, b ∉ Finset.univ.image (Pipeline.arrRef spec2) → Rdout2 m c b = Rdin2 m c b :=
  fun b hb => Wout2_of_ne m c b fun w e => hb (Finset.mem_image.mpr ⟨w, Finset.mem_univ _, e⟩)

/-- At the return: after the last host stretch. -/
abbrev W7 (c : Dev nD) : Valuation τ sig (Elt F) := StableHlo.after hostOps3 (Wout2 m c)

/-! ## A buffer nothing writes ends as launched -/

/-- A buffer that no host stretch writes and that is no array of any region holds its launch contents at the return. -/
theorem W7_of (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  calc W7 m c (Proc.devRef .tc r)
    _ = Wout2 m c (Proc.devRef .tc r) := StableHlo.after_of_writes_sub hostOps3 _ hostOps3_writes h3
    _ = Win2 m c (Proc.devRef .tc r) := Wout2_of_ne m c r a2
    _ = Wout1 m c (Proc.devRef .tc r) := StableHlo.after_of_writes_sub hostOps2 _ hostOps2_writes h2
    _ = Win1 m c (Proc.devRef .tc r) := Wout1_of_ne m c r a1
    _ = Wout0 m c (Proc.devRef .tc r) := StableHlo.after_of_writes_sub hostOps1 _ hostOps1_writes h1
    _ = Win0 m c (Proc.devRef .tc r) := Wout0_of_ne m c r a0
    _ = W0 m c (Proc.devRef .tc r) := StableHlo.after_of_writes_sub hostOps0 _ hostOps0_writes h0
    _ = m ((c : Thread nD τ).loc r) := rfl

/-- The node features are region 0's first input array: the region reads them through an input window and leaves them. -/
theorem W7_main_arg0 (c : Dev nD) : W7 m c (Proc.devRef .tc main_arg0) = m ((c : Thread nD τ).loc main_arg0) :=
  calc W7 m c (Proc.devRef .tc main_arg0)
    _ = Wout2 m c (Proc.devRef .tc main_arg0) := StableHlo.after_of_writes_sub hostOps3 _ hostOps3_writes (by decide)
    _ = Win2 m c (Proc.devRef .tc main_arg0) := Wout2_of_ne m c main_arg0 (by decide)
    _ = Wout1 m c (Proc.devRef .tc main_arg0) := StableHlo.after_of_writes_sub hostOps2 _ hostOps2_writes (by decide)
    _ = Win1 m c (Proc.devRef .tc main_arg0) := Wout1_of_ne m c main_arg0 (by decide)
    _ = Wout0 m c (Proc.devRef .tc main_arg0) := StableHlo.after_of_writes_sub hostOps1 _ hostOps1_writes (by decide)
    _ = Win0 m c (Proc.devRef .tc main_arg0) := (Wout0_arr m c 0).trans (((dat0 (Rdin0 m) c).arrAt_in 0 rfl _).trans (A_eq0 (Rdin0 m) c 0))
    _ = W0 m c (Proc.devRef .tc main_arg0) := StableHlo.after_of_writes_sub hostOps0 _ hostOps0_writes (by decide)
    _ = m ((c : Thread nD τ).loc main_arg0) := rfl

/-! ## The proof data family and the thread state -/

/-- The three regions' places in the program's list of pipelines. -/
abbrev pidx0 : Fin 3 := 0
abbrev pidx1 : Fin 3 := 1
abbrev pidx2 : Fin 3 := 2

/-- No region has a prefetched table. -/
abbrev tabs : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) tabs p) c
  | ⟨0, _⟩ => fun c => dat0 (Rdin0 m) c
  | ⟨1, _⟩ => fun c => dat1 (Rdin1 m) c
  | ⟨2, _⟩ => fun c => dat2 (Rdin2 m) c

abbrev noVar : Variants := Variants.none
/-- No core owes another anything: no level is assigned. -/
abbrev noL : GSem nD τ sig → Finset Unit := fun _ => ∅
abbrev noLv : GSem nD τ sig → Unit → ℕ := fun _ _ => 0

/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-- A host stretch as a segment: from the unscoped buffers at `W` to the same at the operations applied to `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the return's contents, the register at some state. -/
abbrev Tlast (c : Dev nD) : sProp 𝕄 := iprop(StableHlo.held (c : Thread nD τ) (Pipeline.ucRefs τ sig) (W7 m c) ∗ ∃ r, prngReg c r)

end Cert.KernelIdeal.Hand

end
-- ==== Proof.Reg0.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg0 : Pipeline.RegionSeg (pcfgs (F := F)) tabs (pdats m) () defs₀ noVar noL noLv pidx0 where
  win := launch0.win.to₀
  block_pos := launch0.block_pos
  stage_whole := launch0.stage_whole
  K := PEmpty
  osem k := k.elim
  ho := Pipeline.OwnSemFacts.none _
  hbody c := (body_obligation0 (Rdin0 m) c).loose
  hwaits := Pipeline.hwaits_of_owed_zero _ _ _ _ noL noLv pidx0 fun _ _ => rfl
  pre c := iprop(StableHlo.held (c : Thread nD τ) (Pipeline.ucRefs τ sig) (Win0 m c) ∗ Rst c)
  post c := iprop(StableHlo.held (c : Thread nD τ) (Pipeline.ucRefs τ sig) (Wout0 m c) ∗ Rst c)
  X c := iprop(∃ r, prngReg c r)
  Y c := iprop(∃ r, prngReg c r)
  Z c := Pipeline.unscopedRest (Ix := Unit) (Name := ℕ) (U := UR sig nD τ) (Lvl := ℕ) spec0 c (Rdin0 m c)
  hentry c := by
    rw [Pipeline.ownSems0_none]
    have hsplit := Pipeline.arrays_of_unscopedBufs (p := pidx0) (pcfgs (F := F)) tabs (pdats m) launch0.win launch0.arr_whole c
      ((pdats m pidx0 c).share_full fun _ => rfl) (Rdin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m pidx0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := pidx0) (pcfgs (F := F)) tabs (Ix := Unit) (Name := ℕ) (U := UR sig nD τ) (Lvl := ℕ)
      launch0.win launch0.arr_whole c (pdats m) ((pdats m pidx0 c).share_full fun _ => rfl)
      (Rdin0 m c) (Rdout0 m c) ((pdats m pidx0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg1 : Pipeline.RegionSeg (pcfgs (F := F)) tabs (pdats m) () defs₀ noVar noL noLv pidx1 where
  win := launch1.win.to₀
  block_pos := launch1.block_pos
  stage_whole := launch1.stage_whole
  K := PEmpty
  osem k := k.elim
  ho := Pipeline.OwnSemFacts.none _
  hbody c := (body_obligation1 (Rdin1 m) c).loose
  hwaits := Pipeline.hwaits_of_owed_zero _ _ _ _ noL noLv pidx1 fun _ _ => rfl
  pre c := iprop(StableHlo.held (c : Thread nD τ) (Pipeline.ucRefs τ sig) (Win1 m c) ∗ Rst c)
  post c := iprop(StableHlo.held (c : Thread nD τ) (Pipeline.ucRefs τ sig) (Wout1 m c) ∗ Rst c)
  X c := iprop(∃ r, prngReg c r)
  Y c := iprop(∃ r, prngReg c r)
  Z c := Pipeline.unscopedRest (Ix := Unit) (Name := ℕ) (U := UR sig nD τ) (Lvl := ℕ) spec1 c (Rdin1 m c)
  hentry c := by
    rw [Pipeline.ownSems0_none]
    have hsplit := Pipeline.arrays_of_unscopedBufs (p := pidx1) (pcfgs (F := F)) tabs (pdats m) launch1.win launch1.arr_whole c
      ((pdats m pidx1 c).share_full fun _ => rfl) (Rdin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m pidx1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := pidx1) (pcfgs (F := F)) tabs (Ix := Unit) (Name := ℕ) (U := UR sig nD τ) (Lvl := ℕ)
      launch1.win launch1.arr_whole c (pdats m) ((pdats m pidx1 c).share_full fun _ => rfl)
      (Rdin1 m c) (Rdout1 m c) ((pdats m pidx1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  One kernel region as a segment of the program: entered with every unscoped buffer at the contents the host stretch
  before it leaves, left with them at those contents except the region's own arrays, which hold what the pipeline's
  write-backs leave.
  At entry the region's arrays are split out of the unscoped buffers and at exit put back; the generator register goes
  into the region's invariant and comes out; nothing is owed before or after, and the kernel has no semaphore of its own.
-/
import proofs.«426858_j7756710937226_3_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The region's record: its layout as the launch decides it, its body obligation, and the four entailments around the
    thread states "every unscoped buffer at the boundary's contents, the register at some state, nothing owed". -/
def reg2 : Pipeline.RegionSeg (pcfgs (F := F)) tabs (pdats m) () defs₀ noVar noL noLv pidx2 where
  win := launch2.win.to₀
  block_pos := launch2.block_pos
  stage_whole := launch2.stage_whole
  K := PEmpty
  osem k := k.elim
  ho := Pipeline.OwnSemFacts.none _
  hbody c := (body_obligation2 (Rdin2 m) c).loose
  hwaits := Pipeline.hwaits_of_owed_zero _ _ _ _ noL noLv pidx2 fun _ _ => rfl
  pre c := iprop(StableHlo.held (c : Thread nD τ) (Pipeline.ucRefs τ sig) (Win2 m c) ∗ Rst c)
  post c := iprop(StableHlo.held (c : Thread nD τ) (Pipeline.ucRefs τ sig) (Wout2 m c) ∗ Rst c)
  X c := iprop(∃ r, prngReg c r)
  Y c := iprop(∃ r, prngReg c r)
  Z c := Pipeline.unscopedRest (Ix := Unit) (Name := ℕ) (U := UR sig nD τ) (Lvl := ℕ) spec2 c (Rdin2 m c)
  hentry c := by
    rw [Pipeline.ownSems0_none]
    have hsplit := Pipeline.arrays_of_unscopedBufs (p := pidx2) (pcfgs (F := F)) tabs (pdats m) launch2.win launch2.arr_whole c
      ((pdats m pidx2 c).share_full fun _ => rfl) (Rdin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m pidx2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m pidx2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := pidx2) (pcfgs (F := F)) tabs (Ix := Unit) (Name := ℕ) (U := UR sig nD τ) (Lvl := ℕ)
      launch2.win launch2.arr_whole c (pdats m) ((pdats m pidx2 c).share_full fun _ => rfl)
      (Rdin2 m c) (Rdout2 m c) ((pdats m pidx2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunAll.lean ====
/-
  The whole program as seven segments — host stretch, region, host stretch, region, host stretch, region, host stretch —
  and its run: from any memory with zero counters every weakly fair execution terminates, nothing faulting, and at the end
  every unscoped buffer of every core holds what the fold of the boundaries' contents gives at the return.  Read at the
  argument arrays this is the frame (each ends as launched); read at the result buffer it names the result.
-/
import proofs.«426858_j7756710937226_3_alg».proof.Proof.Reg0
import proofs.«426858_j7756710937226_3_alg».proof.Proof.Reg1
import proofs.«426858_j7756710937226_3_alg».proof.Proof.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seven segments in order: a host segment per stretch from its boundary's contents, a region per call. -/
abbrev segsAll : List (Pipeline.Seg (pcfgs (F := F)) tabs (pdats m) () defs₀ noVar noL noLv) :=
  [ .host (hostSeg hostOps0 hostOps0_sub hostOps0_fresh (W0 m)),
    .region (reg0 m),
    .host (hostSeg hostOps1 hostOps1_sub hostOps1_fresh (Wout0 m)),
    .region (reg1 m),
    .host (hostSeg hostOps2 hostOps2_sub hostOps2_fresh (Wout1 m)),
    .region (reg2 m),
    .host (hostSeg hostOps3 hostOps3_sub hostOps3_fresh (Wout2 m)) ]

/-- The program is the run of its segments. -/
theorem main_run (c : Dev nD) : main (F := F) c = Pipeline.Seg.run (segsAll m) := (main_chain c).trans (by chain_rfl)

set_option backward.isDefEq.respectTransparency.types false in
/-- The run: every unscoped buffer ends at the return's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) tabs (pdats m) () cellOf_inj emb₁ defs₀ noVar noL noLv m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c)
            ∗ ((∃ r, prngReg c r) ∗ ∃ W, owes (c : Thread nD τ) (0 : CellTallies nD τ sig Unit) W))
          ⊢ iprop((StableHlo.held (c : Thread nD τ) (Pipeline.ucRefs τ sig) (W7 m c) ∗ ∃ r, prngReg c r)
            ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m c),
      (h c _ (mem_uc main_arg1 (by decide))).trans (W7_of m c main_arg1 (by decide) (by decide) (by decide) (by decide) (by decide) (by decide) (by decide)),
      (h c _ (mem_uc main_arg2 (by decide))).trans (W7_of m c main_arg2 (by decide) (by decide) (by decide) (by decide) (by decide) (by decide) (by decide)),
      (h c _ (mem_uc main_arg3 (by decide))).trans (W7_of m c main_arg3 (by decide) (by decide) (by decide) (by decide) (by decide) (by decide) (by decide)),
      (h c _ (mem_uc main_arg4 (by decide))).trans (W7_of m c main_arg4 (by decide) (by decide) (by decide) (by decide) (by decide) (by decide) (by decide)),
      (h c _ (mem_uc main_arg5 (by decide))).trans (W7_of m c main_arg5 (by decide) (by decide) (by decide) (by decide) (by decide) (by decide) (by decide)),
      (h c _ (mem_uc main_arg6 (by decide))).trans (W7_of m c main_arg6 (by decide) (by decide) (by decide) (by decide) (by decide) (by decide) (by decide)),
      (h c _ (mem_uc main_arg7 (by decide))).trans (W7_of m c main_arg7 (by decide) (by decide) (by decide) (by decide) (by decide) (by decide) (by decide)),
      (h c _ (mem_uc main_arg8 (by decide))).trans (W7_of m c main_arg8 (by decide) (by decide) (by decide) (by decide) (by decide) (by decide) (by decide)),
      (h c _ (mem_uc main_arg9 (by decide))).trans (W7_of m c main_arg9 (by decide) (by decide) (by decide) (by decide) (by decide) (by decide) (by decide)),
      (h c _ (mem_uc main_arg10 (by decide))).trans (W7_of m c main_arg10 (by decide) (by decide) (by decide) (by decide) (by decide) (by decide) (by decide))⟩) (run_all m ρ)

/-- The result: the result buffer ends at the return's contents there, and every argument array as launched. -/
theorem result_all : θ_run defs (onTc (τ := τ) (main (F := F))) ⟨m, fun _ => 0, ρ⟩ (fun r => ∀ c : Dev nD,
      r.2.mem ((c.tc : Thread nD τ).loc main_v57) = W7 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v57 (by decide)), (h c _ (mem_uc main_arg0 (by decide))).trans (W7_main_arg0 m c),
      (h c _ (mem_uc main_arg1 (by decide))).trans (W7_of m c main_arg1 (by decide) (by decide) (by decide) (by decide) (by decide) (by decide) (by decide)),
      (h c _ (mem_uc main_arg2 (by decide))).trans (W7_of m c main_arg2 (by decide) (by decide) (by decide) (by decide) (by decide) (by decide) (by decide)),
      (h c _ (mem_uc main_arg3 (by decide))).trans (W7_of m c main_arg3 (by decide) (by decide) (by decide) (by decide) (by decide) (by decide) (by decide)),
      (h c _ (mem_uc main_arg4 (by decide))).trans (W7_of m c main_arg4 (by decide) (by decide) (by decide) (by decide) (by decide) (by decide) (by decide)),
      (h c _ (mem_uc main_arg5 (by decide))).trans (W7_of m c main_arg5 (by decide) (by decide) (by decide) (by decide) (by decide) (by decide) (by decide)),
      (h c _ (mem_uc main_arg6 (by decide))).trans (W7_of m c main_arg6 (by decide) (by decide) (by decide) (by decide) (by decide) (by decide) (by decide)),
      (h c _ (mem_uc main_arg7 (by decide))).trans (W7_of m c main_arg7 (by decide) (by decide) (by decide) (by decide) (by decide) (by decide) (by decide)),
      (h c _ (mem_uc main_arg8 (by decide))).trans (W7_of m c main_arg8 (by decide) (by decide) (by decide) (by decide) (by decide) (by decide) (by decide)),
      (h c _ (mem_uc main_arg9 (by decide))).trans (W7_of m c main_arg9 (by decide) (by decide) (by decide) (by decide) (by decide) (by decide) (by decide)),
      (h c _ (mem_uc main_arg10 (by decide))).trans (W7_of m c main_arg10 (by decide) (by decide) (by decide) (by decide) (by decide) (by decide) (by decide))⟩) (run_all m ρ)

end Cert.KernelIdeal.Hand

end
-- ==== Proof.Spec.lean ====
/-
  The mathematics both programs compute, stated on coordinates over the extended reals.

  One layer sends a node's feature row `h` and the row `a` summed from its neighbours to
      rect ( rect ((h + a) · Wa + ba) · Wb + bb ),      rect v = max v 0,
  row by row: a node's output row depends on that node's two input rows only.  Pooling sends the layer's output to one
  row per graph: the sum of the rows of the nodes whose graph id is that graph.  The zero of the rectifier, of the
  accumulators and of the pool's initial value is the zero word of the 32-bit format, kept as that word.
-/
import Idealize.ShloMosaic.PureOps.Ideal
import Idealize.ShloMosaic.Lib.ValueIdx

noncomputable section

open scoped BigOperators

namespace Cert.Spec

open Idealize.ShloMosaic Idealize.ShloMosaic.ValueIdx

/-- The zero word of the 32-bit float format, read at the extended reals. -/
abbrev Z : EReal := Ideal.ofBits .f32 0x00000000#32

/-- One output entry of a layer from the node's own row `hr`, its aggregated row `ar`, and the layer's two weight
    matrices and two bias rows. -/
def mlpRow (hr ar : Fin 128 → EReal) (wa : Fin 128 → Fin 128 → EReal) (ba : Fin 128 → EReal)
    (wb : Fin 128 → Fin 128 → EReal) (bb : Fin 128 → EReal) (j : Fin 128) : EReal :=
  max ((∑ k : Fin 128, max ((∑ k' : Fin 128, (hr k' + ar k') * wa k' k) + ba k) Z * wb k j) + bb j) Z

/-- One entry of the pooled array: the initial zero plus the sum, over the nodes whose graph id (read signed) is `g`,
    of the layer's output at that node. -/
def poolAt (b : Fin 100000 → BitVec 32) (h : Fin 100000 → Fin 128 → EReal) (g : Fin 64) (j : Fin 128) : EReal :=
  Z + ∑ n ∈ Finset.univ.filter (fun n : Fin 100000 => (b n).toInt = (g.val : Int)), h n j

/-- The membership entry: one when node `n`'s graph id is the word of `g`, zero otherwise. -/
def member (b : Fin 100000 → BitVec 32) (n : Fin 100000) (g : Fin 64) : EReal :=
  if b n = BitVec.ofNat 32 g.val then 1 else 0

/-- Node `i` of block `t` when the 100000 nodes are cut into 20 blocks of 5000. -/
def node (t : Fin 20) (i : Fin 5000) : Fin 100000 := ⟨5000 * t.val + i.val, by omega⟩

end Cert.Spec

end
-- ==== Proof.RefValue.lean ====
/-
  The reference's result as three pooled layers.

  The reference computes, three times over, the same composite: the neighbour sum (a scatter-add of gathered rows), then
  two affine maps each followed by the rectifier; and it pools each layer's output per graph by a scatter-add.  Here the
  composite is named once, the result is shown to be the concatenation of the three pools, and a layer and a pool are
  read entry by entry over the extended reals.
-/
import proofs.«426858_j7756710937226_3_alg».proof.Proof.Gen.ReferenceIdeal.Read
import proofs.«426858_j7756710937226_3_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

variable {F : FTy → Type} [FloatOps F]

/-- The neighbour sum: row `n` of the result is the zero word plus the sum of the rows of `h` at the sources of the
    edges whose destination is `n`.  A negative source wraps by the number of nodes before the row is fetched. -/
def aggR (h : FVec F S100000x128 .f32) (ei : IVec S2x640000 32) : FVec F S100000x128 .f32 :=
  Host.scatterAdd scatter_S100000x128_S640000x1_S640000x128_1_0_0_1 (broadcastInDim S100000x128 ![] bcast_S_S100000x128 (constant S_ .f32 0x00000000#32)) (broadcastInDim S640000x1 ![0] bcast_S640000_S640000x1_0 (shapeCast _ (extractStridedSlice S1x640000 ![1, 0] ei slices_S2x640000_S1x640000_1_0) shapeCasts_S1x640000_S640000)) (Host.gather gather_S100000x128_S640000x1_S640000x128_1_0_n_n_0_1_1128 h (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 100000#32))) (shapeCast _ (extractStridedSlice S1x640000 ![0, 0] ei slices_S2x640000_S1x640000_0_0) shapeCasts_S1x640000_S640000))))

/-- One layer: the rectified affine image of the rectified affine image of `h` plus its neighbour sum. -/
def layerR (h : FVec F S100000x128 .f32) (ei : IVec S2x640000 32) (wa : FVec F S128x128 .f32) (ba : FVec F S128 .f32)
    (wb : FVec F S128x128 .f32) (bb : FVec F S128 .f32) : FVec F S100000x128 .f32 :=
  maximumf (addf (Host.dotGeneral dot_S100000x128_S128x128_S100000x128_1_0_0_1_n_n none (maximumf (addf (Host.dotGeneral dot_S100000x128_S128x128_S100000x128_1_0_0_1_n_n none (addf h (aggR h ei)) wa) (broadcastInDim S100000x128 ![0, 1] bcast_S1x128_S100000x128_0_1 (broadcastInDim S1x128 ![1] bcast_S128_S1x128_1 ba))) (broadcastInDim S100000x128 ![] bcast_S_S100000x128 (constant S_ .f32 0x00000000#32))) wb) (broadcastInDim S100000x128 ![0, 1] bcast_S1x128_S100000x128_0_1 (broadcastInDim S1x128 ![1] bcast_S128_S1x128_1 bb))) (broadcastInDim S100000x128 ![] bcast_S_S100000x128 (constant S_ .f32 0x00000000#32))

/-- The pool: row `g` of the result is the zero word plus the sum of the rows of `h` at the nodes whose graph id is `g`. -/
def poolR (b : IVec S100000 32) (h : FVec F S100000x128 .f32) : FVec F S64x128 .f32 :=
  Host.scatterAdd scatter_S64x128_S100000x1_S100000x128_1_0_0_1 (broadcastInDim S64x128 ![] bcast_S_S64x128 (constant S_ .f32 0x00000000#32)) (broadcastInDim S100000x1 ![0] bcast_S100000_S100000x1_0 b) h

/-- The first layer's output, from the arguments' launch contents. -/
abbrev H1 (m : (ℓ : Loc nD τ sig) → Buf (Elt F) ℓ) (c : Dev nD) : FVec F S100000x128 .f32 :=
  layerR (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))

/-- The second layer's output: the second set of weights applied to the first layer's output. -/
abbrev H2 (m : (ℓ : Loc nD τ sig) → Buf (Elt F) ℓ) (c : Dev nD) : FVec F S100000x128 .f32 :=
  layerR (H1 m c) (m ((c.tc : Thread nD τ).loc main_arg1))
    (m ((c.tc : Thread nD τ).loc main_arg7)) (m ((c.tc : Thread nD τ).loc main_arg8))
    (m ((c.tc : Thread nD τ).loc main_arg9)) (m ((c.tc : Thread nD τ).loc main_arg10))

/-- The third layer's output: the same second set of weights applied to the second layer's output. -/
abbrev H3 (m : (ℓ : Loc nD τ sig) → Buf (Elt F) ℓ) (c : Dev nD) : FVec F S100000x128 .f32 :=
  layerR (H2 m c) (m ((c.tc : Thread nD τ).loc main_arg1))
    (m ((c.tc : Thread nD τ).loc main_arg7)) (m ((c.tc : Thread nD τ).loc main_arg8))
    (m ((c.tc : Thread nD τ).loc main_arg9)) (m ((c.tc : Thread nD τ).loc main_arg10))

set_option maxRecDepth 8192 in
/-- The reference's result is the three layers' pools laid side by side. -/
theorem res_eq (m : (ℓ : Loc nD τ sig) → Buf (Elt F) ℓ) (c : Dev nD) :
    Cert.ReferenceIdeal.Value.res_out0 (F := F) m c
      = concatenate S64x384 1
          [⟨S64x128, poolR (m ((c.tc : Thread nD τ).loc main_arg2)) (H1 m c)⟩,
           ⟨S64x128, poolR (m ((c.tc : Thread nD τ).loc main_arg2)) (H2 m c)⟩,
           ⟨S64x128, poolR (m ((c.tc : Thread nD τ).loc main_arg2)) (H3 m c)⟩]
          concatenates_S64x128_S64x128_S64x128_S64x384_d1 := by
  show Cert.ReferenceIdeal.Value.res_main_v76 m c = _
  unfold Cert.ReferenceIdeal.Value.res_main_v76 poolR H3 H2 H1 layerR aggR
  rfl

/-! ## A layer, entry by entry -/

/-- The product of a 100000×128 array with a 128×128 matrix at entry `(n, j)`: the sum over the shared axis. -/
theorem dot_apply (y : FVec Ideal S100000x128 .f32) (w : FVec Ideal S128x128 .f32) (n : Fin 100000) (j : Fin 128) :
    Host.dotGeneral (F := Ideal) dot_S100000x128_S128x128_S100000x128_1_0_0_1_n_n none y w (ix2 n j)
      = ∑ k : Fin 128, y (ix2 n k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 n j) ((ValueIdx.contrEquiv1 dot_S100000x128_S128x128_S100000x128_1_0_0_1_n_n 128 rfl rfl).symm k) = ix2 n k := funext fun a => Fin.ext (by
    match a with
    | ⟨0, _⟩ => exact Read.lhs_main_v15_0 _ _
    | ⟨1, _⟩ => exact (Read.lhs_main_v15_1 _ _).trans hk)
  have er : dot_S100000x128_S128x128_S100000x128_1_0_0_1_n_n.rhsIdx (ix2 n j) ((ValueIdx.contrEquiv1 dot_S100000x128_S128x128_S100000x128_1_0_0_1_n_n 128 rfl rfl).symm k) = ix2 k j := funext fun a => Fin.ext (by
    match a with
    | ⟨0, _⟩ => exact (Read.rhs_main_v15_0 _ _).trans hk
    | ⟨1, _⟩ => exact Read.rhs_main_v15_1 _ _)
  rw [el, er]

/-- A bias row laid under every node: entry `(n, j)` is the row's entry `j`. -/
theorem bias_apply (b : FVec F S128 .f32) (n : Fin 100000) (j : Fin 128) :
    (broadcastInDim S100000x128 ![0, 1] bcast_S1x128_S100000x128_0_1 (broadcastInDim S1x128 ![1] bcast_S128_S1x128_1 b)
      : FVec F S100000x128 .f32) (ix2 n j) = b (ix1 j) := by
  show Read.val_main_v17 (F := F) b (ix2 n j) = _
  rw [Read.val_main_v17_apply, Read.val_main_v16_apply]
  refine congrArg b (funext fun a => ?_)
  match a with
  | ⟨0, _⟩ => rfl

/-- The array of zero words: every entry is the zero word. -/
theorem zero_apply (i : S100000x128.Idx) :
    (broadcastInDim S100000x128 ![] bcast_S_S100000x128 (constant (F := Ideal) S_ .f32 0x00000000#32)
      : FVec Ideal S100000x128 .f32) i = Cert.Spec.Z := by
  show Read.val_main_v11 (F := Ideal) i = _
  rw [Read.val_main_v11_apply]
  rfl

/-- One entry of a layer's output depends on the node's own row and its row of the neighbour sum only: it is the
    specification's row map applied to them. -/
theorem layerR_apply (h : FVec Ideal S100000x128 .f32) (ei : IVec S2x640000 32) (wa : FVec Ideal S128x128 .f32)
    (ba : FVec Ideal S128 .f32) (wb : FVec Ideal S128x128 .f32) (bb : FVec Ideal S128 .f32) (n : Fin 100000) (j : Fin 128) :
    layerR (F := Ideal) h ei wa ba wb bb (ix2 n j)
      = Cert.Spec.mlpRow (fun k => h (ix2 n k)) (fun k => aggR (F := Ideal) h ei (ix2 n k)) (fun k' k => wa (ix2 k' k))
          (fun k => ba (ix1 k)) (fun k' k => wb (ix2 k' k)) (fun k => bb (ix1 k)) j := by
  unfold layerR Cert.Spec.mlpRow
  generalize aggR (F := Ideal) h ei = a
  rw [maximumf_apply, addf_apply, zero_apply, bias_apply, dot_apply]
  refine congrArg (fun t => max (t + bb (ix1 j)) Cert.Spec.Z) (Finset.sum_congr rfl fun k _ => ?_)
  rw [maximumf_apply, addf_apply, zero_apply, bias_apply, dot_apply]
  rfl

/-! ## A pool, entry by entry -/

/-- Where an update of a scatter lands: at the operand index `i` exactly when, on every axis, the start read off the
    scatter indices plus the window coordinate is `i`'s coordinate.  (An update whose target leaves the operand on some
    axis lands nowhere: no index of the operand has a negative or too large coordinate.) -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro hres
    by_cases hin : ∀ a, 0 ≤ d.start j idx a + d.window j a ∧ d.start j idx a + d.window j a < s.size a
    · rw [dif_pos hin] at hres
      intro a
      have ha : (d.start j idx a + d.window j a).toNat = (i a).val :=
        congrArg (fun f : s.Idx => (f a).val) (Option.some.inj hres)
      have hpos := (hin a).1
      omega
    · rw [dif_neg hin] at hres
      exact (Option.some_ne_none i hres.symm).elim
  · intro hall
    have hin : ∀ a, 0 ≤ d.start j idx a + d.window j a ∧ d.start j idx a + d.window j a < s.size a := fun a => by
      have h1 := hall a
      have h2 := (i a).isLt
      omega
    rw [dif_pos hin]
    refine congrArg some (funext fun a => Fin.ext ?_)
    show (d.start j idx a + d.window j a).toNat = (i a).val
    have h1 := hall a
    omega

/-- The pool's scatter starts, on the graph axis, at the signed reading of the node's graph id. -/
theorem pool_start_0 (idx : IVec S100000x1 32) (n : Fin 100000) (k : Fin 128) :
    scatter_S64x128_S100000x1_S100000x128_1_0_0_1.start (ix2 n k) idx 0 = (idx (ix2 n 0)).toInt := by
  unfold ScatterDims.start
  rw [dif_pos (show (0 : Fin S64x128.rank) ∈ scatter_S64x128_S100000x1_S100000x128_1_0_0_1.scatterDimsToOperandDims by decide)]
  refine congrArg (fun t => (idx t).toInt) (funext fun b => Fin.ext ?_)
  match b with
  | ⟨0, _⟩ => rfl
  | ⟨1, _⟩ => rfl

/-- On the feature axis the scatter's start is zero: the indices do not address it. -/
theorem pool_start_1 (idx : IVec S100000x1 32) (n : Fin 100000) (k : Fin 128) :
    scatter_S64x128_S100000x1_S100000x128_1_0_0_1.start (ix2 n k) idx 1 = 0 := by
  unfold ScatterDims.start
  rw [dif_neg (show ¬(1 : Fin S64x128.rank) ∈ scatter_S64x128_S100000x1_S100000x128_1_0_0_1.scatterDimsToOperandDims by decide)]

/-- The graph axis is inserted: its window coordinate is zero. -/
theorem pool_window_0 (n : Fin 100000) (k : Fin 128) :
    scatter_S64x128_S100000x1_S100000x128_1_0_0_1.window (ix2 n k) 0 = 0 := by
  unfold ScatterDims.window
  rw [dif_neg (show ¬(0 : Fin S64x128.rank) ∈ scatter_S64x128_S100000x1_S100000x128_1_0_0_1.sKept by decide)]

/-- The feature axis is the window: its window coordinate is the update's feature coordinate. -/
theorem pool_window_1 (n : Fin 100000) (k : Fin 128) :
    scatter_S64x128_S100000x1_S100000x128_1_0_0_1.window (ix2 n k) 1 = k.val := by
  unfold ScatterDims.window
  rw [dif_pos (show (1 : Fin S64x128.rank) ∈ scatter_S64x128_S100000x1_S100000x128_1_0_0_1.sKept by decide)]
  rfl

/-- Entry `(n, k)` of the updates lands at entry `(g, j)` of the pool exactly when node `n`'s graph id reads signed
    as `g` and the feature coordinates agree. -/
theorem pool_lands (idx : IVec S100000x1 32) (n : Fin 100000) (k : Fin 128) (g : Fin 64) (j : Fin 128) :
    scatter_S64x128_S100000x1_S100000x128_1_0_0_1.resultIdx? (ix2 n k) idx = some (ix2 g j) ↔ (idx (ix2 n 0)).toInt = (g.val : Int) ∧ k = j := by
  rw [resultIdx?_eq_some_iff]
  constructor
  · intro hall
    have h0 : scatter_S64x128_S100000x1_S100000x128_1_0_0_1.start (ix2 n k) idx 0 + (scatter_S64x128_S100000x1_S100000x128_1_0_0_1.window (ix2 n k) 0 : Int) = (g.val : Int) := hall 0
    have h1 : scatter_S64x128_S100000x1_S100000x128_1_0_0_1.start (ix2 n k) idx 1 + (scatter_S64x128_S100000x1_S100000x128_1_0_0_1.window (ix2 n k) 1 : Int) = (j.val : Int) := hall 1
    rw [pool_start_0, pool_window_0] at h0
    rw [pool_start_1, pool_window_1] at h1
    exact ⟨by omega, Fin.ext (by omega)⟩
  · rintro ⟨h0, rfl⟩ a
    match a with
    | ⟨0, _⟩ =>
      show scatter_S64x128_S100000x1_S100000x128_1_0_0_1.start (ix2 n k) idx 0 + (scatter_S64x128_S100000x1_S100000x128_1_0_0_1.window (ix2 n k) 0 : Int) = (g.val : Int)
      rw [pool_start_0, pool_window_0]
      omega
    | ⟨1, _⟩ =>
      show scatter_S64x128_S100000x1_S100000x128_1_0_0_1.start (ix2 n k) idx 1 + (scatter_S64x128_S100000x1_S100000x128_1_0_0_1.window (ix2 n k) 1 : Int) = (k.val : Int)
      rw [pool_start_1, pool_window_1]
      omega

/-- The graph ids as a column: entry `(n, 0)` is node `n`'s graph id. -/
theorem ids_apply (b : IVec S100000 32) (n : Fin 100000) :
    (broadcastInDim S100000x1 ![0] bcast_S100000_S100000x1_0 b : IVec S100000x1 32) (ix2 n 0) = b (ix1 n) := by
  show Read.val_main_v68 (F := Ideal) b (ix2 n 0) = _
  rw [Read.val_main_v68_apply]
  refine congrArg b (funext fun a => ?_)
  match a with
  | ⟨0, _⟩ => rfl

/-- The pool's initial array: every entry is the zero word. -/
theorem zero64_apply (i : S64x128.Idx) :
    (broadcastInDim S64x128 ![] bcast_S_S64x128 (constant (F := Ideal) S_ .f32 0x00000000#32)
      : FVec Ideal S64x128 .f32) i = Cert.Spec.Z := by
  show Read.val_main_v67 (F := Ideal) i = _
  rw [Read.val_main_v67_apply]
  rfl

/-- One entry of a pool: the zero word plus the sum, over the nodes of graph `g`, of the layer's output at that node. -/
theorem poolR_apply (b : IVec S100000 32) (h : FVec Ideal S100000x128 .f32) (g : Fin 64) (j : Fin 128) :
    poolR (F := Ideal) b h (ix2 g j) = Cert.Spec.poolAt (fun n => b (ix1 n)) (fun n k => h (ix2 n k)) g j := by
  unfold poolR Cert.Spec.poolAt
  simp only [Host.scatterAdd]
  rw [Ideal.hostScatterAdd_def]
  unfold Ideal.hostScatterAdd
  rw [zero64_apply]
  refine congrArg (fun t => Cert.Spec.Z + t) ?_
  rw [Finset.sum_filter, sum_idx2, Finset.sum_filter]
  refine Finset.sum_congr rfl fun n _ => ?_
  by_cases hg : (b (ix1 n)).toInt = (g.val : Int)
  · rw [if_pos hg, Finset.sum_eq_single j]
    · rw [if_pos ((pool_lands _ n j g j).mpr ⟨by rw [ids_apply]; exact hg, rfl⟩)]
    · intro k _ hk
      rw [if_neg (fun hc => hk ((pool_lands _ n k g j).mp hc).2)]
    · intro hj
      exact absurd (Finset.mem_univ j) hj
  · rw [if_neg hg]
    refine Finset.sum_eq_zero fun k _ => ?_
    rw [if_neg (fun hc => hg (by have hl := ((pool_lands _ n k g j).mp hc).1; rw [ids_apply] at hl; exact hl))]

end Cert.ReferenceIdeal.RefValue

end
-- ==== Proof.Glue.lean ====
/-
  Three host operations of the kernel program, read entry by entry over the extended reals: the sum of the twenty
  per-block partial pools, the bias row given a leading unit axis, and a weight matrix's change of format.
-/
import proofs.«426858_j7756710937226_3_alg».proof.Proof.Gen.KernelIdeal
import proofs.«426858_j7756710937226_3_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- Removing the leading axis of a 20×64×128 array leaves a 64×128 array. -/
theorem reduces_d0 : S20x64x128.Reduces [0] S64x128 := by decide

/-- The sum over the leading axis from the zero word: entry `(g, j)` is the zero word plus the sum over the twenty
    blocks `t` of entry `(t, g, j)`. -/
theorem reduce_apply (X : FVec Ideal S20x64x128 .f32) (g : Fin 64) (j : Fin 128) :
    Host.reduceAdd (F := Ideal) X (constant S_ .f32 0x00000000#32) reducesTo_S20x64x128_S64x128_d0 h_S_ (ix2 g j)
      = Cert.Spec.Z + ∑ t : Fin 20, X (ix3 t g j) := by
  unfold Host.reduceAdd
  rw [Ideal.hostReduceAdd_def, Ideal.hostReduceAdd_single _ reduces_d0]
  refine congrArg₂ (· + ·) rfl (Finset.sum_congr rfl fun t _ => congrArg X (funext fun a => Fin.ext ?_))
  match a with
  | ⟨0, _⟩ => rfl
  | ⟨1, _⟩ => rfl
  | ⟨2, _⟩ => rfl

/-- A bias row given a leading unit axis: entry `(0, k)` is the row's entry `k`. -/
theorem bias_cast_apply (x : FVec Ideal S128 .f32) (k : Fin 128) :
    shapeCast S1x128 x shapeCasts_S128_S1x128 (ix2 0 k) = x (ix1 k) :=
  shapeCast_a_1a_apply x shapeCasts_S128_S1x128 0 k

/-- A change of float format is the identity over the extended reals. -/
theorem weight_cast_apply (x : FVec Ideal S128x128 .f32) (i : S128x128.Idx) :
    truncf .bf16 x bitsLt_bf16_f32 i = x i := rfl

end Cert.KernelIdeal.Hand

end
-- ==== Proof.OneHot.lean ====
/-
  The membership table the program builds once from the graph-id array, read at one entry.
-/
import proofs.«426858_j7756710937226_3_alg».proof.Proof.Gen.KernelIdeal
import proofs.«426858_j7756710937226_3_alg».proof.Proof.Spec
import Idealize.ShloMosaic.Lib.ValueIdx
import Idealize.ShloMosaic.Lib.Pipeline.Value
import Idealize.ShloMosaic.Lib.StableHlo.Predicate

noncomputable section

namespace Cert.KernelIdeal.Hand

open Cert.KernelIdeal Cert.KernelIdeal.Gen Idealize.ShloMosaic Idealize.ShloMosaic.ValueIdx

variable {F : FTy → Type} [FloatOps F]

/-- The membership table as the program computes it: the graph-id array spread along a new second axis of extent 64,
    compared for equality with the positions 0 … 63 spread along a new first axis of extent 100000, and the one-bit
    result converted to the 16-bit float format. -/
def onehotK (b : IVec S100000 32) : FVec F S100000x64 .bf16 :=
  uitofp .bf16 (cmpi .eq
    (broadcastInDim S100000x64 ![0, 1] bcast_S100000x1_S100000x64_0_1
      (broadcastInDim S100000x1 ![0] bcast_S100000_S100000x1_0 b))
    (broadcastInDim S100000x64 ![0, 1] bcast_S1x64_S100000x64_0_1
      (broadcastInDim S1x64 ![1] bcast_S64_S1x64_1 (iotaInDim S64 32 0))))

/-- The spread graph-id array at entry `(n, g)` is node `n`'s graph id: the first spreading reads the array at the
    first coordinate, the second reads its unit second axis at 0. -/
theorem ids_apply (b : IVec S100000 32) (n : Fin 100000) (g : Fin 64) :
    broadcastInDim S100000x64 ![0, 1] bcast_S100000x1_S100000x64_0_1
      (broadcastInDim S100000x1 ![0] bcast_S100000_S100000x1_0 b) (ix2 n g) = b (ix1 n) := by
  refine (broadcastInDim_apply _ _ _ (ix2 n g) (ix2 n (⟨0, Nat.one_pos⟩ : Fin 1)) ?_).trans ?_
  · intro a
    match a with
    | ⟨0, _⟩ => rfl
    | ⟨1, _⟩ => rfl
  · refine broadcastInDim_apply _ _ _ _ (ix1 n) ?_
    intro a
    match a with
    | ⟨0, _⟩ => rfl

/-- The spread positions at entry `(n, g)` are the word of `g`: the second spreading reads the unit first axis at 0 and
    the second coordinate, the first reads the positions at that coordinate, and position `g` is the word of `g`. -/
theorem pos_apply (n : Fin 100000) (g : Fin 64) :
    broadcastInDim S100000x64 ![0, 1] bcast_S1x64_S100000x64_0_1
      (broadcastInDim S1x64 ![1] bcast_S64_S1x64_1 (iotaInDim S64 32 0)) (ix2 n g) = BitVec.ofNat 32 g.val := by
  refine (broadcastInDim_apply _ _ _ (ix2 n g) (ix2 (⟨0, Nat.one_pos⟩ : Fin 1) g) ?_).trans ?_
  · intro a
    match a with
    | ⟨0, _⟩ => rfl
    | ⟨1, _⟩ => rfl
  · refine (broadcastInDim_apply _ _ _ _ (ix1 g) ?_).trans ?_
    · intro a
      match a with
      | ⟨0, _⟩ => rfl
    · rfl

/-- THE TABLE AT AN ENTRY: entry `(n, g)` of the program's membership table, read at the extended reals, is one when node
    `n`'s graph id is the word of `g` and zero otherwise.  The compare's bit is 1 exactly when the two words are equal,
    and the conversion reads the bit as the natural number 1 or 0. -/
theorem onehotK_apply (b : IVec S100000 32) (n : Fin 100000) (g : Fin 64) :
    onehotK (F := Ideal) b (ix2 n g) = Cert.Spec.member (fun n => b (ix1 n)) n g := by
  show FloatOps.uitofp (F := Ideal) .bf16 (IntOp.cmpi .eq
    (broadcastInDim S100000x64 ![0, 1] bcast_S100000x1_S100000x64_0_1
      (broadcastInDim S100000x1 ![0] bcast_S100000_S100000x1_0 b) (ix2 n g))
    (broadcastInDim S100000x64 ![0, 1] bcast_S1x64_S100000x64_0_1
      (broadcastInDim S1x64 ![1] bcast_S64_S1x64_1 (iotaInDim S64 32 0)) (ix2 n g))) = _
  rw [ids_apply, pos_apply]
  unfold Cert.Spec.member
  by_cases hw : b (ix1 n) = BitVec.ofNat 32 g.val
  · rw [if_pos hw, StableHlo.Predicate.cmpi_eq_iff.mpr hw]
    show (((1#1 : BitVec 1).toNat : ℝ) : EReal) = 1
    rw [show (1#1 : BitVec 1).toNat = 1 from rfl, Nat.cast_one, EReal.coe_one]
  · rw [if_neg hw, eq_zero_of_ne_one (fun hc => hw (StableHlo.Predicate.cmpi_eq_iff.mp hc))]
    show (((0#1 : BitVec 1).toNat : ℝ) : EReal) = 0
    rw [show (0#1 : BitVec 1).toNat = 0 from rfl, Nat.cast_zero, EReal.coe_zero]

end Cert.KernelIdeal.Hand

end
-- ==== Proof.PoolLaw.lean ====
/-
  The pooling law over the extended reals: the block-by-block sum of membership-weighted rows is the sum over a graph's nodes.
-/
import proofs.«426858_j7756710937226_3_alg».proof.Proof.Spec
import Mathlib.Algebra.BigOperators.Fin
import Mathlib.Data.Fintype.BigOperators
import Mathlib.Data.EReal.Basic

noncomputable section

open scoped BigOperators

namespace Cert.Spec

open Idealize.ShloMosaic Idealize.ShloMosaic.ValueIdx

/-- A 32-bit word is the word of a graph number below 64 exactly when its signed reading is that number: the word of
    such a number reads signed as the number itself, and the signed reading determines the word. -/
theorem word_eq_iff_toInt (w : BitVec 32) (g : Fin 64) :
    w = BitVec.ofNat 32 g.val ↔ w.toInt = (g.val : Int) := by
  have hlt := g.isLt
  have hn : (BitVec.ofNat 32 g.val).toNat = g.val := by
    rw [BitVec.toNat_ofNat]
    omega
  have hg : (BitVec.ofNat 32 g.val).toInt = (g.val : Int) := by
    rw [BitVec.toInt_eq_toNat_of_lt (by rw [hn]; omega), hn]
  constructor
  · rintro rfl
    exact hg
  · intro hw
    apply BitVec.eq_of_toInt_eq
    rw [hw, hg]

/-- Cutting the 100000 nodes into 20 blocks of 5000 is a bijection: node `n` is node `n % 5000` of block `n / 5000`. -/
def nodeEquiv : Fin 20 × Fin 5000 ≃ Fin 100000 where
  toFun p := node p.1 p.2
  invFun n := (⟨n.val / 5000, by have := n.isLt; omega⟩, ⟨n.val % 5000, by omega⟩)
  left_inv p := by
    rcases p with ⟨t, i⟩
    have ht := t.isLt
    have hi := i.isLt
    apply Prod.ext <;> apply Fin.ext <;> simp only [node] <;> omega
  right_inv n := by
    apply Fin.ext
    simp only [node]
    omega

/-- A membership-weighted entry is the entry when the node's graph id reads signed as `g`, and zero otherwise. -/
theorem member_mul (b : Fin 100000 → BitVec 32) (n : Fin 100000) (g : Fin 64) (x : EReal) :
    member b n g * x = if (b n).toInt = (g.val : Int) then x else 0 := by
  unfold member
  by_cases hw : (b n).toInt = (g.val : Int)
  · rw [if_pos ((word_eq_iff_toInt (b n) g).mpr hw), if_pos hw, one_mul]
  · rw [if_neg (fun hc => hw ((word_eq_iff_toInt (b n) g).mp hc)), if_neg hw, zero_mul]

/-- The pooling law: summing, block by block, the membership-weighted rows of the 20 blocks of 5000 nodes is the sum over
    the nodes of graph `g`.  It uses only that a product with one is the factor, a product with zero is zero, and that
    sums of extended reals may be regrouped and reordered. -/
theorem pool_blocks (b : Fin 100000 → BitVec 32) (h : Fin 100000 → Fin 128 → EReal) (g : Fin 64) (j : Fin 128) :
    Z + ∑ t : Fin 20, ∑ i : Fin 5000, member b (node t i) g * h (node t i) j = poolAt b h g j := by
  unfold poolAt
  refine congrArg (fun s : EReal => Z + s) ?_
  rw [Finset.sum_filter]
  rw [← Fintype.sum_prod_type' (f := fun t i => member b (node t i) g * h (node t i) j)]
  refine Fintype.sum_equiv nodeEquiv _ _ (fun p => ?_)
  exact member_mul b (node p.1 p.2) g (h (node p.1 p.2) j)

end Cert.Spec

end
-- ==== Proof.BridgeLaws.lean ====
/-
  The two laws that join the kernel program's arrays to the reference's, over the extended reals.

  A layer: an array whose entry (n, j) is the row-wise perceptron of row n of a feature array and of an aggregate array,
  with weights that are a format change of the reference's weights (the identity here) and bias rows that are the
  reference's bias vectors laid out as one row, is the reference's whole-array layer at those operands.
  A pool: if slab t of a 20-slab array holds, at (g, j), the sum over the 5000 nodes of block t of membership(node, g)
  times the layer's entry (node, j), then the sum of the slabs, started from the zero word, is the reference's pooling of
  the layer's output by graph id: a product with one is the factor, with zero is zero, and the double sum over blocks and
  nodes in a block is the sum over all nodes.
-/
import proofs.«426858_j7756710937226_3_alg».proof.Proof.RefValue
import proofs.«426858_j7756710937226_3_alg».proof.Proof.Glue
import proofs.«426858_j7756710937226_3_alg».proof.Proof.OneHot
import proofs.«426858_j7756710937226_3_alg».proof.Proof.PoolLaw

set_option maxRecDepth 16384

noncomputable section

open scoped BigOperators

namespace Cert.KernelIdeal.Hand

open Cert.KernelIdeal Cert.KernelIdeal.Gen Idealize.ShloMosaic Idealize.ShloMosaic.ValueIdx

/-- The layer law. -/
theorem layer_of (X A OUT : FVec Ideal S100000x128 .f32) (WA WB : FVec Ideal S128x128 .bf16) (BA BB : FVec Ideal S1x128 .f32)
    (h : FVec Ideal S100000x128 .f32) (ei : IVec S2x640000 32) (wa wb : FVec Ideal S128x128 .f32) (ba bb : FVec Ideal S128 .f32)
    (hout : ∀ (n : Fin 100000) (j : Fin 128), OUT (ix2 n j) = Cert.Spec.mlpRow (fun k => X (ix2 n k)) (fun k => A (ix2 n k))
      (fun k' k => WA (ix2 k' k)) (fun k => BA (ix2 0 k)) (fun k' k => WB (ix2 k' k)) (fun k => BB (ix2 0 k)) j)
    (hX : X = h) (hA : A = Cert.ReferenceIdeal.RefValue.aggR (F := Ideal) h ei)
    (hWA : WA = truncf .bf16 wa bitsLt_bf16_f32) (hBA : BA = shapeCast S1x128 ba shapeCasts_S128_S1x128)
    (hWB : WB = truncf .bf16 wb bitsLt_bf16_f32) (hBB : BB = shapeCast S1x128 bb shapeCasts_S128_S1x128) :
    OUT = Cert.ReferenceIdeal.RefValue.layerR (F := Ideal) h ei wa ba wb bb := by
  subst hX hA hWA hBA hWB hBB
  funext i
  obtain ⟨n, j, rfl⟩ : ∃ (n : Fin 100000) (j : Fin 128), i = ix2 n j := ⟨i 0, i 1, eq_ix2 i⟩
  rw [hout, Cert.ReferenceIdeal.RefValue.layerR_apply]
  simp only [weight_cast_apply, bias_cast_apply]

/-- The pool law. -/
theorem pool_of (PP : FVec Ideal S20x64x128 .f32) (OUT A7 : FVec Ideal S100000x128 .f32) (M : FVec Ideal S100000x64 .bf16) (b : IVec S100000 32)
    (hpp : ∀ (t : Fin 20) (g : Fin 64) (j : Fin 128), PP (ix3 t g j) = ∑ i : Fin 5000, M (ix2 (Cert.Spec.node t i) g) * A7 (ix2 (Cert.Spec.node t i) j))
    (h7 : OUT = A7) (hM : M = onehotK (F := Ideal) b) :
    Host.reduceAdd (F := Ideal) PP (constant S_ .f32 0x00000000#32) reducesTo_S20x64x128_S64x128_d0 h_S_
      = Cert.ReferenceIdeal.RefValue.poolR (F := Ideal) b OUT := by
  subst h7 hM
  funext i
  obtain ⟨g, j, rfl⟩ : ∃ (g : Fin 64) (j : Fin 128), i = ix2 g j := ⟨i 0, i 1, eq_ix2 i⟩
  rw [reduce_apply, Cert.ReferenceIdeal.RefValue.poolR_apply, ← Cert.Spec.pool_blocks]
  congr 1
  refine Finset.sum_congr rfl fun t _ => ?_
  rw [hpp]
  refine Finset.sum_congr rfl fun i _ => ?_
  rw [onehotK_apply]

end Cert.KernelIdeal.Hand

end
-- ==== Proof.HostValue.lean ====
/-
  What the host operations between the kernel regions leave in the buffers the regions read, and in the returned array:
  each is a fixed composite of operations applied to the launch contents or to what the previous region left.
-/
import proofs.«426858_j7756710937226_3_alg».proof.Proof.Fold
import proofs.«426858_j7756710937226_3_alg».proof.Proof.OneHot
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## A three-operand operation's result -/

/-- An operation over a literal family of THREE references leaves, at its result reference, its function applied to the
    three operands' contents, each read at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-! ## Region 0's inputs -/

theorem in0_x (c : Dev nD) : Rdin0 m c main_arg0 = m ((c : Thread nD τ).loc main_arg0) :=
  StableHlo.after_of_writes_sub hostOps0 _ hostOps0_writes (by decide)

theorem in0_wa (c : Dev nD) : Rdin0 m c main_v11 = truncf .bf16 (m ((c : Thread nD τ).loc main_arg3)) bitsLt_bf16_f32 := by
  show StableHlo.after hostOps0 (W0 m c) (Proc.devRef .tc main_v11) = _
  after_results

theorem in0_ba (c : Dev nD) : Rdin0 m c main_v25 = shapeCast S1x128 (m ((c : Thread nD τ).loc main_arg4)) shapeCasts_S128_S1x128 := by
  show StableHlo.after hostOps0 (W0 m c) (Proc.devRef .tc main_v25) = _
  after_results
  rfl

theorem in0_m (c : Dev nD) : Rdin0 m c main_v10 = onehotK (m ((c : Thread nD τ).loc main_arg2)) := by
  show StableHlo.after hostOps0 (W0 m c) (Proc.devRef .tc main_v10) = _
  after_results
  rfl

theorem in0_wb (c : Dev nD) : Rdin0 m c main_v12 = truncf .bf16 (m ((c : Thread nD τ).loc main_arg5)) bitsLt_bf16_f32 := by
  show StableHlo.after hostOps0 (W0 m c) (Proc.devRef .tc main_v12) = _
  after_results

theorem in0_bb (c : Dev nD) : Rdin0 m c main_v26 = shapeCast S1x128 (m ((c : Thread nD τ).loc main_arg6)) shapeCasts_S128_S1x128 := by
  show StableHlo.after hostOps0 (W0 m c) (Proc.devRef .tc main_v26) = _
  after_results
  rfl

/-- The aggregation as the program computes it from a feature array `h` and the edge array `ei`: the rows of `h` at the
    edges' source nodes (a negative source index moved up by the node count), added into a zero array at the edges'
    destination nodes. -/
def aggK (h : FVec F S100000x128 .f32) (ei : IVec S2x640000 32) : FVec F S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0
      (shapeCast S640000 (extractStridedSlice S1x640000 ![1, 0] ei slices_S2x640000_S1x640000_1_0) shapeCasts_S1x640000_S640000))
    (Host.gather gather_S100000x128_S640000x1_S640000x128_1_0_n_n_0_1_1128 h
      (broadcastInDim S640000x1 ![0] bcast_S640000_S640000x1_0
        (select
          (cmpi .slt
            (shapeCast S640000 (extractStridedSlice S1x640000 ![0, 0] ei slices_S2x640000_S1x640000_0_0) shapeCasts_S1x640000_S640000)
            (broadcastInDim S640000 ![] bcast_S_S640000 (constantI S_ 32 0#32)))
          (addi
            (shapeCast S640000 (extractStridedSlice S1x640000 ![0, 0] ei slices_S2x640000_S1x640000_0_0) shapeCasts_S1x640000_S640000)
            (broadcastInDim S640000 ![] bcast_S_S640000 (constantI S_ 32 100000#32)))
          (shapeCast S640000 (extractStridedSlice S1x640000 ![0, 0] ei slices_S2x640000_S1x640000_0_0) shapeCasts_S1x640000_S640000))))

theorem in0_a (c : Dev nD) :
    Rdin0 m c main_v24 = aggK (m ((c : Thread nD τ).loc main_arg0)) (m ((c : Thread nD τ).loc main_arg1)) := by
  show StableHlo.after hostOps0 (W0 m c) (Proc.devRef .tc main_v24) = _
  after_results_simp
  rfl

/-! ## The returned array -/

/-- The first layer's pooled array, summed over the blocks, as the second host stretch computes it, is still in its
    buffer when the last region has run: neither later region and no later host operation writes that buffer. -/
theorem pool0_at_end (c : Dev nD) :
    Wout2 m c (Proc.devRef .tc main_v28)
      = Host.reduceAdd (Rdout0 m c main_v27_1) (constant S_ .f32 0x00000000#32) reducesTo_S20x64x128_S64x128_d0 h_S_ :=
  calc Wout2 m c (Proc.devRef .tc main_v28)
    _ = Win2 m c (Proc.devRef .tc main_v28) := Wout2_of_ne m c main_v28 (by decide)
    _ = Wout1 m c (Proc.devRef .tc main_v28) := StableHlo.after_of_writes_sub hostOps2 _ hostOps2_writes (by decide)
    _ = Win1 m c (Proc.devRef .tc main_v28) := Wout1_of_ne m c main_v28 (by decide)
    _ = _ := by
      show StableHlo.after hostOps1 (Wout0 m c) (Proc.devRef .tc main_v28) = _
      after_results <;> rfl

/-- The second layer's pooled array, summed over the blocks, as the third host stretch computes it, is still in its
    buffer when the last region has run. -/
theorem pool1_at_end (c : Dev nD) :
    Wout2 m c (Proc.devRef .tc main_v42)
      = Host.reduceAdd (Rdout1 m c main_v41_1) (constant S_ .f32 0x00000000#32) reducesTo_S20x64x128_S64x128_d0 h_S_ :=
  calc Wout2 m c (Proc.devRef .tc main_v42)
    _ = Win2 m c (Proc.devRef .tc main_v42) := Wout2_of_ne m c main_v42 (by decide)
    _ = _ := by
      show StableHlo.after hostOps2 (Wout1 m c) (Proc.devRef .tc main_v42) = _
      after_results <;> rfl

/-- THE RETURNED ARRAY: the three layers' pooled arrays, each summed over its 20 blocks from zero, laid side by side. -/
theorem out_all (c : Dev nD) :
    W7 m c (Proc.devRef .tc main_v57)
      = concatenate S64x384 1
          [⟨S64x128, Host.reduceAdd (Rdout0 m c main_v27_1) (constant S_ .f32 0x00000000#32) reducesTo_S20x64x128_S64x128_d0 h_S_⟩,
           ⟨S64x128, Host.reduceAdd (Rdout1 m c main_v41_1) (constant S_ .f32 0x00000000#32) reducesTo_S20x64x128_S64x128_d0 h_S_⟩,
           ⟨S64x128, Host.reduceAdd (Rdout2 m c main_v55_1) (constant S_ .f32 0x00000000#32) reducesTo_S20x64x128_S64x128_d0 h_S_⟩]
          concatenates_S64x128_S64x128_S64x128_S64x384_d1 := by
  show StableHlo.after hostOps3 (Wout2 m c) (Proc.devRef .tc main_v57) = _
  simp only [StableHlo.after_cons, StableHlo.after_nil]
  rw [nary3_result]
  repeat (first
    | rw [StableHlo.nullary_result] | rw [StableHlo.binary_result]
    | (rw [StableHlo.nullary_result_ne]; rotate_left; decide)
    | (rw [StableHlo.binary_result_ne]; rotate_left; decide))
  rw [pool0_at_end, pool1_at_end]
  rfl

/-! ## What region 0 leaves of the first host stretch's results and of the arguments -/

/-- A buffer that is no array of region 0 and that the first host stretch does not write holds its launch contents when
    region 0 has run. -/
theorem launch_at0 (c : Dev nD) (r : Ref sig .tc) (h0 : r ∉ hostOps0_W) (a0 : ∀ w, Pipeline.arrRef spec0 w ≠ r) :
    Wout0 m c (Proc.devRef .tc r) = m ((c : Thread nD τ).loc r) :=
  (Wout0_of_ne m c r a0).trans (StableHlo.after_of_writes_sub hostOps0 _ hostOps0_writes h0)

/-- The same when region 1 has run, for a buffer the second host stretch does not write either and that is no array of
    region 1. -/
theorem launch_at1 (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    Wout1 m c (Proc.devRef .tc r) = m ((c : Thread nD τ).loc r) :=
  (Wout1_of_ne m c r a1).trans ((StableHlo.after_of_writes_sub hostOps1 _ hostOps1_writes h1).trans (launch_at0 m c r h0 a0))

/-- The edges' source row, as the first host stretch cuts it from the edge array, is still in its buffer when region 0
    has run. -/
theorem src_at0 (c : Dev nD) :
    Wout0 m c (Proc.devRef .tc main_v1)
      = shapeCast S640000 (extractStridedSlice S1x640000 ![0, 0] (m ((c : Thread nD τ).loc main_arg1)) slices_S2x640000_S1x640000_0_0)
          shapeCasts_S1x640000_S640000 := by
  refine (Wout0_of_ne m c main_v1 (by decide)).trans ?_
  show StableHlo.after hostOps0 (W0 m c) (Proc.devRef .tc main_v1) = _
  after_results <;> rfl

/-- The edges' destination row likewise. -/
theorem dst_at0 (c : Dev nD) :
    Wout0 m c (Proc.devRef .tc main_v3)
      = shapeCast S640000 (extractStridedSlice S1x640000 ![1, 0] (m ((c : Thread nD τ).loc main_arg1)) slices_S2x640000_S1x640000_1_0)
          shapeCasts_S1x640000_S640000 := by
  refine (Wout0_of_ne m c main_v3 (by decide)).trans ?_
  show StableHlo.after hostOps0 (W0 m c) (Proc.devRef .tc main_v3) = _
  after_results <;> rfl

/-- Both rows are still there when region 1 has run: the second host stretch and region 1 write neither buffer. -/
theorem src_at1 (c : Dev nD) :
    Wout1 m c (Proc.devRef .tc main_v1)
      = shapeCast S640000 (extractStridedSlice S1x640000 ![0, 0] (m ((c : Thread nD τ).loc main_arg1)) slices_S2x640000_S1x640000_0_0)
          shapeCasts_S1x640000_S640000 :=
  (Wout1_of_ne m c main_v1 (by decide)).trans
    ((StableHlo.after_of_writes_sub hostOps1 _ hostOps1_writes (by decide)).trans (src_at0 m c))
theorem dst_at1 (c : Dev nD) :
    Wout1 m c (Proc.devRef .tc main_v3)
      = shapeCast S640000 (extractStridedSlice S1x640000 ![1, 0] (m ((c : Thread nD τ).loc main_arg1)) slices_S2x640000_S1x640000_1_0)
          shapeCasts_S1x640000_S640000 :=
  (Wout1_of_ne m c main_v3 (by decide)).trans
    ((StableHlo.after_of_writes_sub hostOps1 _ hostOps1_writes (by decide)).trans (dst_at0 m c))

/-! ## Region 1's inputs -/

theorem in1_x (c : Dev nD) : Rdin1 m c main_v27_0 = Rdout0 m c main_v27_0 :=
  StableHlo.after_of_writes_sub hostOps1 _ hostOps1_writes (by decide)

theorem in1_a (c : Dev nD) :
    Rdin1 m c main_v38 = aggK (Rdout0 m c main_v27_0) (m ((c : Thread nD τ).loc main_arg1)) := by
  show StableHlo.after hostOps1 (Wout0 m c) (Proc.devRef .tc main_v38) = _
  after_results_simp
  rw [src_at0, dst_at0]
  rfl

/-- The membership table is an input array of region 0, which leaves it as found, and the second host stretch does not
    write it. -/
theorem in1_m (c : Dev nD) : Rdin1 m c main_v10 = onehotK (m ((c : Thread nD τ).loc main_arg2)) :=
  calc Rdin1 m c main_v10
    _ = Wout0 m c (Proc.devRef .tc main_v10) := StableHlo.after_of_writes_sub hostOps1 _ hostOps1_writes (by decide)
    _ = Win0 m c (Proc.devRef .tc main_v10) := (Wout0_arr m c 2).trans (((dat0 (Rdin0 m) c).arrAt_in 2 rfl _).trans (A_eq0 (Rdin0 m) c 2))
    _ = _ := in0_m m c

theorem in1_wa (c : Dev nD) : Rdin1 m c main_v13 = truncf .bf16 (m ((c : Thread nD τ).loc main_arg7)) bitsLt_bf16_f32 := by
  refine (StableHlo.after_of_writes_sub hostOps1 _ hostOps1_writes (by decide)).trans ?_
  refine (Wout0_of_ne m c main_v13 (by decide)).trans ?_
  show StableHlo.after hostOps0 (W0 m c) (Proc.devRef .tc main_v13) = _
  after_results <;> rfl

theorem in1_wb (c : Dev nD) : Rdin1 m c main_v14 = truncf .bf16 (m ((c : Thread nD τ).loc main_arg9)) bitsLt_bf16_f32 := by
  refine (StableHlo.after_of_writes_sub hostOps1 _ hostOps1_writes (by decide)).trans ?_
  refine (Wout0_of_ne m c main_v14 (by decide)).trans ?_
  show StableHlo.after hostOps0 (W0 m c) (Proc.devRef .tc main_v14) = _
  after_results <;> rfl

theorem in1_ba (c : Dev nD) : Rdin1 m c main_v39 = shapeCast S1x128 (m ((c : Thread nD τ).loc main_arg8)) shapeCasts_S128_S1x128 := by
  show StableHlo.after hostOps1 (Wout0 m c) (Proc.devRef .tc main_v39) = _
  after_results
  rw [launch_at0 m c main_arg8 (by decide) (by decide)]
  rfl

theorem in1_bb (c : Dev nD) : Rdin1 m c main_v40 = shapeCast S1x128 (m ((c : Thread nD τ).loc main_arg10)) shapeCasts_S128_S1x128 := by
  show StableHlo.after hostOps1 (Wout0 m c) (Proc.devRef .tc main_v40) = _
  after_results
  rw [launch_at0 m c main_arg10 (by decide) (by decide)]
  rfl

/-! ## Region 2's inputs -/

theorem in2_x (c : Dev nD) : Rdin2 m c main_v41_0 = Rdout1 m c main_v41_0 :=
  StableHlo.after_of_writes_sub hostOps2 _ hostOps2_writes (by decide)

theorem in2_a (c : Dev nD) :
    Rdin2 m c main_v52 = aggK (Rdout1 m c main_v41_0) (m ((c : Thread nD τ).loc main_arg1)) := by
  show StableHlo.after hostOps2 (Wout1 m c) (Proc.devRef .tc main_v52) = _
  after_results_simp
  rw [src_at1, dst_at1]
  rfl

/-- The membership table and the second pair of weight matrices are input arrays of region 1, which leaves them as found,
    and the third host stretch writes none of them. -/
theorem in2_m (c : Dev nD) : Rdin2 m c main_v10 = onehotK (m ((c : Thread nD τ).loc main_arg2)) :=
  calc Rdin2 m c main_v10
    _ = Wout1 m c (Proc.devRef .tc main_v10) := StableHlo.after_of_writes_sub hostOps2 _ hostOps2_writes (by decide)
    _ = Win1 m c (Proc.devRef .tc main_v10) := (Wout1_arr m c 2).trans (((dat1 (Rdin1 m) c).arrAt_in 2 rfl _).trans (A_eq1 (Rdin1 m) c 2))
    _ = _ := in1_m m c

theorem in2_wa (c : Dev nD) : Rdin2 m c main_v13 = truncf .bf16 (m ((c : Thread nD τ).loc main_arg7)) bitsLt_bf16_f32 :=
  calc Rdin2 m c main_v13
    _ = Wout1 m c (Proc.devRef .tc main_v13) := StableHlo.after_of_writes_sub hostOps2 _ hostOps2_writes (by decide)
    _ = Win1 m c (Proc.devRef .tc main_v13) := (Wout1_arr m c 3).trans (((dat1 (Rdin1 m) c).arrAt_in 3 rfl _).trans (A_eq1 (Rdin1 m) c 3))
    _ = _ := in1_wa m c

theorem in2_wb (c : Dev nD) : Rdin2 m c main_v14 = truncf .bf16 (m ((c : Thread nD τ).loc main_arg9)) bitsLt_bf16_f32 :=
  calc Rdin2 m c main_v14
    _ = Wout1 m c (Proc.devRef .tc main_v14) := StableHlo.after_of_writes_sub hostOps2 _ hostOps2_writes (by decide)
    _ = Win1 m c (Proc.devRef .tc main_v14) := (Wout1_arr m c 5).trans (((dat1 (Rdin1 m) c).arrAt_in 5 rfl _).trans (A_eq1 (Rdin1 m) c 5))
    _ = _ := in1_wb m c

theorem in2_ba (c : Dev nD) : Rdin2 m c main_v53 = shapeCast S1x128 (m ((c : Thread nD τ).loc main_arg8)) shapeCasts_S128_S1x128 := by
  show StableHlo.after hostOps2 (Wout1 m c) (Proc.devRef .tc main_v53) = _
  after_results
  rw [launch_at1 m c main_arg8 (by decide) (by decide) (by decide) (by decide)]
  rfl

theorem in2_bb (c : Dev nD) : Rdin2 m c main_v54 = shapeCast S1x128 (m ((c : Thread nD τ).loc main_arg10)) shapeCasts_S128_S1x128 := by
  show StableHlo.after hostOps2 (Wout1 m c) (Proc.devRef .tc main_v54) = _
  after_results
  rw [launch_at1 m c main_arg10 (by decide) (by decide) (by decide) (by decide)]
  rfl

end Cert.KernelIdeal.Hand

end
-- ==== Proof.PayloadValue.lean ====
/-
  The two blocks region 0's body stores, read at an index over the extended reals.

  The activation block at row `r`, column `j` is the two-layer perceptron of row `r` of the node block plus row `r`
  of the aggregate block: each layer is a product with a 128 × 128 weight block, summed over the contracted coordinate
  from a zero accumulator, plus the bias row, under the rectifier.  The pool block at graph `g`, column `j` is the sum
  over the block's 5000 rows of the membership entry of row `i` and graph `g` times the activation at row `i`.
-/
import proofs.«426858_j7756710937226_3_alg».proof.Proof.Region0
import proofs.«426858_j7756710937226_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.ValueIdx

/-! ## The whole-block rectangles start at the origin -/

theorem origin2 : (![0, 0] : Fin 2 → Nat) = fun _ => 0 := funext fun a => by fin_cases a <;> rfl
theorem origin3 : (![0, 0, 0] : Fin 3 → Nat) = fun _ => 0 := funext fun a => by fin_cases a <;> rfl

/-- The activation block is the first payload of the input blocks themselves. -/
theorem out0_7_eq {F : FTy → Type} [FloatOps F] (x0 x1 : Vec F S5000x128 .f32) (x3 : Vec F S128x128 .bf16) (x4 : Vec F S1x128 .f32)
    (x5 : Vec F S128x128 .bf16) (x6 : Vec F S1x128 .f32) :
    out0_7 x0 x1 x3 x4 x5 x6 = k0_pay1 x0 x1 x3 x4 x5 x6 := by
  unfold out0_7
  rw [View.canon_unit_zero origin2]
  simp only [View.ld_unit_zero (S := S5000x128) origin2, View.ld_unit_zero (S := S128x128) origin2,
    View.ld_unit_zero (S := S1x128) origin2]

/-- The pool block is the second payload of the input blocks themselves. -/
theorem out0_8_eq {F : FTy → Type} [FloatOps F] (x0 x1 : Vec F S5000x128 .f32) (x2 : Vec F S5000x64 .bf16) (x3 : Vec F S128x128 .bf16)
    (x4 : Vec F S1x128 .f32) (x5 : Vec F S128x128 .bf16) (x6 : Vec F S1x128 .f32) :
    out0_8 x0 x1 x2 x3 x4 x5 x6 = k0_pay2 x0 x1 x3 x4 x5 x6 x2 := by
  unfold out0_8
  rw [View.canon_unit_zero origin3]
  simp only [View.ld_unit_zero (S := S5000x128) origin2, View.ld_unit_zero (S := S128x128) origin2,
    View.ld_unit_zero (S := S1x128) origin2, View.ld_unit_zero (S := S5000x64) origin2]

/-! ## The layer product: rows of the left block against columns of the weight block -/

theorem lhs_layer_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_layer_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_layer_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_layer_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The layer product from a zero accumulator at `(r, j)`: row `r` of the left block against column `j` of the weights. -/
theorem layer_matmul_apply (a : FVec Ideal S5000x128 .bf16) (w : FVec Ideal S128x128 .bf16) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun ax => Fin.ext (by
    match ax with
    | ⟨0, _⟩ => exact lhs_layer_0 _ _
    | ⟨1, _⟩ => exact (lhs_layer_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun ax => Fin.ext (by
    match ax with
    | ⟨0, _⟩ => exact (rhs_layer_0 _ _).trans hk
    | ⟨1, _⟩ => exact rhs_layer_1 _ _)
  rw [el, er]

/-! ## The pool product: columns of the membership block against columns of the activation block -/

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The pool product from a zero accumulator at `(g, j)`: column `g` of the membership block against column `j` of
    the right block, summed over the 5000 rows. -/
theorem pool_matmul_apply (mb : FVec Ideal S5000x64 .bf16) (a : FVec Ideal S5000x128 .bf16) (g : Fin 64) (j : Fin 128) :
    matmul dot_S5000x64_S5000x128_S64x128_0_0_1_1_n_n none mb a (constant (F := Ideal) S64x128 .f32 0x00000000#32) (ix2 g j)
      = ∑ i : Fin 5000, mb (ix2 i g) * a (ix2 i j) := by
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g j) ((contrEquiv1 dot_S5000x64_S5000x128_S64x128_0_0_1_1_n_n 5000 rfl rfl).symm k) = ix2 k g := funext fun ax => Fin.ext (by
    match ax with
    | ⟨0, _⟩ => exact (lhs_pool_0 _ _).trans hk
    | ⟨1, _⟩ => exact lhs_pool_1 _ _)
  have er : dot_S5000x64_S5000x128_S64x128_0_0_1_1_n_n.rhsIdx (ix2 g j) ((contrEquiv1 dot_S5000x64_S5000x128_S64x128_0_0_1_1_n_n 5000 rfl rfl).symm k) = ix2 k j := funext fun ax => Fin.ext (by
    match ax with
    | ⟨0, _⟩ => exact (rhs_pool_0 _ _).trans hk
    | ⟨1, _⟩ => exact rhs_pool_1 _ _)
  rw [el, er]

/-! ## One layer at an index -/

/-- One affine layer under the rectifier at `(r, j)`: the product of the (format-changed) left block with the weight
    block from a zero accumulator, plus the bias row broadcast over the rows, against the zero word. -/
theorem layer_apply (a : FVec Ideal S5000x128 .f32) (w : FVec Ideal S128x128 .bf16) (b : FVec Ideal S1x128 .f32)
    (ht : FTy.bits .bf16 < FTy.bits .f32) (hw : S128x128.ShapeCasts S128x128) (hb : S1x128.ShapeCasts S1x128)
    (hbc : S1x128.Broadcasts S5000x128) (r : Fin 5000) (j : Fin 128) :
    maximumf (addf (matmul dot_S5000x128_S128x128_S5000x128_1_0_0_1_n_n none (truncf .bf16 a ht) (shapeCast S128x128 w hw) (constant (F := Ideal) S5000x128 .f32 0x00000000#32))
        (broadcastTo S5000x128 (shapeCast S1x128 b hb) hbc)) (broadcast S5000x128 (Scalar.ofBits .f32 0x00000000#32)) (ix2 r j)
      = max ((∑ k : Fin 128, a (ix2 r k) * w (ix2 k j)) + b (ix2 0 j)) Cert.Spec.Z := by
  rw [shapeCast_self, shapeCast_self]
  show max (matmul dot_S5000x128_S128x128_S5000x128_1_0_0_1_n_n none (truncf .bf16 a ht) w (constant (F := Ideal) S5000x128 .f32 0x00000000#32) (ix2 r j)
      + broadcastTo S5000x128 b hbc (ix2 r j)) _ = _
  rw [layer_matmul_apply, broadcastTo_1b_ab_apply]
  rfl

/-! ## The two stored blocks at an index -/

/-- THE ACTIVATION BLOCK at `(r, j)` is the perceptron's entry `j` of rows `r` of the node and aggregate blocks. -/
theorem out0_7_apply (x0 x1 : Vec Ideal S5000x128 .f32) (x3 : Vec Ideal S128x128 .bf16) (x4 : Vec Ideal S1x128 .f32) (x5 : Vec Ideal S128x128 .bf16) (x6 : Vec Ideal S1x128 .f32) (r : Fin 5000) (j : Fin 128) :
    out0_7 (F := Ideal) x0 x1 x3 x4 x5 x6 (ix2 r j) =
      Cert.Spec.mlpRow (fun k => x0 (ix2 r k)) (fun k => x1 (ix2 r k)) (fun k' k => x3 (ix2 k' k)) (fun k => x4 (ix2 0 k)) (fun k' k => x5 (ix2 k' k)) (fun k => x6 (ix2 0 k)) j := by
  rw [out0_7_eq]
  unfold k0_pay1
  refine (layer_apply _ x5 x6 _ _ _ _ r j).trans ?_
  unfold Cert.Spec.mlpRow
  refine congrArg (fun s => max (s + x6 (ix2 0 j)) Cert.Spec.Z) (Finset.sum_congr rfl fun k _ => ?_)
  refine congrArg (· * x5 (ix2 k j)) ?_
  refine (layer_apply _ x3 x4 _ _ _ _ r k).trans ?_
  refine congrArg (fun s => max (s + x4 (ix2 0 k)) Cert.Spec.Z) (Finset.sum_congr rfl fun k' _ => ?_)
  refine congrArg (· * x3 (ix2 k' k)) ?_
  rw [shapeCast_self]
  rfl

/-- THE POOL BLOCK at `(0, g, j)` is the sum over the rows of membership times activation. -/
theorem out0_8_apply (x0 x1 : Vec Ideal S5000x128 .f32) (x2 : Vec Ideal S5000x64 .bf16) (x3 : Vec Ideal S128x128 .bf16) (x4 : Vec Ideal S1x128 .f32) (x5 : Vec Ideal S128x128 .bf16) (x6 : Vec Ideal S1x128 .f32) (g : Fin 64) (j : Fin 128) :
    out0_8 (F := Ideal) x0 x1 x2 x3 x4 x5 x6 (ix3 0 g j) = ∑ i : Fin 5000, x2 (ix2 i g) * out0_7 (F := Ideal) x0 x1 x3 x4 x5 x6 (ix2 i j) := by
  rw [out0_8_eq]
  simp only [out0_7_eq]
  unfold k0_pay2
  refine (shapeCast_ab_1ab_apply _ _ 0 g j).trans ?_
  rw [shapeCast_self]
  exact pool_matmul_apply x2 _ g j

end Cert.KernelIdeal.Hand

end
-- ==== Proof.ArrayValue0.lean ====
/-
  Region 0's two output arrays after the region, as functions of the arrays the region reads, over the extended reals.

  The 100000 nodes are cut into 20 blocks of 5000; grid point `t` reads rows `5000 t …` of the node-feature, aggregate
  and membership arrays and the whole of the two weight arrays and two bias rows, and writes rows `5000 t …` of the
  activation array and slab `t` of the partial-pool array.  Row `n` of the activation array ends as the two-layer
  perceptron of rows `n` of the two node arrays; entry `(t, g, j)` of the partial-pool array ends as the sum over the
  nodes of block `t` of membership in graph `g` times the activation at column `j`.  Each point's stored block is its
  block of one function of the array index, the blocks cover the arrays, so the arrays end holding those functions.
-/
import proofs.«426858_j7756710937226_3_alg».proof.Proof.PayloadValue
import proofs.«426858_j7756710937226_3_alg».proof.Proof.Spec
import Idealize.ShloMosaic.Lib.Pipeline.Value
import Idealize.ShloMosaic.Lib.Pipeline.FrameBody
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The arrays the region reads, at their literal types -/

/-- The node-feature array as the region finds it. -/
abbrev arr0_x (c : Dev nD) : FVec Ideal S100000x128 .f32 := V c (Pipeline.arrRef spec0 0)
/-- The aggregate array. -/
abbrev arr0_a (c : Dev nD) : FVec Ideal S100000x128 .f32 := V c (Pipeline.arrRef spec0 1)
/-- The membership array. -/
abbrev arr0_m (c : Dev nD) : FVec Ideal S100000x64 .bf16 := V c (Pipeline.arrRef spec0 2)
/-- The first layer's weights and bias row, the second layer's weights and bias row. -/
abbrev arr0_wa (c : Dev nD) : FVec Ideal S128x128 .bf16 := V c (Pipeline.arrRef spec0 3)
abbrev arr0_ba (c : Dev nD) : FVec Ideal S1x128 .f32 := V c (Pipeline.arrRef spec0 4)
abbrev arr0_wb (c : Dev nD) : FVec Ideal S128x128 .bf16 := V c (Pipeline.arrRef spec0 5)
abbrev arr0_bb (c : Dev nD) : FVec Ideal S1x128 .f32 := V c (Pipeline.arrRef spec0 6)

/-- The activation of node `n` at column `j`: the perceptron of that node's rows of the two node arrays. -/
def arr0_act (c : Dev nD) (n : Fin 100000) (j : Fin 128) : EReal :=
  Cert.Spec.mlpRow (fun k => arr0_x V c (ix2 n k)) (fun k => arr0_a V c (ix2 n k)) (fun k' k => arr0_wa V c (ix2 k' k))
    (fun k => arr0_ba V c (ix2 0 k)) (fun k' k => arr0_wb V c (ix2 k' k)) (fun k => arr0_bb V c (ix2 0 k)) j

/-- The partial pool of node block `t` at graph `g`, column `j`: membership times activation, summed over the block's nodes. -/
def arr0_pool (c : Dev nD) (t : Fin 20) (g : Fin 64) (j : Fin 128) : EReal :=
  ∑ i : Fin 5000, arr0_m V c (ix2 (Cert.Spec.node t i) g) * arr0_act V c (Cert.Spec.node t i) j

/-- The activation array as one function of its index. -/
abbrev arr0_G7 (c : Dev nD) : FVec Ideal S100000x128 .f32 := fun i => arr0_act V c (i 0) (i 1)
/-- The partial-pool array as one function of its index. -/
abbrev arr0_G8 (c : Dev nD) : FVec Ideal S20x64x128 .f32 := fun i => arr0_pool V c (i 0) (i 1) (i 2)

/-! ## The block index of every window at every grid point -/

theorem pt0_idx_x : ∀ t : Fin cfg0.N, (cfg0.win 0).index t (0 : Fin 2) = t.val ∧ (cfg0.win 0).index t (1 : Fin 2) = 0 :=
  (by decide +kernel : ∀ t : Fin grid0.N, _)
theorem pt0_idx_a : ∀ t : Fin cfg0.N, (cfg0.win 1).index t (0 : Fin 2) = t.val ∧ (cfg0.win 1).index t (1 : Fin 2) = 0 :=
  (by decide +kernel : ∀ t : Fin grid0.N, _)
theorem pt0_idx_m : ∀ t : Fin cfg0.N, (cfg0.win 2).index t (0 : Fin 2) = t.val ∧ (cfg0.win 2).index t (1 : Fin 2) = 0 :=
  (by decide +kernel : ∀ t : Fin grid0.N, _)
theorem pt0_idx_wa : ∀ t : Fin cfg0.N, (cfg0.win 3).index t (0 : Fin 2) = 0 ∧ (cfg0.win 3).index t (1 : Fin 2) = 0 :=
  (by decide +kernel : ∀ t : Fin grid0.N, _)
theorem pt0_idx_ba : ∀ t : Fin cfg0.N, (cfg0.win 4).index t (0 : Fin 2) = 0 ∧ (cfg0.win 4).index t (1 : Fin 2) = 0 :=
  (by decide +kernel : ∀ t : Fin grid0.N, _)
theorem pt0_idx_wb : ∀ t : Fin cfg0.N, (cfg0.win 5).index t (0 : Fin 2) = 0 ∧ (cfg0.win 5).index t (1 : Fin 2) = 0 :=
  (by decide +kernel : ∀ t : Fin grid0.N, _)
theorem pt0_idx_bb : ∀ t : Fin cfg0.N, (cfg0.win 6).index t (0 : Fin 2) = 0 ∧ (cfg0.win 6).index t (1 : Fin 2) = 0 :=
  (by decide +kernel : ∀ t : Fin grid0.N, _)
theorem pt0_idx_act : ∀ t : Fin cfg0.N, (cfg0.win 7).index t (0 : Fin 2) = t.val ∧ (cfg0.win 7).index t (1 : Fin 2) = 0 :=
  (by decide +kernel : ∀ t : Fin grid0.N, _)
theorem pt0_idx_pool : ∀ t : Fin cfg0.N, (cfg0.win 8).index t (0 : Fin 3) = t.val ∧ (cfg0.win 8).index t (1 : Fin 3) = 0
    ∧ (cfg0.win 8).index t (2 : Fin 3) = 0 :=
  (by decide +kernel : ∀ t : Fin grid0.N, _)

/-! ## Each input block is the array read where the block lies -/

theorem blk0_x (c : Dev nD) (t : Fin cfg0.N) (r : Fin 5000) (k : Fin 128) (n : Fin 100000) (hn : n.val = 5000 * t.val + r.val) :
    (iblk0 V c 0 t : Vec Ideal S5000x128 .f32) (ix2 r k) = arr0_x V c (ix2 n k) := by
  obtain ⟨ea, eb⟩ := pt0_idx_x t
  unfold iblk0
  rw [View.read_apply]
  show V c (Pipeline.arrRef spec0 0) _ = V c (Pipeline.arrRef spec0 0) _
  congr 1
  funext a
  apply Fin.ext
  match a with
  | ⟨0, _⟩ => show (cfg0.win 0).index t (0 : Fin 2) * 5000 + 1 * r.val = n.val; omega
  | ⟨1, _⟩ => show (cfg0.win 0).index t (1 : Fin 2) * 128 + 1 * k.val = k.val; omega

theorem blk0_a (c : Dev nD) (t : Fin cfg0.N) (r : Fin 5000) (k : Fin 128) (n : Fin 100000) (hn : n.val = 5000 * t.val + r.val) :
    (iblk0 V c 1 t : Vec Ideal S5000x128 .f32) (ix2 r k) = arr0_a V c (ix2 n k) := by
  obtain ⟨ea, eb⟩ := pt0_idx_a t
  unfold iblk0
  rw [View.read_apply]
  show V c (Pipeline.arrRef spec0 1) _ = V c (Pipeline.arrRef spec0 1) _
  congr 1
  funext a
  apply Fin.ext
  match a with
  | ⟨0, _⟩ => show (cfg0.win 1).index t (0 : Fin 2) * 5000 + 1 * r.val = n.val; omega
  | ⟨1, _⟩ => show (cfg0.win 1).index t (1 : Fin 2) * 128 + 1 * k.val = k.val; omega

theorem blk0_m (c : Dev nD) (t : Fin cfg0.N) (r : Fin 5000) (g : Fin 64) (n : Fin 100000) (hn : n.val = 5000 * t.val + r.val) :
    (iblk0 V c 2 t : Vec Ideal S5000x64 .bf16) (ix2 r g) = arr0_m V c (ix2 n g) := by
  obtain ⟨ea, eb⟩ := pt0_idx_m t
  unfold iblk0
  rw [View.read_apply]
  show V c (Pipeline.arrRef spec0 2) _ = V c (Pipeline.arrRef spec0 2) _
  congr 1
  funext a
  apply Fin.ext
  match a with
  | ⟨0, _⟩ => show (cfg0.win 2).index t (0 : Fin 2) * 5000 + 1 * r.val = n.val; omega
  | ⟨1, _⟩ => show (cfg0.win 2).index t (1 : Fin 2) * 64 + 1 * g.val = g.val; omega

theorem blk0_wa (c : Dev nD) (t : Fin cfg0.N) (k' k : Fin 128) :
    (iblk0 V c 3 t : Vec Ideal S128x128 .bf16) (ix2 k' k) = arr0_wa V c (ix2 k' k) := by
  obtain ⟨ea, eb⟩ := pt0_idx_wa t
  unfold iblk0
  rw [View.read_apply]
  show V c (Pipeline.arrRef spec0 3) _ = V c (Pipeline.arrRef spec0 3) _
  congr 1
  funext a
  apply Fin.ext
  match a with
  | ⟨0, _⟩ => show (cfg0.win 3).index t (0 : Fin 2) * 128 + 1 * k'.val = k'.val; omega
  | ⟨1, _⟩ => show (cfg0.win 3).index t (1 : Fin 2) * 128 + 1 * k.val = k.val; omega

theorem blk0_ba (c : Dev nD) (t : Fin cfg0.N) (u : Fin 1) (k : Fin 128) :
    (iblk0 V c 4 t : Vec Ideal S1x128 .f32) (ix2 u k) = arr0_ba V c (ix2 u k) := by
  obtain ⟨ea, eb⟩ := pt0_idx_ba t
  unfold iblk0
  rw [View.read_apply]
  show V c (Pipeline.arrRef spec0 4) _ = V c (Pipeline.arrRef spec0 4) _
  congr 1
  funext a
  apply Fin.ext
  match a with
  | ⟨0, _⟩ => show (cfg0.win 4).index t (0 : Fin 2) * 1 + 1 * u.val = u.val; omega
  | ⟨1, _⟩ => show (cfg0.win 4).index t (1 : Fin 2) * 128 + 1 * k.val = k.val; omega

theorem blk0_wb (c : Dev nD) (t : Fin cfg0.N) (k' k : Fin 128) :
    (iblk0 V c 5 t : Vec Ideal S128x128 .bf16) (ix2 k' k) = arr0_wb V c (ix2 k' k) := by
  obtain ⟨ea, eb⟩ := pt0_idx_wb t
  unfold iblk0
  rw [View.read_apply]
  show V c (Pipeline.arrRef spec0 5) _ = V c (Pipeline.arrRef spec0 5) _
  congr 1
  funext a
  apply Fin.ext
  match a with
  | ⟨0, _⟩ => show (cfg0.win 5).index t (0 : Fin 2) * 128 + 1 * k'.val = k'.val; omega
  | ⟨1, _⟩ => show (cfg0.win 5).index t (1 : Fin 2) * 128 + 1 * k.val = k.val; omega

theorem blk0_bb (c : Dev nD) (t : Fin cfg0.N) (u : Fin 1) (k : Fin 128) :
    (iblk0 V c 6 t : Vec Ideal S1x128 .f32) (ix2 u k) = arr0_bb V c (ix2 u k) := by
  obtain ⟨ea, eb⟩ := pt0_idx_bb t
  unfold iblk0
  rw [View.read_apply]
  show V c (Pipeline.arrRef spec0 6) _ = V c (Pipeline.arrRef spec0 6) _
  congr 1
  funext a
  apply Fin.ext
  match a with
  | ⟨0, _⟩ => show (cfg0.win 6).index t (0 : Fin 2) * 1 + 1 * u.val = u.val; omega
  | ⟨1, _⟩ => show (cfg0.win 6).index t (1 : Fin 2) * 128 + 1 * k.val = k.val; omega

/-! ## What one grid point computes, on the arrays -/

/-- Row `r` of the activation block at point `t` is the activation of node `5000 t + r`. -/
theorem pt0_act (c : Dev nD) (t : Fin cfg0.N) (r : Fin 5000) (j : Fin 128) (n : Fin 100000) (hn : n.val = 5000 * t.val + r.val) :
    out0_7 (F := Ideal) (iblk0 V c 0 t) (iblk0 V c 1 t) (iblk0 V c 3 t) (iblk0 V c 4 t) (iblk0 V c 5 t) (iblk0 V c 6 t) (ix2 r j)
      = arr0_act V c n j := by
  refine (out0_7_apply _ _ _ _ _ _ r j).trans ?_
  unfold arr0_act
  have hx : (fun k => (iblk0 V c 0 t : Vec Ideal S5000x128 .f32) (ix2 r k)) = fun k => arr0_x V c (ix2 n k) :=
    funext fun k => blk0_x V c t r k n hn
  have ha : (fun k => (iblk0 V c 1 t : Vec Ideal S5000x128 .f32) (ix2 r k)) = fun k => arr0_a V c (ix2 n k) :=
    funext fun k => blk0_a V c t r k n hn
  have hwa : (fun k' k => (iblk0 V c 3 t : Vec Ideal S128x128 .bf16) (ix2 k' k)) = fun k' k => arr0_wa V c (ix2 k' k) :=
    funext fun k' => funext fun k => blk0_wa V c t k' k
  have hba : (fun k => (iblk0 V c 4 t : Vec Ideal S1x128 .f32) (ix2 0 k)) = fun k => arr0_ba V c (ix2 0 k) :=
    funext fun k => blk0_ba V c t 0 k
  have hwb : (fun k' k => (iblk0 V c 5 t : Vec Ideal S128x128 .bf16) (ix2 k' k)) = fun k' k => arr0_wb V c (ix2 k' k) :=
    funext fun k' => funext fun k => blk0_wb V c t k' k
  have hbb : (fun k => (iblk0 V c 6 t : Vec Ideal S1x128 .f32) (ix2 0 k)) = fun k => arr0_bb V c (ix2 0 k) :=
    funext fun k => blk0_bb V c t 0 k
  rw [hx, ha, hwa, hba, hwb, hbb]

/-- The pool block at point `t` is the partial pool of node block `t`. -/
theorem pt0_pool (c : Dev nD) (t : Fin cfg0.N) (t' : Fin 20) (ht : t'.val = t.val) (g : Fin 64) (j : Fin 128) :
    out0_8 (F := Ideal) (iblk0 V c 0 t) (iblk0 V c 1 t) (iblk0 V c 2 t) (iblk0 V c 3 t) (iblk0 V c 4 t) (iblk0 V c 5 t) (iblk0 V c 6 t) (ix3 0 g j)
      = arr0_pool V c t' g j := by
  refine (out0_8_apply _ _ _ _ _ _ _ g j).trans ?_
  unfold arr0_pool
  refine Finset.sum_congr rfl fun i _ => ?_
  have hn : (Cert.Spec.node t' i).val = 5000 * t.val + i.val := by
    show 5000 * t'.val + i.val = 5000 * t.val + i.val
    rw [ht]
  exact congrArg₂ (· * ·) (blk0_m V c t i g _ hn) (pt0_act V c t i j _ hn)

/-! ## What each point writes back is its block of the whole-array function -/

theorem blk0_act (c : Dev nD) (t : Fin cfg0.N) :
    (dat0 (F := Ideal) V c).flushed 7 t = ((cfg0.win 7).blk t).view.read (Elt Ideal) (arr0_G7 V c) := by
  show (cfg0.win 7).cut (grid0.coords t) ((dat0 V c).after 7 t) = _
  rw [after0_7]
  funext y
  obtain ⟨r, j, rfl⟩ : ∃ (r : Fin 5000) (j : Fin 128), y = ix2 r j := ⟨y 0, y 1, eq_ix2 y⟩
  obtain ⟨ea, eb⟩ := pt0_idx_act t
  have hN : cfg0.N = 20 := N_0
  have ht : t.val < 20 := by have := t.isLt; omega
  refine (pt0_act V c t r j ⟨5000 * t.val + r.val, by omega⟩ rfl).trans ?_
  show arr0_act V c _ j = arr0_act V c (((cfg0.win 7).blk t).view.emb (ix2 r j) 0) (((cfg0.win 7).blk t).view.emb (ix2 r j) 1)
  congr 1 <;> apply Fin.ext
  · show 5000 * t.val + r.val = (cfg0.win 7).index t (0 : Fin 2) * 5000 + 1 * r.val; omega
  · show j.val = (cfg0.win 7).index t (1 : Fin 2) * 128 + 1 * j.val; omega

theorem blk0_pool (c : Dev nD) (t : Fin cfg0.N) :
    (dat0 (F := Ideal) V c).flushed 8 t = ((cfg0.win 8).blk t).view.read (Elt Ideal) (arr0_G8 V c) := by
  show (cfg0.win 8).cut (grid0.coords t) ((dat0 V c).after 8 t) = _
  rw [after0_8]
  funext y
  obtain ⟨u, g, j, rfl⟩ : ∃ (u : Fin 1) (g : Fin 64) (j : Fin 128), y = ix3 u g j := ⟨y 0, y 1, y 2, eq_ix3 y⟩
  obtain rfl : u = 0 := Subsingleton.elim _ _
  obtain ⟨ea, eb, ec⟩ := pt0_idx_pool t
  have hN : cfg0.N = 20 := N_0
  have ht : t.val < 20 := by have := t.isLt; omega
  refine (pt0_pool V c t ⟨t.val, ht⟩ rfl g j).trans ?_
  show arr0_pool V c _ g j = arr0_pool V c (((cfg0.win 8).blk t).view.emb (ix3 0 g j) 0) (((cfg0.win 8).blk t).view.emb (ix3 0 g j) 1) (((cfg0.win 8).blk t).view.emb (ix3 0 g j) 2)
  congr 1 <;> apply Fin.ext
  · show t.val = (cfg0.win 8).index t (0 : Fin 3) * 1 + 1 * 0; omega
  · show g.val = (cfg0.win 8).index t (1 : Fin 3) * 64 + 1 * g.val; omega
  · show j.val = (cfg0.win 8).index t (2 : Fin 3) * 128 + 1 * j.val; omega

/-! ## The blocks cover the arrays -/

theorem cov0_act_mem (t : Fin cfg0.N) (i : S100000x128.Idx) :
    i ∈ ((cfg0.win 7).blk t).view.set ↔ ∀ a : Fin 2, (cfg0.win 7).index t a * S5000x128.size a ≤ (i a).val ∧ (i a).val < (cfg0.win 7).index t a * S5000x128.size a + S5000x128.size a := by
  show i ∈ ((View.whole (Pipeline.arrRef spec0 7)).slice ((cfg0.win 7).rect t)).set ↔ _
  rw [View.set_slice_whole, Rect.mem_set_unit]
  exact Iff.rfl

theorem cov0_pool_mem (t : Fin cfg0.N) (i : S20x64x128.Idx) :
    i ∈ ((cfg0.win 8).blk t).view.set ↔ ∀ a : Fin 3, (cfg0.win 8).index t a * S1x64x128.size a ≤ (i a).val ∧ (i a).val < (cfg0.win 8).index t a * S1x64x128.size a + S1x64x128.size a := by
  show i ∈ ((View.whole (Pipeline.arrRef spec0 8)).slice ((cfg0.win 8).rect t)).set ↔ _
  rw [View.set_slice_whole, Rect.mem_set_unit]
  exact Iff.rfl

/-- Row `n` of the activation array lies in the block of point `n / 5000`. -/
theorem cov0_act (i : S100000x128.Idx) : ∃ t : Fin cfg0.N, (cfg0.win 7).flush t = true ∧ i ∈ ((cfg0.win 7).blk t).view.set := by
  have hia : (i 0).val < 100000 := (i 0).isLt
  have hib : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨ea, eb⟩ := pt0_idx_act t
  refine ⟨t, flush0_7 t, ?_⟩
  rw [cov0_act_mem]
  intro a
  match a with
  | ⟨0, _⟩ => show (cfg0.win 7).index t (0 : Fin 2) * 5000 ≤ (i 0).val ∧ (i 0).val < (cfg0.win 7).index t (0 : Fin 2) * 5000 + 5000; omega
  | ⟨1, _⟩ => show (cfg0.win 7).index t (1 : Fin 2) * 128 ≤ (i 1).val ∧ (i 1).val < (cfg0.win 7).index t (1 : Fin 2) * 128 + 128; omega

/-- Slab `t` of the partial-pool array is the block of point `t`. -/
theorem cov0_pool (i : S20x64x128.Idx) : ∃ t : Fin cfg0.N, (cfg0.win 8).flush t = true ∧ i ∈ ((cfg0.win 8).blk t).view.set := by
  have hia : (i 0).val < 20 := (i 0).isLt
  have hib : (i 1).val < 64 := (i 1).isLt
  have hic : (i 2).val < 128 := (i 2).isLt
  have hN : cfg0.N = 20 := N_0
  obtain ⟨t, ht⟩ : ∃ t : Fin cfg0.N, t.val = (i 0).val := ⟨⟨(i 0).val, by omega⟩, rfl⟩
  obtain ⟨ea, eb, ec⟩ := pt0_idx_pool t
  refine ⟨t, flush0_8 t, ?_⟩
  rw [cov0_pool_mem]
  intro a
  match a with
  | ⟨0, _⟩ => show (cfg0.win 8).index t (0 : Fin 3) * 1 ≤ (i 0).val ∧ (i 0).val < (cfg0.win 8).index t (0 : Fin 3) * 1 + 1; omega
  | ⟨1, _⟩ => show (cfg0.win 8).index t (1 : Fin 3) * 64 ≤ (i 1).val ∧ (i 1).val < (cfg0.win 8).index t (1 : Fin 3) * 64 + 64; omega
  | ⟨2, _⟩ => show (cfg0.win 8).index t (2 : Fin 3) * 128 ≤ (i 2).val ∧ (i 2).val < (cfg0.win 8).index t (2 : Fin 3) * 128 + 128; omega

/-! ## The two output arrays after the region -/

theorem arr0_act_eq (c : Dev nD) : (dat0 (F := Ideal) V c).arrAt 7 cfg0.N = arr0_G7 V c :=
  (dat0 V c).arrAt_eq_of_cover 7 (arr0_G7 V c) (fun t _ => blk0_act V c t) cov0_act

theorem arr0_pool_eq (c : Dev nD) : (dat0 (F := Ideal) V c).arrAt 8 cfg0.N = arr0_G8 V c :=
  (dat0 V c).arrAt_eq_of_cover 8 (arr0_G8 V c) (fun t _ => blk0_pool V c t) cov0_pool

/-- THE ACTIVATION ARRAY after the region: row `n` is the perceptron of rows `n` of the node and aggregate arrays. -/
theorem arr0_7 (c : Dev nD) (n : Fin 100000) (j : Fin 128) : (dat0 (F := Ideal) V c).arrAt 7 cfg0.N (ix2 n j) = Cert.Spec.mlpRow (fun k => arr0_x V c (ix2 n k)) (fun k => arr0_a V c (ix2 n k)) (fun k' k => arr0_wa V c (ix2 k' k)) (fun k => arr0_ba V c (ix2 0 k)) (fun k' k => arr0_wb V c (ix2 k' k)) (fun k => arr0_bb V c (ix2 0 k)) j :=
  congrFun (arr0_act_eq V c) (ix2 n j)

/-- THE PARTIAL-POOL ARRAY after the region: slab `t` is membership times activation summed over node block `t`. -/
theorem arr0_8 (c : Dev nD) (t : Fin 20) (g : Fin 64) (j : Fin 128) : (dat0 (F := Ideal) V c).arrAt 8 cfg0.N (ix3 t g j) = ∑ i : Fin 5000, arr0_m V c (ix2 (Cert.Spec.node t i) g) * (dat0 (F := Ideal) V c).arrAt 7 cfg0.N (ix2 (Cert.Spec.node t i) j) := by
  refine (congrFun (arr0_pool_eq V c) (ix3 t g j)).trans ?_
  show arr0_pool V c t g j = _
  unfold arr0_pool
  refine Finset.sum_congr rfl fun i _ => ?_
  exact congrArg (arr0_m V c (ix2 (Cert.Spec.node t i) g) * ·) (congrFun (arr0_act_eq V c) (ix2 (Cert.Spec.node t i) j)).symm

end Cert.KernelIdeal.Hand

end
-- ==== Proof.SameBody.lean ====
/-
  The three kernel regions run one and the same body: regions 1 and 2 store, into their two output blocks, the same
  functions of their seven input blocks as region 0.  So what region 0's stored blocks are, entry by entry, holds of theirs.
-/
import proofs.«426858_j7756710937226_3_alg».proof.Proof.Region1
import proofs.«426858_j7756710937226_3_alg».proof.Proof.Region2
import proofs.«426858_j7756710937226_3_alg».proof.Proof.PayloadValue

set_option maxRecDepth 16384

noncomputable section

open scoped BigOperators

namespace Cert.KernelIdeal.Hand

open Cert.KernelIdeal Cert.KernelIdeal.Gen Idealize.ShloMosaic Idealize.ShloMosaic.ValueIdx

variable {F : FTy → Type} [FloatOps F]

/-- The two stored values are the same functions of the loaded blocks in every region: regions 1 and 2 pass their first
    block through a cast to its own shape, which is the block. -/
theorem pay1_1 : @k1_pay1 F _ = @k0_pay1 F _ := by
  funext v0 v1 v5 v8 v15 v18
  unfold k1_pay1 k0_pay1
  simp only [shapeCast_self]
theorem pay1_2 : @k2_pay1 F _ = @k0_pay1 F _ := by
  funext v0 v1 v5 v8 v15 v18
  unfold k2_pay1 k0_pay1
  simp only [shapeCast_self]
theorem pay2_1 : @k1_pay2 F _ = @k0_pay2 F _ := by
  funext v0 v1 v5 v8 v15 v18 v25
  unfold k1_pay2 k0_pay2
  simp only [pay1_1, shapeCast_self]
theorem pay2_2 : @k2_pay2 F _ = @k0_pay2 F _ := by
  funext v0 v1 v5 v8 v15 v18 v25
  unfold k2_pay2 k0_pay2
  simp only [pay1_2, shapeCast_self]

/-- Region 1's and region 2's stored blocks are region 0's, as functions of the input blocks. -/
theorem out1_7_eq (x0 x1 : Vec F S5000x128 .f32) (x3 : Vec F S128x128 .bf16) (x4 : Vec F S1x128 .f32) (x5 : Vec F S128x128 .bf16) (x6 : Vec F S1x128 .f32) : out1_7 x0 x1 x3 x4 x5 x6 = out0_7 x0 x1 x3 x4 x5 x6 := by
  unfold out1_7 out0_7; rw [pay1_1]
theorem out2_7_eq (x0 x1 : Vec F S5000x128 .f32) (x3 : Vec F S128x128 .bf16) (x4 : Vec F S1x128 .f32) (x5 : Vec F S128x128 .bf16) (x6 : Vec F S1x128 .f32) : out2_7 x0 x1 x3 x4 x5 x6 = out0_7 x0 x1 x3 x4 x5 x6 := by
  unfold out2_7 out0_7; rw [pay1_2]
theorem out1_8_eq (x0 x1 : Vec F S5000x128 .f32) (x2 : Vec F S5000x64 .bf16) (x3 : Vec F S128x128 .bf16) (x4 : Vec F S1x128 .f32) (x5 : Vec F S128x128 .bf16) (x6 : Vec F S1x128 .f32) : out1_8 x0 x1 x2 x3 x4 x5 x6 = out0_8 x0 x1 x2 x3 x4 x5 x6 := by
  unfold out1_8 out0_8; rw [pay2_1]
theorem out2_8_eq (x0 x1 : Vec F S5000x128 .f32) (x2 : Vec F S5000x64 .bf16) (x3 : Vec F S128x128 .bf16) (x4 : Vec F S1x128 .f32) (x5 : Vec F S128x128 .bf16) (x6 : Vec F S1x128 .f32) : out2_8 x0 x1 x2 x3 x4 x5 x6 = out0_8 x0 x1 x2 x3 x4 x5 x6 := by
  unfold out2_8 out0_8; rw [pay2_2]

theorem out1_7_apply (x0 x1 : Vec Ideal S5000x128 .f32) (x3 : Vec Ideal S128x128 .bf16) (x4 : Vec Ideal S1x128 .f32) (x5 : Vec Ideal S128x128 .bf16) (x6 : Vec Ideal S1x128 .f32) (r : Fin 5000) (j : Fin 128) :
    out1_7 (F := Ideal) x0 x1 x3 x4 x5 x6 (ix2 r j) = Cert.Spec.mlpRow (fun k => x0 (ix2 r k)) (fun k => x1 (ix2 r k)) (fun k' k => x3 (ix2 k' k)) (fun k => x4 (ix2 0 k)) (fun k' k => x5 (ix2 k' k)) (fun k => x6 (ix2 0 k)) j := by
  rw [out1_7_eq]; exact out0_7_apply x0 x1 x3 x4 x5 x6 r j
theorem out2_7_apply (x0 x1 : Vec Ideal S5000x128 .f32) (x3 : Vec Ideal S128x128 .bf16) (x4 : Vec Ideal S1x128 .f32) (x5 : Vec Ideal S128x128 .bf16) (x6 : Vec Ideal S1x128 .f32) (r : Fin 5000) (j : Fin 128) :
    out2_7 (F := Ideal) x0 x1 x3 x4 x5 x6 (ix2 r j) = Cert.Spec.mlpRow (fun k => x0 (ix2 r k)) (fun k => x1 (ix2 r k)) (fun k' k => x3 (ix2 k' k)) (fun k => x4 (ix2 0 k)) (fun k' k => x5 (ix2 k' k)) (fun k => x6 (ix2 0 k)) j := by
  rw [out2_7_eq]; exact out0_7_apply x0 x1 x3 x4 x5 x6 r j
theorem out1_8_apply (x0 x1 : Vec Ideal S5000x128 .f32) (x2 : Vec Ideal S5000x64 .bf16) (x3 : Vec Ideal S128x128 .bf16) (x4 : Vec Ideal S1x128 .f32) (x5 : Vec Ideal S128x128 .bf16) (x6 : Vec Ideal S1x128 .f32) (g : Fin 64) (j : Fin 128) :
    out1_8 (F := Ideal) x0 x1 x2 x3 x4 x5 x6 (ix3 0 g j) = ∑ i : Fin 5000, x2 (ix2 i g) * out1_7 (F := Ideal) x0 x1 x3 x4 x5 x6 (ix2 i j) := by
  rw [out1_8_eq, out1_7_eq]; exact out0_8_apply x0 x1 x2 x3 x4 x5 x6 g j
theorem out2_8_apply (x0 x1 : Vec Ideal S5000x128 .f32) (x2 : Vec Ideal S5000x64 .bf16) (x3 : Vec Ideal S128x128 .bf16) (x4 : Vec Ideal S1x128 .f32) (x5 : Vec Ideal S128x128 .bf16) (x6 : Vec Ideal S1x128 .f32) (g : Fin 64) (j : Fin 128) :
    out2_8 (F := Ideal) x0 x1 x2 x3 x4 x5 x6 (ix3 0 g j) = ∑ i : Fin 5000, x2 (ix2 i g) * out2_7 (F := Ideal) x0 x1 x3 x4 x5 x6 (ix2 i j) := by
  rw [out2_8_eq, out2_7_eq]; exact out0_8_apply x0 x1 x2 x3 x4 x5 x6 g j

end Cert.KernelIdeal.Hand

end
-- ==== Proof.ArrayValue1.lean ====
/-
  Region 0's two output arrays after the region, as functions of the arrays the region reads, over the extended reals.

  The 100000 nodes are cut into 20 blocks of 5000; grid point `t` reads rows `5000 t …` of the node-feature, aggregate
  and membership arrays and the whole of the two weight arrays and two bias rows, and writes rows `5000 t …` of the
  activation array and slab `t` of the partial-pool array.  Row `n` of the activation array ends as the two-layer
  perceptron of rows `n` of the two node arrays; entry `(t, g, j)` of the partial-pool array ends as the sum over the
  nodes of block `t` of membership in graph `g` times the activation at column `j`.  Each point's stored block is its
  block of one function of the array index, the blocks cover the arrays, so the arrays end holding those functions.
-/
import proofs.«426858_j7756710937226_3_alg».proof.Proof.SameBody
import proofs.«426858_j7756710937226_3_alg».proof.Proof.Spec
import Idealize.ShloMosaic.Lib.Pipeline.Value
import Idealize.ShloMosaic.Lib.Pipeline.FrameBody
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The arrays the region reads, at their literal types -/

/-- The node-feature array as the region finds it. -/
abbrev arr1_x (c : Dev nD) : FVec Ideal S100000x128 .f32 := V c (Pipeline.arrRef spec1 0)
/-- The aggregate array. -/
abbrev arr1_a (c : Dev nD) : FVec Ideal S100000x128 .f32 := V c (Pipeline.arrRef spec1 1)
/-- The membership array. -/
abbrev arr1_m (c : Dev nD) : FVec Ideal S100000x64 .bf16 := V c (Pipeline.arrRef spec1 2)
/-- The first layer's weights and bias row, the second layer's weights and bias row. -/
abbrev arr1_wa (c : Dev nD) : FVec Ideal S128x128 .bf16 := V c (Pipeline.arrRef spec1 3)
abbrev arr1_ba (c : Dev nD) : FVec Ideal S1x128 .f32 := V c (Pipeline.arrRef spec1 4)
abbrev arr1_wb (c : Dev nD) : FVec Ideal S128x128 .bf16 := V c (Pipeline.arrRef spec1 5)
abbrev arr1_bb (c : Dev nD) : FVec Ideal S1x128 .f32 := V c (Pipeline.arrRef spec1 6)

/-- The activation of node `n` at column `j`: the perceptron of that node's rows of the two node arrays. -/
def arr1_act (c : Dev nD) (n : Fin 100000) (j : Fin 128) : EReal :=
  Cert.Spec.mlpRow (fun k => arr1_x V c (ix2 n k)) (fun k => arr1_a V c (ix2 n k)) (fun k' k => arr1_wa V c (ix2 k' k))
    (fun k => arr1_ba V c (ix2 0 k)) (fun k' k => arr1_wb V c (ix2 k' k)) (fun k => arr1_bb V c (ix2 0 k)) j

/-- The partial pool of node block `t` at graph `g`, column `j`: membership times activation, summed over the block's nodes. -/
def arr1_pool (c : Dev nD) (t : Fin 20) (g : Fin 64) (j : Fin 128) : EReal :=
  ∑ i : Fin 5000, arr1_m V c (ix2 (Cert.Spec.node t i) g) * arr1_act V c (Cert.Spec.node t i) j

/-- The activation array as one function of its index. -/
abbrev arr1_G7 (c : Dev nD) : FVec Ideal S100000x128 .f32 := fun i => arr1_act V c (i 0) (i 1)
/-- The partial-pool array as one function of its index. -/
abbrev arr1_G8 (c : Dev nD) : FVec Ideal S20x64x128 .f32 := fun i => arr1_pool V c (i 0) (i 1) (i 2)

/-! ## The block index of every window at every grid point -/

theorem pt1_idx_x : ∀ t : Fin cfg1.N, (cfg1.win 0).index t (0 : Fin 2) = t.val ∧ (cfg1.win 0).index t (1 : Fin 2) = 0 :=
  (by decide +kernel : ∀ t : Fin grid1.N, _)
theorem pt1_idx_a : ∀ t : Fin cfg1.N, (cfg1.win 1).index t (0 : Fin 2) = t.val ∧ (cfg1.win 1).index t (1 : Fin 2) = 0 :=
  (by decide +kernel : ∀ t : Fin grid1.N, _)
theorem pt1_idx_m : ∀ t : Fin cfg1.N, (cfg1.win 2).index t (0 : Fin 2) = t.val ∧ (cfg1.win 2).index t (1 : Fin 2) = 0 :=
  (by decide +kernel : ∀ t : Fin grid1.N, _)
theorem pt1_idx_wa : ∀ t : Fin cfg1.N, (cfg1.win 3).index t (0 : Fin 2) = 0 ∧ (cfg1.win 3).index t (1 : Fin 2) = 0 :=
  (by decide +kernel : ∀ t : Fin grid1.N, _)
theorem pt1_idx_ba : ∀ t : Fin cfg1.N, (cfg1.win 4).index t (0 : Fin 2) = 0 ∧ (cfg1.win 4).index t (1 : Fin 2) = 0 :=
  (by decide +kernel : ∀ t : Fin grid1.N, _)
theorem pt1_idx_wb : ∀ t : Fin cfg1.N, (cfg1.win 5).index t (0 : Fin 2) = 0 ∧ (cfg1.win 5).index t (1 : Fin 2) = 0 :=
  (by decide +kernel : ∀ t : Fin grid1.N, _)
theorem pt1_idx_bb : ∀ t : Fin cfg1.N, (cfg1.win 6).index t (0 : Fin 2) = 0 ∧ (cfg1.win 6).index t (1 : Fin 2) = 0 :=
  (by decide +kernel : ∀ t : Fin grid1.N, _)
theorem pt1_idx_act : ∀ t : Fin cfg1.N, (cfg1.win 7).index t (0 : Fin 2) = t.val ∧ (cfg1.win 7).index t (1 : Fin 2) = 0 :=
  (by decide +kernel : ∀ t : Fin grid1.N, _)
theorem pt1_idx_pool : ∀ t : Fin cfg1.N, (cfg1.win 8).index t (0 : Fin 3) = t.val ∧ (cfg1.win 8).index t (1 : Fin 3) = 0
    ∧ (cfg1.win 8).index t (2 : Fin 3) = 0 :=
  (by decide +kernel : ∀ t : Fin grid1.N, _)

/-! ## Each input block is the array read where the block lies -/

theorem blk1_x (c : Dev nD) (t : Fin cfg1.N) (r : Fin 5000) (k : Fin 128) (n : Fin 100000) (hn : n.val = 5000 * t.val + r.val) :
    (iblk1 V c 0 t : Vec Ideal S5000x128 .f32) (ix2 r k) = arr1_x V c (ix2 n k) := by
  obtain ⟨ea, eb⟩ := pt1_idx_x t
  unfold iblk1
  rw [View.read_apply]
  show V c (Pipeline.arrRef spec1 0) _ = V c (Pipeline.arrRef spec1 0) _
  congr 1
  funext a
  apply Fin.ext
  match a with
  | ⟨0, _⟩ => show (cfg1.win 0).index t (0 : Fin 2) * 5000 + 1 * r.val = n.val; omega
  | ⟨1, _⟩ => show (cfg1.win 0).index t (1 : Fin 2) * 128 + 1 * k.val = k.val; omega

theorem blk1_a (c : Dev nD) (t : Fin cfg1.N) (r : Fin 5000) (k : Fin 128) (n : Fin 100000) (hn : n.val = 5000 * t.val + r.val) :
    (iblk1 V c 1 t : Vec Ideal S5000x128 .f32) (ix2 r k) = arr1_a V c (ix2 n k) := by
  obtain ⟨ea, eb⟩ := pt1_idx_a t
  unfold iblk1
  rw [View.read_apply]
  show V c (Pipeline.arrRef spec1 1) _ = V c (Pipeline.arrRef spec1 1) _
  congr 1
  funext a
  apply Fin.ext
  match a with
  | ⟨0, _⟩ => show (cfg1.win 1).index t (0 : Fin 2) * 5000 + 1 * r.val = n.val; omega
  | ⟨1, _⟩ => show (cfg1.win 1).index t (1 : Fin 2) * 128 + 1 * k.val = k.val; omega

theorem blk1_m (c : Dev nD) (t : Fin cfg1.N) (r : Fin 5000) (g : Fin 64) (n : Fin 100000) (hn : n.val = 5000 * t.val + r.val) :
    (iblk1 V c 2 t : Vec Ideal S5000x64 .bf16) (ix2 r g) = arr1_m V c (ix2 n g) := by
  obtain ⟨ea, eb⟩ := pt1_idx_m t
  unfold iblk1
  rw [View.read_apply]
  show V c (Pipeline.arrRef spec1 2) _ = V c (Pipeline.arrRef spec1 2) _
  congr 1
  funext a
  apply Fin.ext
  match a with
  | ⟨0, _⟩ => show (cfg1.win 2).index t (0 : Fin 2) * 5000 + 1 * r.val = n.val; omega
  | ⟨1, _⟩ => show (cfg1.win 2).index t (1 : Fin 2) * 64 + 1 * g.val = g.val; omega

theorem blk1_wa (c : Dev nD) (t : Fin cfg1.N) (k' k : Fin 128) :
    (iblk1 V c 3 t : Vec Ideal S128x128 .bf16) (ix2 k' k) = arr1_wa V c (ix2 k' k) := by
  obtain ⟨ea, eb⟩ := pt1_idx_wa t
  unfold iblk1
  rw [View.read_apply]
  show V c (Pipeline.arrRef spec1 3) _ = V c (Pipeline.arrRef spec1 3) _
  congr 1
  funext a
  apply Fin.ext
  match a with
  | ⟨0, _⟩ => show (cfg1.win 3).index t (0 : Fin 2) * 128 + 1 * k'.val = k'.val; omega
  | ⟨1, _⟩ => show (cfg1.win 3).index t (1 : Fin 2) * 128 + 1 * k.val = k.val; omega

theorem blk1_ba (c : Dev nD) (t : Fin cfg1.N) (u : Fin 1) (k : Fin 128) :
    (iblk1 V c 4 t : Vec Ideal S1x128 .f32) (ix2 u k) = arr1_ba V c (ix2 u k) := by
  obtain ⟨ea, eb⟩ := pt1_idx_ba t
  unfold iblk1
  rw [View.read_apply]
  show V c (Pipeline.arrRef spec1 4) _ = V c (Pipeline.arrRef spec1 4) _
  congr 1
  funext a
  apply Fin.ext
  match a with
  | ⟨0, _⟩ => show (cfg1.win 4).index t (0 : Fin 2) * 1 + 1 * u.val = u.val; omega
  | ⟨1, _⟩ => show (cfg1.win 4).index t (1 : Fin 2) * 128 + 1 * k.val = k.val; omega

theorem blk1_wb (c : Dev nD) (t : Fin cfg1.N) (k' k : Fin 128) :
    (iblk1 V c 5 t : Vec Ideal S128x128 .bf16) (ix2 k' k) = arr1_wb V c (ix2 k' k) := by
  obtain ⟨ea, eb⟩ := pt1_idx_wb t
  unfold iblk1
  rw [View.read_apply]
  show V c (Pipeline.arrRef spec1 5) _ = V c (Pipeline.arrRef spec1 5) _
  congr 1
  funext a
  apply Fin.ext
  match a with
  | ⟨0, _⟩ => show (cfg1.win 5).index t (0 : Fin 2) * 128 + 1 * k'.val = k'.val; omega
  | ⟨1, _⟩ => show (cfg1.win 5).index t (1 : Fin 2) * 128 + 1 * k.val = k.val; omega

theorem blk1_bb (c : Dev nD) (t : Fin cfg1.N) (u : Fin 1) (k : Fin 128) :
    (iblk1 V c 6 t : Vec Ideal S1x128 .f32) (ix2 u k) = arr1_bb V c (ix2 u k) := by
  obtain ⟨ea, eb⟩ := pt1_idx_bb t
  unfold iblk1
  rw [View.read_apply]
  show V c (Pipeline.arrRef spec1 6) _ = V c (Pipeline.arrRef spec1 6) _
  congr 1
  funext a
  apply Fin.ext
  match a with
  | ⟨0, _⟩ => show (cfg1.win 6).index t (0 : Fin 2) * 1 + 1 * u.val = u.val; omega
  | ⟨1, _⟩ => show (cfg1.win 6).index t (1 : Fin 2) * 128 + 1 * k.val = k.val; omega

/-! ## What one grid point computes, on the arrays -/

/-- Row `r` of the activation block at point `t` is the activation of node `5000 t + r`. -/
theorem pt1_act (c : Dev nD) (t : Fin cfg1.N) (r : Fin 5000) (j : Fin 128) (n : Fin 100000) (hn : n.val = 5000 * t.val + r.val) :
    out1_7 (F := Ideal) (iblk1 V c 0 t) (iblk1 V c 1 t) (iblk1 V c 3 t) (iblk1 V c 4 t) (iblk1 V c 5 t) (iblk1 V c 6 t) (ix2 r j)
      = arr1_act V c n j := by
  refine (out1_7_apply _ _ _ _ _ _ r j).trans ?_
  unfold arr1_act
  have hx : (fun k => (iblk1 V c 0 t : Vec Ideal S5000x128 .f32) (ix2 r k)) = fun k => arr1_x V c (ix2 n k) :=
    funext fun k => blk1_x V c t r k n hn
  have ha : (fun k => (iblk1 V c 1 t : Vec Ideal S5000x128 .f32) (ix2 r k)) = fun k => arr1_a V c (ix2 n k) :=
    funext fun k => blk1_a V c t r k n hn
  have hwa : (fun k' k => (iblk1 V c 3 t : Vec Ideal S128x128 .bf16) (ix2 k' k)) = fun k' k => arr1_wa V c (ix2 k' k) :=
    funext fun k' => funext fun k => blk1_wa V c t k' k
  have hba : (fun k => (iblk1 V c 4 t : Vec Ideal S1x128 .f32) (ix2 0 k)) = fun k => arr1_ba V c (ix2 0 k) :=
    funext fun k => blk1_ba V c t 0 k
  have hwb : (fun k' k => (iblk1 V c 5 t : Vec Ideal S128x128 .bf16) (ix2 k' k)) = fun k' k => arr1_wb V c (ix2 k' k) :=
    funext fun k' => funext fun k => blk1_wb V c t k' k
  have hbb : (fun k => (iblk1 V c 6 t : Vec Ideal S1x128 .f32) (ix2 0 k)) = fun k => arr1_bb V c (ix2 0 k) :=
    funext fun k => blk1_bb V c t 0 k
  rw [hx, ha, hwa, hba, hwb, hbb]

/-- The pool block at point `t` is the partial pool of node block `t`. -/
theorem pt1_pool (c : Dev nD) (t : Fin cfg1.N) (t' : Fin 20) (ht : t'.val = t.val) (g : Fin 64) (j : Fin 128) :
    out1_8 (F := Ideal) (iblk1 V c 0 t) (iblk1 V c 1 t) (iblk1 V c 2 t) (iblk1 V c 3 t) (iblk1 V c 4 t) (iblk1 V c 5 t) (iblk1 V c 6 t) (ix3 0 g j)
      = arr1_pool V c t' g j := by
  refine (out1_8_apply _ _ _ _ _ _ _ g j).trans ?_
  unfold arr1_pool
  refine Finset.sum_congr rfl fun i _ => ?_
  have hn : (Cert.Spec.node t' i).val = 5000 * t.val + i.val := by
    show 5000 * t'.val + i.val = 5000 * t.val + i.val
    rw [ht]
  exact congrArg₂ (· * ·) (blk1_m V c t i g _ hn) (pt1_act V c t i j _ hn)

/-! ## What each point writes back is its block of the whole-array function -/

theorem blk1_act (c : Dev nD) (t : Fin cfg1.N) :
    (dat1 (F := Ideal) V c).flushed 7 t = ((cfg1.win 7).blk t).view.read (Elt Ideal) (arr1_G7 V c) := by
  show (cfg1.win 7).cut (grid1.coords t) ((dat1 V c).after 7 t) = _
  rw [after1_7]
  funext y
  obtain ⟨r, j, rfl⟩ : ∃ (r : Fin 5000) (j : Fin 128), y = ix2 r j := ⟨y 0, y 1, eq_ix2 y⟩
  obtain ⟨ea, eb⟩ := pt1_idx_act t
  have hN : cfg1.N = 20 := N_1
  have ht : t.val < 20 := by have := t.isLt; omega
  refine (pt1_act V c t r j ⟨5000 * t.val + r.val, by omega⟩ rfl).trans ?_
  show arr1_act V c _ j = arr1_act V c (((cfg1.win 7).blk t).view.emb (ix2 r j) 0) (((cfg1.win 7).blk t).view.emb (ix2 r j) 1)
  congr 1 <;> apply Fin.ext
  · show 5000 * t.val + r.val = (cfg1.win 7).index t (0 : Fin 2) * 5000 + 1 * r.val; omega
  · show j.val = (cfg1.win 7).index t (1 : Fin 2) * 128 + 1 * j.val; omega

theorem blk1_pool (c : Dev nD) (t : Fin cfg1.N) :
    (dat1 (F := Ideal) V c).flushed 8 t = ((cfg1.win 8).blk t).view.read (Elt Ideal) (arr1_G8 V c) := by
  show (cfg1.win 8).cut (grid1.coords t) ((dat1 V c).after 8 t) = _
  rw [after1_8]
  funext y
  obtain ⟨u, g, j, rfl⟩ : ∃ (u : Fin 1) (g : Fin 64) (j : Fin 128), y = ix3 u g j := ⟨y 0, y 1, y 2, eq_ix3 y⟩
  obtain rfl : u = 0 := Subsingleton.elim _ _
  obtain ⟨ea, eb, ec⟩ := pt1_idx_pool t
  have hN : cfg1.N = 20 := N_1
  have ht : t.val < 20 := by have := t.isLt; omega
  refine (pt1_pool V c t ⟨t.val, ht⟩ rfl g j).trans ?_
  show arr1_pool V c _ g j = arr1_pool V c (((cfg1.win 8).blk t).view.emb (ix3 0 g j) 0) (((cfg1.win 8).blk t).view.emb (ix3 0 g j) 1) (((cfg1.win 8).blk t).view.emb (ix3 0 g j) 2)
  congr 1 <;> apply Fin.ext
  · show t.val = (cfg1.win 8).index t (0 : Fin 3) * 1 + 1 * 0; omega
  · show g.val = (cfg1.win 8).index t (1 : Fin 3) * 64 + 1 * g.val; omega
  · show j.val = (cfg1.win 8).index t (2 : Fin 3) * 128 + 1 * j.val; omega

/-! ## The blocks cover the arrays -/

theorem cov1_act_mem (t : Fin cfg1.N) (i : S100000x128.Idx) :
    i ∈ ((cfg1.win 7).blk t).view.set ↔ ∀ a : Fin 2, (cfg1.win 7).index t a * S5000x128.size a ≤ (i a).val ∧ (i a).val < (cfg1.win 7).index t a * S5000x128.size a + S5000x128.size a := by
  show i ∈ ((View.whole (Pipeline.arrRef spec1 7)).slice ((cfg1.win 7).rect t)).set ↔ _
  rw [View.set_slice_whole, Rect.mem_set_unit]
  exact Iff.rfl

theorem cov1_pool_mem (t : Fin cfg1.N) (i : S20x64x128.Idx) :
    i ∈ ((cfg1.win 8).blk t).view.set ↔ ∀ a : Fin 3, (cfg1.win 8).index t a * S1x64x128.size a ≤ (i a).val ∧ (i a).val < (cfg1.win 8).index t a * S1x64x128.size a + S1x64x128.size a := by
  show i ∈ ((View.whole (Pipeline.arrRef spec1 8)).slice ((cfg1.win 8).rect t)).set ↔ _
  rw [View.set_slice_whole, Rect.mem_set_unit]
  exact Iff.rfl

/-- Row `n` of the activation array lies in the block of point `n / 5000`. -/
theorem cov1_act (i : S100000x128.Idx) : ∃ t : Fin cfg1.N, (cfg1.win 7).flush t = true ∧ i ∈ ((cfg1.win 7).blk t).view.set := by
  have hia : (i 0).val < 100000 := (i 0).isLt
  have hib : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨ea, eb⟩ := pt1_idx_act t
  refine ⟨t, flush1_7 t, ?_⟩
  rw [cov1_act_mem]
  intro a
  match a with
  | ⟨0, _⟩ => show (cfg1.win 7).index t (0 : Fin 2) * 5000 ≤ (i 0).val ∧ (i 0).val < (cfg1.win 7).index t (0 : Fin 2) * 5000 + 5000; omega
  | ⟨1, _⟩ => show (cfg1.win 7).index t (1 : Fin 2) * 128 ≤ (i 1).val ∧ (i 1).val < (cfg1.win 7).index t (1 : Fin 2) * 128 + 128; omega

/-- Slab `t` of the partial-pool array is the block of point `t`. -/
theorem cov1_pool (i : S20x64x128.Idx) : ∃ t : Fin cfg1.N, (cfg1.win 8).flush t = true ∧ i ∈ ((cfg1.win 8).blk t).view.set := by
  have hia : (i 0).val < 20 := (i 0).isLt
  have hib : (i 1).val < 64 := (i 1).isLt
  have hic : (i 2).val < 128 := (i 2).isLt
  have hN : cfg1.N = 20 := N_1
  obtain ⟨t, ht⟩ : ∃ t : Fin cfg1.N, t.val = (i 0).val := ⟨⟨(i 0).val, by omega⟩, rfl⟩
  obtain ⟨ea, eb, ec⟩ := pt1_idx_pool t
  refine ⟨t, flush1_8 t, ?_⟩
  rw [cov1_pool_mem]
  intro a
  match a with
  | ⟨0, _⟩ => show (cfg1.win 8).index t (0 : Fin 3) * 1 ≤ (i 0).val ∧ (i 0).val < (cfg1.win 8).index t (0 : Fin 3) * 1 + 1; omega
  | ⟨1, _⟩ => show (cfg1.win 8).index t (1 : Fin 3) * 64 ≤ (i 1).val ∧ (i 1).val < (cfg1.win 8).index t (1 : Fin 3) * 64 + 64; omega
  | ⟨2, _⟩ => show (cfg1.win 8).index t (2 : Fin 3) * 128 ≤ (i 2).val ∧ (i 2).val < (cfg1.win 8).index t (2 : Fin 3) * 128 + 128; omega

/-! ## The two output arrays after the region -/

theorem arr1_act_eq (c : Dev nD) : (dat1 (F := Ideal) V c).arrAt 7 cfg1.N = arr1_G7 V c :=
  (dat1 V c).arrAt_eq_of_cover 7 (arr1_G7 V c) (fun t _ => blk1_act V c t) cov1_act

theorem arr1_pool_eq (c : Dev nD) : (dat1 (F := Ideal) V c).arrAt 8 cfg1.N = arr1_G8 V c :=
  (dat1 V c).arrAt_eq_of_cover 8 (arr1_G8 V c) (fun t _ => blk1_pool V c t) cov1_pool

/-- THE ACTIVATION ARRAY after the region: row `n` is the perceptron of rows `n` of the node and aggregate arrays. -/
theorem arr1_7 (c : Dev nD) (n : Fin 100000) (j : Fin 128) : (dat1 (F := Ideal) V c).arrAt 7 cfg1.N (ix2 n j) = Cert.Spec.mlpRow (fun k => arr1_x V c (ix2 n k)) (fun k => arr1_a V c (ix2 n k)) (fun k' k => arr1_wa V c (ix2 k' k)) (fun k => arr1_ba V c (ix2 0 k)) (fun k' k => arr1_wb V c (ix2 k' k)) (fun k => arr1_bb V c (ix2 0 k)) j :=
  congrFun (arr1_act_eq V c) (ix2 n j)

/-- THE PARTIAL-POOL ARRAY after the region: slab `t` is membership times activation summed over node block `t`. -/
theorem arr1_8 (c : Dev nD) (t : Fin 20) (g : Fin 64) (j : Fin 128) : (dat1 (F := Ideal) V c).arrAt 8 cfg1.N (ix3 t g j) = ∑ i : Fin 5000, arr1_m V c (ix2 (Cert.Spec.node t i) g) * (dat1 (F := Ideal) V c).arrAt 7 cfg1.N (ix2 (Cert.Spec.node t i) j) := by
  refine (congrFun (arr1_pool_eq V c) (ix3 t g j)).trans ?_
  show arr1_pool V c t g j = _
  unfold arr1_pool
  refine Finset.sum_congr rfl fun i _ => ?_
  exact congrArg (arr1_m V c (ix2 (Cert.Spec.node t i) g) * ·) (congrFun (arr1_act_eq V c) (ix2 (Cert.Spec.node t i) j)).symm

end Cert.KernelIdeal.Hand

end
-- ==== Proof.ArrayValue2.lean ====
/-
  Region 0's two output arrays after the region, as functions of the arrays the region reads, over the extended reals.

  The 100000 nodes are cut into 20 blocks of 5000; grid point `t` reads rows `5000 t …` of the node-feature, aggregate
  and membership arrays and the whole of the two weight arrays and two bias rows, and writes rows `5000 t …` of the
  activation array and slab `t` of the partial-pool array.  Row `n` of the activation array ends as the two-layer
  perceptron of rows `n` of the two node arrays; entry `(t, g, j)` of the partial-pool array ends as the sum over the
  nodes of block `t` of membership in graph `g` times the activation at column `j`.  Each point's stored block is its
  block of one function of the array index, the blocks cover the arrays, so the arrays end holding those functions.
-/
import proofs.«426858_j7756710937226_3_alg».proof.Proof.SameBody
import proofs.«426858_j7756710937226_3_alg».proof.Proof.Spec
import Idealize.ShloMosaic.Lib.Pipeline.Value
import Idealize.ShloMosaic.Lib.Pipeline.FrameBody
import Idealize.ShloMosaic.Lib.ValueIdx

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The arrays the region reads, at their literal types -/

/-- The node-feature array as the region finds it. -/
abbrev arr2_x (c : Dev nD) : FVec Ideal S100000x128 .f32 := V c (Pipeline.arrRef spec2 0)
/-- The aggregate array. -/
abbrev arr2_a (c : Dev nD) : FVec Ideal S100000x128 .f32 := V c (Pipeline.arrRef spec2 1)
/-- The membership array. -/
abbrev arr2_m (c : Dev nD) : FVec Ideal S100000x64 .bf16 := V c (Pipeline.arrRef spec2 2)
/-- The first layer's weights and bias row, the second layer's weights and bias row. -/
abbrev arr2_wa (c : Dev nD) : FVec Ideal S128x128 .bf16 := V c (Pipeline.arrRef spec2 3)
abbrev arr2_ba (c : Dev nD) : FVec Ideal S1x128 .f32 := V c (Pipeline.arrRef spec2 4)
abbrev arr2_wb (c : Dev nD) : FVec Ideal S128x128 .bf16 := V c (Pipeline.arrRef spec2 5)
abbrev arr2_bb (c : Dev nD) : FVec Ideal S1x128 .f32 := V c (Pipeline.arrRef spec2 6)

/-- The activation of node `n` at column `j`: the perceptron of that node's rows of the two node arrays. -/
def arr2_act (c : Dev nD) (n : Fin 100000) (j : Fin 128) : EReal :=
  Cert.Spec.mlpRow (fun k => arr2_x V c (ix2 n k)) (fun k => arr2_a V c (ix2 n k)) (fun k' k => arr2_wa V c (ix2 k' k))
    (fun k => arr2_ba V c (ix2 0 k)) (fun k' k => arr2_wb V c (ix2 k' k)) (fun k => arr2_bb V c (ix2 0 k)) j

/-- The partial pool of node block `t` at graph `g`, column `j`: membership times activation, summed over the block's nodes. -/
def arr2_pool (c : Dev nD) (t : Fin 20) (g : Fin 64) (j : Fin 128) : EReal :=
  ∑ i : Fin 5000, arr2_m V c (ix2 (Cert.Spec.node t i) g) * arr2_act V c (Cert.Spec.node t i) j

/-- The activation array as one function of its index. -/
abbrev arr2_G7 (c : Dev nD) : FVec Ideal S100000x128 .f32 := fun i => arr2_act V c (i 0) (i 1)
/-- The partial-pool array as one function of its index. -/
abbrev arr2_G8 (c : Dev nD) : FVec Ideal S20x64x128 .f32 := fun i => arr2_pool V c (i 0) (i 1) (i 2)

/-! ## The block index of every window at every grid point -/

theorem pt2_idx_x : ∀ t : Fin cfg2.N, (cfg2.win 0).index t (0 : Fin 2) = t.val ∧ (cfg2.win 0).index t (1 : Fin 2) = 0 :=
  (by decide +kernel : ∀ t : Fin grid2.N, _)
theorem pt2_idx_a : ∀ t : Fin cfg2.N, (cfg2.win 1).index t (0 : Fin 2) = t.val ∧ (cfg2.win 1).index t (1 : Fin 2) = 0 :=
  (by decide +kernel : ∀ t : Fin grid2.N, _)
theorem pt2_idx_m : ∀ t : Fin cfg2.N, (cfg2.win 2).index t (0 : Fin 2) = t.val ∧ (cfg2.win 2).index t (1 : Fin 2) = 0 :=
  (by decide +kernel : ∀ t : Fin grid2.N, _)
theorem pt2_idx_wa : ∀ t : Fin cfg2.N, (cfg2.win 3).index t (0 : Fin 2) = 0 ∧ (cfg2.win 3).index t (1 : Fin 2) = 0 :=
  (by decide +kernel : ∀ t : Fin grid2.N, _)
theorem pt2_idx_ba : ∀ t : Fin cfg2.N, (cfg2.win 4).index t (0 : Fin 2) = 0 ∧ (cfg2.win 4).index t (1 : Fin 2) = 0 :=
  (by decide +kernel : ∀ t : Fin grid2.N, _)
theorem pt2_idx_wb : ∀ t : Fin cfg2.N, (cfg2.win 5).index t (0 : Fin 2) = 0 ∧ (cfg2.win 5).index t (1 : Fin 2) = 0 :=
  (by decide +kernel : ∀ t : Fin grid2.N, _)
theorem pt2_idx_bb : ∀ t : Fin cfg2.N, (cfg2.win 6).index t (0 : Fin 2) = 0 ∧ (cfg2.win 6).index t (1 : Fin 2) = 0 :=
  (by decide +kernel : ∀ t : Fin grid2.N, _)
theorem pt2_idx_act : ∀ t : Fin cfg2.N, (cfg2.win 7).index t (0 : Fin 2) = t.val ∧ (cfg2.win 7).index t (1 : Fin 2) = 0 :=
  (by decide +kernel : ∀ t : Fin grid2.N, _)
theorem pt2_idx_pool : ∀ t : Fin cfg2.N, (cfg2.win 8).index t (0 : Fin 3) = t.val ∧ (cfg2.win 8).index t (1 : Fin 3) = 0
    ∧ (cfg2.win 8).index t (2 : Fin 3) = 0 :=
  (by decide +kernel : ∀ t : Fin grid2.N, _)

/-! ## Each input block is the array read where the block lies -/

theorem blk2_x (c : Dev nD) (t : Fin cfg2.N) (r : Fin 5000) (k : Fin 128) (n : Fin 100000) (hn : n.val = 5000 * t.val + r.val) :
    (iblk2 V c 0 t : Vec Ideal S5000x128 .f32) (ix2 r k) = arr2_x V c (ix2 n k) := by
  obtain ⟨ea, eb⟩ := pt2_idx_x t
  unfold iblk2
  rw [View.read_apply]
  show V c (Pipeline.arrRef spec2 0) _ = V c (Pipeline.arrRef spec2 0) _
  congr 1
  funext a
  apply Fin.ext
  match a with
  | ⟨0, _⟩ => show (cfg2.win 0).index t (0 : Fin 2) * 5000 + 1 * r.val = n.val; omega
  | ⟨1, _⟩ => show (cfg2.win 0).index t (1 : Fin 2) * 128 + 1 * k.val = k.val; omega

theorem blk2_a (c : Dev nD) (t : Fin cfg2.N) (r : Fin 5000) (k : Fin 128) (n : Fin 100000) (hn : n.val = 5000 * t.val + r.val) :
    (iblk2 V c 1 t : Vec Ideal S5000x128 .f32) (ix2 r k) = arr2_a V c (ix2 n k) := by
  obtain ⟨ea, eb⟩ := pt2_idx_a t
  unfold iblk2
  rw [View.read_apply]
  show V c (Pipeline.arrRef spec2 1) _ = V c (Pipeline.arrRef spec2 1) _
  congr 1
  funext a
  apply Fin.ext
  match a with
  | ⟨0, _⟩ => show (cfg2.win 1).index t (0 : Fin 2) * 5000 + 1 * r.val = n.val; omega
  | ⟨1, _⟩ => show (cfg2.win 1).index t (1 : Fin 2) * 128 + 1 * k.val = k.val; omega

theorem blk2_m (c : Dev nD) (t : Fin cfg2.N) (r : Fin 5000) (g : Fin 64) (n : Fin 100000) (hn : n.val = 5000 * t.val + r.val) :
    (iblk2 V c 2 t : Vec Ideal S5000x64 .bf16) (ix2 r g) = arr2_m V c (ix2 n g) := by
  obtain ⟨ea, eb⟩ := pt2_idx_m t
  unfold iblk2
  rw [View.read_apply]
  show V c (Pipeline.arrRef spec2 2) _ = V c (Pipeline.arrRef spec2 2) _
  congr 1
  funext a
  apply Fin.ext
  match a with
  | ⟨0, _⟩ => show (cfg2.win 2).index t (0 : Fin 2) * 5000 + 1 * r.val = n.val; omega
  | ⟨1, _⟩ => show (cfg2.win 2).index t (1 : Fin 2) * 64 + 1 * g.val = g.val; omega

theorem blk2_wa (c : Dev nD) (t : Fin cfg2.N) (k' k : Fin 128) :
    (iblk2 V c 3 t : Vec Ideal S128x128 .bf16) (ix2 k' k) = arr2_wa V c (ix2 k' k) := by
  obtain ⟨ea, eb⟩ := pt2_idx_wa t
  unfold iblk2
  rw [View.read_apply]
  show V c (Pipeline.arrRef spec2 3) _ = V c (Pipeline.arrRef spec2 3) _
  congr 1
  funext a
  apply Fin.ext
  match a with
  | ⟨0, _⟩ => show (cfg2.win 3).index t (0 : Fin 2) * 128 + 1 * k'.val = k'.val; omega
  | ⟨1, _⟩ => show (cfg2.win 3).index t (1 : Fin 2) * 128 + 1 * k.val = k.val; omega

theorem blk2_ba (c : Dev nD) (t : Fin cfg2.N) (u : Fin 1) (k : Fin 128) :
    (iblk2 V c 4 t : Vec Ideal S1x128 .f32) (ix2 u k) = arr2_ba V c (ix2 u k) := by
  obtain ⟨ea, eb⟩ := pt2_idx_ba t
  unfold iblk2
  rw [View.read_apply]
  show V c (Pipeline.arrRef spec2 4) _ = V c (Pipeline.arrRef spec2 4) _
  congr 1
  funext a
  apply Fin.ext
  match a with
  | ⟨0, _⟩ => show (cfg2.win 4).index t (0 : Fin 2) * 1 + 1 * u.val = u.val; omega
  | ⟨1, _⟩ => show (cfg2.win 4).index t (1 : Fin 2) * 128 + 1 * k.val = k.val; omega

theorem blk2_wb (c : Dev nD) (t : Fin cfg2.N) (k' k : Fin 128) :
    (iblk2 V c 5 t : Vec Ideal S128x128 .bf16) (ix2 k' k) = arr2_wb V c (ix2 k' k) := by
  obtain ⟨ea, eb⟩ := pt2_idx_wb t
  unfold iblk2
  rw [View.read_apply]
  show V c (Pipeline.arrRef spec2 5) _ = V c (Pipeline.arrRef spec2 5) _
  congr 1
  funext a
  apply Fin.ext
  match a with
  | ⟨0, _⟩ => show (cfg2.win 5).index t (0 : Fin 2) * 128 + 1 * k'.val = k'.val; omega
  | ⟨1, _⟩ => show (cfg2.win 5).index t (1 : Fin 2) * 128 + 1 * k.val = k.val; omega

theorem blk2_bb (c : Dev nD) (t : Fin cfg2.N) (u : Fin 1) (k : Fin 128) :
    (iblk2 V c 6 t : Vec Ideal S1x128 .f32) (ix2 u k) = arr2_bb V c (ix2 u k) := by
  obtain ⟨ea, eb⟩ := pt2_idx_bb t
  unfold iblk2
  rw [View.read_apply]
  show V c (Pipeline.arrRef spec2 6) _ = V c (Pipeline.arrRef spec2 6) _
  congr 1
  funext a
  apply Fin.ext
  match a with
  | ⟨0, _⟩ => show (cfg2.win 6).index t (0 : Fin 2) * 1 + 1 * u.val = u.val; omega
  | ⟨1, _⟩ => show (cfg2.win 6).index t (1 : Fin 2) * 128 + 1 * k.val = k.val; omega

/-! ## What one grid point computes, on the arrays -/

/-- Row `r` of the activation block at point `t` is the activation of node `5000 t + r`. -/
theorem pt2_act (c : Dev nD) (t : Fin cfg2.N) (r : Fin 5000) (j : Fin 128) (n : Fin 100000) (hn : n.val = 5000 * t.val + r.val) :
    out2_7 (F := Ideal) (iblk2 V c 0 t) (iblk2 V c 1 t) (iblk2 V c 3 t) (iblk2 V c 4 t) (iblk2 V c 5 t) (iblk2 V c 6 t) (ix2 r j)
      = arr2_act V c n j := by
  refine (out2_7_apply _ _ _ _ _ _ r j).trans ?_
  unfold arr2_act
  have hx : (fun k => (iblk2 V c 0 t : Vec Ideal S5000x128 .f32) (ix2 r k)) = fun k => arr2_x V c (ix2 n k) :=
    funext fun k => blk2_x V c t r k n hn
  have ha : (fun k => (iblk2 V c 1 t : Vec Ideal S5000x128 .f32) (ix2 r k)) = fun k => arr2_a V c (ix2 n k) :=
    funext fun k => blk2_a V c t r k n hn
  have hwa : (fun k' k => (iblk2 V c 3 t : Vec Ideal S128x128 .bf16) (ix2 k' k)) = fun k' k => arr2_wa V c (ix2 k' k) :=
    funext fun k' => funext fun k => blk2_wa V c t k' k
  have hba : (fun k => (iblk2 V c 4 t : Vec Ideal S1x128 .f32) (ix2 0 k)) = fun k => arr2_ba V c (ix2 0 k) :=
    funext fun k => blk2_ba V c t 0 k
  have hwb : (fun k' k => (iblk2 V c 5 t : Vec Ideal S128x128 .bf16) (ix2 k' k)) = fun k' k => arr2_wb V c (ix2 k' k) :=
    funext fun k' => funext fun k => blk2_wb V c t k' k
  have hbb : (fun k => (iblk2 V c 6 t : Vec Ideal S1x128 .f32) (ix2 0 k)) = fun k => arr2_bb V c (ix2 0 k) :=
    funext fun k => blk2_bb V c t 0 k
  rw [hx, ha, hwa, hba, hwb, hbb]

/-- The pool block at point `t` is the partial pool of node block `t`. -/
theorem pt2_pool (c : Dev nD) (t : Fin cfg2.N) (t' : Fin 20) (ht : t'.val = t.val) (g : Fin 64) (j : Fin 128) :
    out2_8 (F := Ideal) (iblk2 V c 0 t) (iblk2 V c 1 t) (iblk2 V c 2 t) (iblk2 V c 3 t) (iblk2 V c 4 t) (iblk2 V c 5 t) (iblk2 V c 6 t) (ix3 0 g j)
      = arr2_pool V c t' g j := by
  refine (out2_8_apply _ _ _ _ _ _ _ g j).trans ?_
  unfold arr2_pool
  refine Finset.sum_congr rfl fun i _ => ?_
  have hn : (Cert.Spec.node t' i).val = 5000 * t.val + i.val := by
    show 5000 * t'.val + i.val = 5000 * t.val + i.val
    rw [ht]
  exact congrArg₂ (· * ·) (blk2_m V c t i g _ hn) (pt2_act V c t i j _ hn)

/-! ## What each point writes back is its block of the whole-array function -/

theorem blk2_act (c : Dev nD) (t : Fin cfg2.N) :
    (dat2 (F := Ideal) V c).flushed 7 t = ((cfg2.win 7).blk t).view.read (Elt Ideal) (arr2_G7 V c) := by
  show (cfg2.win 7).cut (grid2.coords t) ((dat2 V c).after 7 t) = _
  rw [after2_7]
  funext y
  obtain ⟨r, j, rfl⟩ : ∃ (r : Fin 5000) (j : Fin 128), y = ix2 r j := ⟨y 0, y 1, eq_ix2 y⟩
  obtain ⟨ea, eb⟩ := pt2_idx_act t
  have hN : cfg2.N = 20 := N_2
  have ht : t.val < 20 := by have := t.isLt; omega
  refine (pt2_act V c t r j ⟨5000 * t.val + r.val, by omega⟩ rfl).trans ?_
  show arr2_act V c _ j = arr2_act V c (((cfg2.win 7).blk t).view.emb (ix2 r j) 0) (((cfg2.win 7).blk t).view.emb (ix2 r j) 1)
  congr 1 <;> apply Fin.ext
  · show 5000 * t.val + r.val = (cfg2.win 7).index t (0 : Fin 2) * 5000 + 1 * r.val; omega
  · show j.val = (cfg2.win 7).index t (1 : Fin 2) * 128 + 1 * j.val; omega

theorem blk2_pool (c : Dev nD) (t : Fin cfg2.N) :
    (dat2 (F := Ideal) V c).flushed 8 t = ((cfg2.win 8).blk t).view.read (Elt Ideal) (arr2_G8 V c) := by
  show (cfg2.win 8).cut (grid2.coords t) ((dat2 V c).after 8 t) = _
  rw [after2_8]
  funext y
  obtain ⟨u, g, j, rfl⟩ : ∃ (u : Fin 1) (g : Fin 64) (j : Fin 128), y = ix3 u g j := ⟨y 0, y 1, y 2, eq_ix3 y⟩
  obtain rfl : u = 0 := Subsingleton.elim _ _
  obtain ⟨ea, eb, ec⟩ := pt2_idx_pool t
  have hN : cfg2.N = 20 := N_2
  have ht : t.val < 20 := by have := t.isLt; omega
  refine (pt2_pool V c t ⟨t.val, ht⟩ rfl g j).trans ?_
  show arr2_pool V c _ g j = arr2_pool V c (((cfg2.win 8).blk t).view.emb (ix3 0 g j) 0) (((cfg2.win 8).blk t).view.emb (ix3 0 g j) 1) (((cfg2.win 8).blk t).view.emb (ix3 0 g j) 2)
  congr 1 <;> apply Fin.ext
  · show t.val = (cfg2.win 8).index t (0 : Fin 3) * 1 + 1 * 0; omega
  · show g.val = (cfg2.win 8).index t (1 : Fin 3) * 64 + 1 * g.val; omega
  · show j.val = (cfg2.win 8).index t (2 : Fin 3) * 128 + 1 * j.val; omega

/-! ## The blocks cover the arrays -/

theorem cov2_act_mem (t : Fin cfg2.N) (i : S100000x128.Idx) :
    i ∈ ((cfg2.win 7).blk t).view.set ↔ ∀ a : Fin 2, (cfg2.win 7).index t a * S5000x128.size a ≤ (i a).val ∧ (i a).val < (cfg2.win 7).index t a * S5000x128.size a + S5000x128.size a := by
  show i ∈ ((View.whole (Pipeline.arrRef spec2 7)).slice ((cfg2.win 7).rect t)).set ↔ _
  rw [View.set_slice_whole, Rect.mem_set_unit]
  exact Iff.rfl

theorem cov2_pool_mem (t : Fin cfg2.N) (i : S20x64x128.Idx) :
    i ∈ ((cfg2.win 8).blk t).view.set ↔ ∀ a : Fin 3, (cfg2.win 8).index t a * S1x64x128.size a ≤ (i a).val ∧ (i a).val < (cfg2.win 8).index t a * S1x64x128.size a + S1x64x128.size a := by
  show i ∈ ((View.whole (Pipeline.arrRef spec2 8)).slice ((cfg2.win 8).rect t)).set ↔ _
  rw [View.set_slice_whole, Rect.mem_set_unit]
  exact Iff.rfl

/-- Row `n` of the activation array lies in the block of point `n / 5000`. -/
theorem cov2_act (i : S100000x128.Idx) : ∃ t : Fin cfg2.N, (cfg2.win 7).flush t = true ∧ i ∈ ((cfg2.win 7).blk t).view.set := by
  have hia : (i 0).val < 100000 := (i 0).isLt
  have hib : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨ea, eb⟩ := pt2_idx_act t
  refine ⟨t, flush2_7 t, ?_⟩
  rw [cov2_act_mem]
  intro a
  match a with
  | ⟨0, _⟩ => show (cfg2.win 7).index t (0 : Fin 2) * 5000 ≤ (i 0).val ∧ (i 0).val < (cfg2.win 7).index t (0 : Fin 2) * 5000 + 5000; omega
  | ⟨1, _⟩ => show (cfg2.win 7).index t (1 : Fin 2) * 128 ≤ (i 1).val ∧ (i 1).val < (cfg2.win 7).index t (1 : Fin 2) * 128 + 128; omega

/-- Slab `t` of the partial-pool array is the block of point `t`. -/
theorem cov2_pool (i : S20x64x128.Idx) : ∃ t : Fin cfg2.N, (cfg2.win 8).flush t = true ∧ i ∈ ((cfg2.win 8).blk t).view.set := by
  have hia : (i 0).val < 20 := (i 0).isLt
  have hib : (i 1).val < 64 := (i 1).isLt
  have hic : (i 2).val < 128 := (i 2).isLt
  have hN : cfg2.N = 20 := N_2
  obtain ⟨t, ht⟩ : ∃ t : Fin cfg2.N, t.val = (i 0).val := ⟨⟨(i 0).val, by omega⟩, rfl⟩
  obtain ⟨ea, eb, ec⟩ := pt2_idx_pool t
  refine ⟨t, flush2_8 t, ?_⟩
  rw [cov2_pool_mem]
  intro a
  match a with
  | ⟨0, _⟩ => show (cfg2.win 8).index t (0 : Fin 3) * 1 ≤ (i 0).val ∧ (i 0).val < (cfg2.win 8).index t (0 : Fin 3) * 1 + 1; omega
  | ⟨1, _⟩ => show (cfg2.win 8).index t (1 : Fin 3) * 64 ≤ (i 1).val ∧ (i 1).val < (cfg2.win 8).index t (1 : Fin 3) * 64 + 64; omega
  | ⟨2, _⟩ => show (cfg2.win 8).index t (2 : Fin 3) * 128 ≤ (i 2).val ∧ (i 2).val < (cfg2.win 8).index t (2 : Fin 3) * 128 + 128; omega

/-! ## The two output arrays after the region -/

theorem arr2_act_eq (c : Dev nD) : (dat2 (F := Ideal) V c).arrAt 7 cfg2.N = arr2_G7 V c :=
  (dat2 V c).arrAt_eq_of_cover 7 (arr2_G7 V c) (fun t _ => blk2_act V c t) cov2_act

theorem arr2_pool_eq (c : Dev nD) : (dat2 (F := Ideal) V c).arrAt 8 cfg2.N = arr2_G8 V c :=
  (dat2 V c).arrAt_eq_of_cover 8 (arr2_G8 V c) (fun t _ => blk2_pool V c t) cov2_pool

/-- THE ACTIVATION ARRAY after the region: row `n` is the perceptron of rows `n` of the node and aggregate arrays. -/
theorem arr2_7 (c : Dev nD) (n : Fin 100000) (j : Fin 128) : (dat2 (F := Ideal) V c).arrAt 7 cfg2.N (ix2 n j) = Cert.Spec.mlpRow (fun k => arr2_x V c (ix2 n k)) (fun k => arr2_a V c (ix2 n k)) (fun k' k => arr2_wa V c (ix2 k' k)) (fun k => arr2_ba V c (ix2 0 k)) (fun k' k => arr2_wb V c (ix2 k' k)) (fun k => arr2_bb V c (ix2 0 k)) j :=
  congrFun (arr2_act_eq V c) (ix2 n j)

/-- THE PARTIAL-POOL ARRAY after the region: slab `t` is membership times activation summed over node block `t`. -/
theorem arr2_8 (c : Dev nD) (t : Fin 20) (g : Fin 64) (j : Fin 128) : (dat2 (F := Ideal) V c).arrAt 8 cfg2.N (ix3 t g j) = ∑ i : Fin 5000, arr2_m V c (ix2 (Cert.Spec.node t i) g) * (dat2 (F := Ideal) V c).arrAt 7 cfg2.N (ix2 (Cert.Spec.node t i) j) := by
  refine (congrFun (arr2_pool_eq V c) (ix3 t g j)).trans ?_
  show arr2_pool V c t g j = _
  unfold arr2_pool
  refine Finset.sum_congr rfl fun i _ => ?_
  exact congrArg (arr2_m V c (ix2 (Cert.Spec.node t i) g) * ·) (congrFun (arr2_act_eq V c) (ix2 (Cert.Spec.node t i) j)).symm

end Cert.KernelIdeal.Hand

end
-- ==== Proof.Bridge.lean ====
/-
  The kernel program's result is the reference's, over the extended reals, from memories that agree on the arguments.

  Region by region: the features a region is entered with are the previous layer's output (the node features for the
  first), its aggregate array is the host's neighbour sum of them (the same operations in both programs), its weights and
  bias rows are the reference's up to layout and a format change; so its activation array is the reference's layer of
  the same features, and inductively the three activation arrays are the reference's three layers.  Each region's
  partial pools sum to the reference's pooling of that activation array.  Both programs join the three pools side by side.
-/
import proofs.«426858_j7756710937226_3_alg».proof.Proof.BridgeLaws
import proofs.«426858_j7756710937226_3_alg».proof.Proof.HostValue
import proofs.«426858_j7756710937226_3_alg».proof.Proof.ArrayValue0
import proofs.«426858_j7756710937226_3_alg».proof.Proof.ArrayValue1
import proofs.«426858_j7756710937226_3_alg».proof.Proof.ArrayValue2

set_option maxRecDepth 16384

noncomputable section

open scoped BigOperators

namespace Cert.KernelIdeal.Hand

open Idealize.ShloMosaic Idealize.ShloMosaic.TcCoe
open Idealize.SL Idealize.SL.Sem
open Idealize.ShloMosaic.Pipeline (Dat)
open Cert.KernelIdeal Cert.KernelIdeal.Gen Idealize.ShloMosaic.ValueIdx

/-- The neighbour sum is the same composite of host operations in the two programs. -/
theorem aggK_eq (h : FVec Ideal S100000x128 .f32) (ei : IVec S2x640000 32) :
    aggK (F := Ideal) h ei = Cert.ReferenceIdeal.RefValue.aggR (F := Ideal) h ei := by
  unfold aggK Cert.ReferenceIdeal.RefValue.aggR; rfl

variable (m : (ℓ : Loc nD τ sig) → Buf (Elt Ideal) ℓ)

/-- Region 0's activation array is the reference's layer of its input features. -/
theorem layer0 (c : Dev nD) : (Rdout0 m c main_v27_0 : FVec Ideal S100000x128 .f32)
    = Cert.ReferenceIdeal.RefValue.layerR (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  layer_of (arr0_x (Rdin0 m) c) (arr0_a (Rdin0 m) c) (Rdout0 m c main_v27_0) (arr0_wa (Rdin0 m) c) (arr0_wb (Rdin0 m) c)
    (arr0_ba (Rdin0 m) c) (arr0_bb (Rdin0 m) c) _ _ _ _ _ _
    (fun n j => (congrFun (Wout0_arr m c 7) (ix2 n j)).trans (arr0_7 (Rdin0 m) c n j))
    (in0_x m c) ((in0_a m c).trans (aggK_eq _ _)) (in0_wa m c) (in0_ba m c) (in0_wb m c) (in0_bb m c)

/-- Region 0's partial pools, summed over the blocks, are the reference's pooling of the region's activation array. -/
theorem pool0 (c : Dev nD) :
    Host.reduceAdd (F := Ideal) (Rdout0 m c main_v27_1) (constant S_ .f32 0x00000000#32) reducesTo_S20x64x128_S64x128_d0 h_S_
      = Cert.ReferenceIdeal.RefValue.poolR (F := Ideal) (m ((c : Thread nD τ).loc main_arg2)) (Rdout0 m c main_v27_0) :=
  pool_of (Rdout0 m c main_v27_1) (Rdout0 m c main_v27_0) ((dat0 (F := Ideal) (Rdin0 m) c).arrAt 7 cfg0.N) (arr0_m (Rdin0 m) c) _
    (fun t g j => (congrFun (Wout0_arr m c 8) (ix3 t g j)).trans (arr0_8 (Rdin0 m) c t g j))
    (Wout0_arr m c 7) (in0_m m c)

/-- Region 1's activation array is the reference's layer of its input features. -/
theorem layer1 (c : Dev nD) : (Rdout1 m c main_v41_0 : FVec Ideal S100000x128 .f32)
    = Cert.ReferenceIdeal.RefValue.layerR (F := Ideal) (Rdout0 m c main_v27_0) (m ((c : Thread nD τ).loc main_arg1)) (m ((c : Thread nD τ).loc main_arg7)) (m ((c : Thread nD τ).loc main_arg8)) (m ((c : Thread nD τ).loc main_arg9)) (m ((c : Thread nD τ).loc main_arg10)) :=
  layer_of (arr1_x (Rdin1 m) c) (arr1_a (Rdin1 m) c) (Rdout1 m c main_v41_0) (arr1_wa (Rdin1 m) c) (arr1_wb (Rdin1 m) c)
    (arr1_ba (Rdin1 m) c) (arr1_bb (Rdin1 m) c) _ _ _ _ _ _
    (fun n j => (congrFun (Wout1_arr m c 7) (ix2 n j)).trans (arr1_7 (Rdin1 m) c n j))
    (in1_x m c) ((in1_a m c).trans (aggK_eq _ _)) (in1_wa m c) (in1_ba m c) (in1_wb m c) (in1_bb m c)

/-- Region 1's partial pools, summed over the blocks, are the reference's pooling of the region's activation array. -/
theorem pool1 (c : Dev nD) :
    Host.reduceAdd (F := Ideal) (Rdout1 m c main_v41_1) (constant S_ .f32 0x00000000#32) reducesTo_S20x64x128_S64x128_d0 h_S_
      = Cert.ReferenceIdeal.RefValue.poolR (F := Ideal) (m ((c : Thread nD τ).loc main_arg2)) (Rdout1 m c main_v41_0) :=
  pool_of (Rdout1 m c main_v41_1) (Rdout1 m c main_v41_0) ((dat1 (F := Ideal) (Rdin1 m) c).arrAt 7 cfg1.N) (arr1_m (Rdin1 m) c) _
    (fun t g j => (congrFun (Wout1_arr m c 8) (ix3 t g j)).trans (arr1_8 (Rdin1 m) c t g j))
    (Wout1_arr m c 7) (in1_m m c)

/-- Region 2's activation array is the reference's layer of its input features. -/
theorem layer2 (c : Dev nD) : (Rdout2 m c main_v55_0 : FVec Ideal S100000x128 .f32)
    = Cert.ReferenceIdeal.RefValue.layerR (F := Ideal) (Rdout1 m c main_v41_0) (m ((c : Thread nD τ).loc main_arg1)) (m ((c : Thread nD τ).loc main_arg7)) (m ((c : Thread nD τ).loc main_arg8)) (m ((c : Thread nD τ).loc main_arg9)) (m ((c : Thread nD τ).loc main_arg10)) :=
  layer_of (arr2_x (Rdin2 m) c) (arr2_a (Rdin2 m) c) (Rdout2 m c main_v55_0) (arr2_wa (Rdin2 m) c) (arr2_wb (Rdin2 m) c)
    (arr2_ba (Rdin2 m) c) (arr2_bb (Rdin2 m) c) _ _ _ _ _ _
    (fun n j => (congrFun (Wout2_arr m c 7) (ix2 n j)).trans (arr2_7 (Rdin2 m) c n j))
    (in2_x m c) ((in2_a m c).trans (aggK_eq _ _)) (in2_wa m c) (in2_ba m c) (in2_wb m c) (in2_bb m c)

/-- Region 2's partial pools, summed over the blocks, are the reference's pooling of the region's activation array. -/
theorem pool2 (c : Dev nD) :
    Host.reduceAdd (F := Ideal) (Rdout2 m c main_v55_1) (constant S_ .f32 0x00000000#32) reducesTo_S20x64x128_S64x128_d0 h_S_
      = Cert.ReferenceIdeal.RefValue.poolR (F := Ideal) (m ((c : Thread nD τ).loc main_arg2)) (Rdout2 m c main_v55_0) :=
  pool_of (Rdout2 m c main_v55_1) (Rdout2 m c main_v55_0) ((dat2 (F := Ideal) (Rdin2 m) c).arrAt 7 cfg2.N) (arr2_m (Rdin2 m) c) _
    (fun t g j => (congrFun (Wout2_arr m c 8) (ix3 t g j)).trans (arr2_8 (Rdin2 m) c t g j))
    (Wout2_arr m c 7) (in2_m m c)

/-- The two programs' results agree. -/
theorem bridge (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)) :
    Cert.ReferenceIdeal.Value.res_main_v76 (F := Ideal) m' c = W7 m c (Proc.devRef .tc main_v57) := by
  obtain ⟨h0, h1, h2, h3, h4, h5, h6, h7, h8, h9, h10⟩ := hag
  have e1 : Cert.ReferenceIdeal.RefValue.H1 (F := Ideal) m' c = Rdout0 m c main_v27_0 := by
    unfold Cert.ReferenceIdeal.RefValue.H1; rw [h0, h1, h3, h4, h5, h6]; exact (layer0 m c).symm
  have e2 : Cert.ReferenceIdeal.RefValue.H2 (F := Ideal) m' c = Rdout1 m c main_v41_0 := by
    unfold Cert.ReferenceIdeal.RefValue.H2; rw [e1, h1, h7, h8, h9, h10]; exact (layer1 m c).symm
  have e3 : Cert.ReferenceIdeal.RefValue.H3 (F := Ideal) m' c = Rdout2 m c main_v55_0 := by
    unfold Cert.ReferenceIdeal.RefValue.H3; rw [e2, h1, h7, h8, h9, h10]; exact (layer2 m c).symm
  rw [out_all, show Cert.ReferenceIdeal.Value.res_main_v76 (F := Ideal) m' c = Cert.ReferenceIdeal.Value.res_out0 (F := Ideal) m' c from rfl,
    Cert.ReferenceIdeal.RefValue.res_eq, e1, e2, e3, h2, pool0, pool1, pool2]

end Cert.KernelIdeal.Hand

end
-- ==== Proof.lean ====
/-
  The certificate of a three-layer graph network with sum pooling, kernel against reference, over the extended reals.

  Each layer sends the node features h and their neighbour sums a (a gather of rows along the edges' sources added into
  the rows of the edges' targets) to  rect(rect((h + a)·Wa + ba)·Wb + bb),  rect v = max v 0, and each layer's output is
  pooled per graph: row g of the pool is the sum of the rows of the nodes whose graph id is g.  The result is the three
  pools side by side.  The reference does the layer with two whole-array products and the pooling with a scatter-add.
  The kernel program does the neighbour sums with the same host operations, the layer in a kernel over 20 blocks of 5000
  nodes (format changes around the products are the identity here), and the pooling as the product of the transposed
  membership block (entry 1 where the node's graph id is g, else 0) with the layer's block, one partial pool per block,
  summed over the blocks by a host sum.  A product with 1 is the factor and with 0 is 0, and sums of extended reals may
  be regrouped, so the block-by-block sum of membership-weighted rows is the sum over each graph's nodes; a node's
  output row depends on that node's rows only, so the blocks' outputs are the whole-array layer's rows.  No finiteness
  is used: the precondition is never opened.

  The three frames: each kernel program is seven segments — host stretch, region, host stretch, region, host stretch,
  region, host stretch — run from the launch memory to the return, no segment writing an argument array; the reference
  is one stretch of host operations.  The idealization rewrote nothing, so its statement is trivial.
-/
import proofs.«426858_j7756710937226_3_alg».proof.Defs
import proofs.«426858_j7756710937226_3_alg».proof.Proof.Gen.Kernel
import proofs.«426858_j7756710937226_3_alg».proof.Proof.Gen.KernelIdeal
import proofs.«426858_j7756710937226_3_alg».proof.Proof.Gen.ReferenceIdeal
import proofs.«426858_j7756710937226_3_alg».proof.Proof.Gen.Pre_finite_inputs
import proofs.«426858_j7756710937226_3_alg».proof.Proof.Gen.ReferenceIdeal.Run
import proofs.«426858_j7756710937226_3_alg».proof.Proof.KRunAll
import proofs.«426858_j7756710937226_3_alg».proof.Proof.RunAll
import proofs.«426858_j7756710937226_3_alg».proof.Proof.Bridge
import Idealize.ShloMosaic.Adequacy
import Idealize.ShloMosaic.Init

noncomputable section

namespace Cert.Proof

open Idealize.ShloMosaic Idealize.SL.Sem

/-- The word-level kernel program runs to its end and leaves its argument arrays as launched. -/
theorem frame_k : Cert.frame_Kernel (hKernel := Cert.Kernel.Gen.facts) (hPre_finite_inputs := Cert.Pre_finite_inputs.Gen.facts) :=
  fun m ρ _ => Cert.Kernel.Hand.frame_all m ρ

/-- So does the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_all m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W7 m c (Proc.devRef .tc Cert.KernelIdeal.main_v57), Cert.KernelIdeal.Hand.result_all (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Hand.bridge m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
